-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x512x512 : Shape := ⟨4, ![4, 64, 512, 512]⟩
abbrev S4x512x512 : Shape := ⟨3, ![4, 512, 512]⟩
abbrev S_ : Shape := ⟨0, ![]⟩

class Facts : Prop where
  bcast_S_S4x64x512x512 : S_.BroadcastsInDim S4x64x512x512 (![] : Fin 0 → Fin S4x64x512x512.rank)
  reducesTo_S4x64x512x512_S_d0_1_2_3 : S4x64x512x512.ReducesTo [0, 1, 2, 3] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_

variable [Facts]

def fn {F : FTy → Type} [FloatOps F] (main_arg0 : FVec F S4x64x512x512 .f32) (main_arg1 : IVec S4x512x512 32) : IVec S_ 1 :=
  let main_v0 : FVec F S4x64x512x512 .f32 := Host.absf main_arg0
  let main_cst : FVec F S_ .f32 := constant S_ .f32 0x7F800000#32
  let main_v1 : FVec F S4x64x512x512 .f32 := broadcastInDim S4x64x512x512 ![] bcast_S_S4x64x512x512 main_cst
  let main_v2 : IVec S4x64x512x512 1 := cmpf .olt main_v0 main_v1
  let main_c : IVec S_ 1 := constantI S_ 1 1#1
  let main_v3 : IVec S_ 1 := (fun x v => Host.reduce IntOp.andi x v reducesTo_S4x64x512x512_S_d0_1_2_3 h_S_) main_v2 main_c
  let main_c_0 : IVec S_ 32 := constantI S_ 32 0#32
  let main_v4 : IVec S4x512x512 32 := broadcastInDim S4x512x512 ![] bcast_S_S4x512x512 main_c_0
  let main_v5 : IVec S4x512x512 1 := cmpi .sge main_arg1 main_v4
  let main_c_1 : IVec S_ 1 := constantI S_ 1 1#1
  let main_v6 : IVec S_ 1 := (fun x v => Host.reduce IntOp.andi x v reducesTo_S4x512x512_S_d0_1_2 h_S_) main_v5 main_c_1
  let main_v7 : IVec S_ 1 := andi main_v3 main_v6
  let main_c_2 : IVec S_ 32 := constantI S_ 32 19#32
  let main_v8 : IVec S4x512x512 32 := broadcastInDim S4x512x512 ![] bcast_S_S4x512x512 main_c_2
  let main_v9 : IVec S4x512x512 1 := cmpi .slt main_arg1 main_v8
  let main_c_3 : IVec S_ 1 := constantI S_ 1 1#1
  let main_v10 : IVec S_ 1 := (fun x v => Host.reduce IntOp.andi x v reducesTo_S4x512x512_S_d0_1_2 h_S_) main_v9 main_c_3
  let main_v11 : IVec S_ 1 := andi main_v7 main_v10
  main_v11
-- ==== Kernel.lean ====
abbrev S4x64x512x512 : Shape := ⟨4, ![4, 64, 512, 512]⟩
abbrev S4x512x512 : Shape := ⟨3, ![4, 512, 512]⟩
abbrev S4x64x262144 : Shape := ⟨3, ![4, 64, 262144]⟩
abbrev S4x1x262144 : Shape := ⟨3, ![4, 1, 262144]⟩
abbrev S4x64x128 : Shape := ⟨3, ![4, 64, 128]⟩
abbrev S4x1x128 : Shape := ⟨3, ![4, 1, 128]⟩
abbrev S1x64x16384 : Shape := ⟨3, ![1, 64, 16384]⟩
abbrev S1x1x16384 : Shape := ⟨3, ![1, 1, 16384]⟩
abbrev S1x64x128 : Shape := ⟨3, ![1, 64, 128]⟩
abbrev S1x1x128 : Shape := ⟨3, ![1, 1, 128]⟩
abbrev S64x128 : Shape := ⟨2, ![64, 128]⟩
abbrev S1x128 : Shape := ⟨2, ![1, 128]⟩
abbrev S64x16384 : Shape := ⟨2, ![64, 16384]⟩
abbrev S1x16384 : Shape := ⟨2, ![1, 16384]⟩
abbrev S128x1 : Shape := ⟨2, ![128, 1]⟩
abbrev S128x16384 : Shape := ⟨2, ![128, 16384]⟩
abbrev S_ : Shape := ⟨0, ![]⟩
abbrev S16384 : Shape := ⟨1, ![16384]⟩
abbrev S128x64 : Shape := ⟨2, ![128, 64]⟩
abbrev S19x64 : Shape := ⟨2, ![19, 64]⟩
abbrev S128 : Shape := ⟨1, ![128]⟩
abbrev S19 : Shape := ⟨1, ![19]⟩
abbrev S19x1x64 : Shape := ⟨3, ![19, 1, 64]⟩
abbrev S1x19x64 : Shape := ⟨3, ![1, 19, 64]⟩
abbrev S19x19x64 : Shape := ⟨3, ![19, 19, 64]⟩
abbrev S19x19 : Shape := ⟨2, ![19, 19]⟩
abbrev S19x1 : Shape := ⟨2, ![19, 1]⟩
abbrev S1x19 : Shape := ⟨2, ![1, 19]⟩

abbrev nBuf : Space → Nat
  | .hbm => 104
  | .vmem => 15
  | .smem => 0
  | _ => 0

abbrev bufTy : (tb : Table) → Fin (tcTables nBuf tb) → BufTy
  | .hbm, ⟨0, _⟩ => ⟨S4x64x512x512, .f32⟩
  | .hbm, ⟨1, _⟩ => ⟨S4x512x512, .i32⟩
  | .hbm, ⟨2, _⟩ => ⟨S4x64x262144, .f32⟩
  | .hbm, ⟨3, _⟩ => ⟨S4x1x262144, .i32⟩
  | .hbm, ⟨4, _⟩ => ⟨S4x64x128, .f32⟩
  | .hbm, ⟨5, _⟩ => ⟨S4x1x128, .f32⟩
  | .hbm, ⟨6, _⟩ => ⟨S_, .f32⟩
  | .hbm, ⟨7, _⟩ => ⟨S64x128, .f32⟩
  | .hbm, ⟨8, _⟩ => ⟨S_, .f32⟩
  | .hbm, ⟨9, _⟩ => ⟨S1x128, .f32⟩
  | .hbm, ⟨10, _⟩ => ⟨S_, .f32⟩
  | .hbm, ⟨11, _⟩ => ⟨S1x128, .f32⟩
  | .hbm, ⟨12, _⟩ => ⟨S1x128, .f32⟩
  | .hbm, ⟨13, _⟩ => ⟨S64x128, .f32⟩
  | .hbm, ⟨14, _⟩ => ⟨S64x128, .f32⟩
  | .hbm, ⟨15, _⟩ => ⟨S_, .f32⟩
  | .hbm, ⟨16, _⟩ => ⟨S1x128, .f32⟩
  | .hbm, ⟨17, _⟩ => ⟨S1x128, .i1⟩
  | .hbm, ⟨18, _⟩ => ⟨S1x128, .f32⟩
  | .hbm, ⟨19, _⟩ => ⟨S_, .f32⟩
  | .hbm, ⟨20, _⟩ => ⟨S_, .f32⟩
  | .hbm, ⟨21, _⟩ => ⟨S4x1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S_, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S128x64, .f32⟩
  | .hbm, ⟨35, _⟩ => ⟨S19x64, .f32⟩
  | .hbm, ⟨36, _⟩ => ⟨S128, .i1⟩
  | .hbm, ⟨37, _⟩ => ⟨S19, .i1⟩
  | .hbm, ⟨38, _⟩ => ⟨S19x1x64, .f32⟩
  | .hbm, ⟨39, _⟩ => ⟨S1x19x64, .f32⟩
  | .hbm, ⟨40, _⟩ => ⟨S19x19x64, .f32⟩
  | .hbm, ⟨41, _⟩ => ⟨S19x19x64, .f32⟩
  | .hbm, ⟨42, _⟩ => ⟨S19x19x64, .f32⟩
  | .hbm, ⟨43, _⟩ => ⟨S19x19x64, .f32⟩
  | .hbm, ⟨44, _⟩ => ⟨S_, .f32⟩
  | .hbm, ⟨45, _⟩ => ⟨S19x19, .f32⟩
  | .hbm, ⟨46, _⟩ => ⟨S19x19, .i32⟩
  | .hbm, ⟨47, _⟩ => ⟨S19x19, .i32⟩
  | .hbm, ⟨48, _⟩ => ⟨S_, .i32⟩
  | .hbm, ⟨49, _⟩ => ⟨S19x19, .i32⟩
  | .hbm, ⟨50, _⟩ => ⟨S19x19, .i32⟩
  | .hbm, ⟨51, _⟩ => ⟨S19x19, .i1⟩
  | .hbm, ⟨52, _⟩ => ⟨S19x19, .i1⟩
  | .hbm, ⟨53, _⟩ => ⟨S19x1, .i1⟩
  | .hbm, ⟨54, _⟩ => ⟨S1x19, .i1⟩
  | .hbm, ⟨55, _⟩ => ⟨S19x19, .i1⟩
  | .hbm, ⟨56, _⟩ => ⟨S19x19, .i1⟩
  | .hbm, ⟨57, _⟩ => ⟨S19x19, .i1⟩
  | .hbm, ⟨58, _⟩ => ⟨S19x19, .i1⟩
  | .hbm, ⟨59, _⟩ => ⟨S_, .f32⟩
  | .hbm, ⟨60, _⟩ => ⟨S_, .f32⟩
  | .hbm, ⟨61, _⟩ => ⟨S19x19, .f32⟩
  | .hbm, ⟨62, _⟩ => ⟨S19x19, .f32⟩
  | .hbm, ⟨63, _⟩ => ⟨S19x19, .f32⟩
  | .hbm, ⟨64, _⟩ => ⟨S_, .f32⟩
  | .hbm, ⟨65, _⟩ => ⟨S19x19, .f32⟩
  | .hbm, ⟨66, _⟩ => ⟨S19x19, .f32⟩
  | .hbm, ⟨67, _⟩ => ⟨S_, .f32⟩
  | .hbm, ⟨68, _⟩ => ⟨S19x19, .f32⟩
  | .hbm, ⟨69, _⟩ => ⟨S19x19, .f32⟩
  | .hbm, ⟨70, _⟩ => ⟨S19x19, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S19x19, .f32⟩
  | .hbm, ⟨79, _⟩ => ⟨S19x19, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S19x64, .f32⟩
  | .hbm, ⟨84, _⟩ => ⟨S_, .f32⟩
  | .hbm, ⟨85, _⟩ => ⟨S19, .f32⟩
  | .hbm, ⟨86, _⟩ => ⟨S_, .f32⟩
  | .hbm, ⟨87, _⟩ => ⟨S_, .f32⟩
  | .hbm, ⟨88, _⟩ => ⟨S19, .f32⟩
  | .hbm, ⟨89, _⟩ => ⟨S19, .f32⟩
  | .hbm, ⟨90, _⟩ => ⟨S19, .f32⟩
  | .hbm, ⟨91, _⟩ => ⟨S_, .f32⟩
  | .hbm, ⟨92, _⟩ => ⟨S_, .f32⟩
  | .hbm, ⟨93, _⟩ => ⟨S19, .f32⟩
  | .hbm, ⟨94, _⟩ => ⟨S19, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .local _ .vmem, ⟨0, _⟩ => ⟨S1x64x16384, .f32⟩
  | .local _ .vmem, ⟨1, _⟩ => ⟨S1x64x16384, .f32⟩
  | .local _ .vmem, ⟨2, _⟩ => ⟨S1x1x16384, .i32⟩
  | .local _ .vmem, ⟨3, _⟩ => ⟨S1x1x16384, .i32⟩
  | .local _ .vmem, ⟨4, _⟩ => ⟨S1x64x128, .f32⟩
  | .local _ .vmem, ⟨5, _⟩ => ⟨S1x64x128, .f32⟩
  | .local _ .vmem, ⟨6, _⟩ => ⟨S1x1x128, .f32⟩
  | .local _ .vmem, ⟨7, _⟩ => ⟨S1x1x128, .f32⟩
  | .local _ .vmem, ⟨8, _⟩ => ⟨S1x64x16384, .f32⟩
  | .local _ .vmem, ⟨9, _⟩ => ⟨S1x64x16384, .f32⟩
  | .local _ .vmem, ⟨10, _⟩ => ⟨S1x1x16384, .i32⟩
  | .local _ .vmem, ⟨11, _⟩ => ⟨S1x1x16384, .i32⟩
  | .local _ .vmem, ⟨12, _⟩ => ⟨S64x128, .f32⟩
  | .local _ .vmem, ⟨13, _⟩ => ⟨S1x1x128, .f32⟩
  | .local _ .vmem, ⟨14, _⟩ => ⟨S1x1x128, .f32⟩
  | _, _ => ⟨S4x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_cst_7 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_call1_v0 : Ref sig .tc := ⟨.hbm, 60, rfl⟩
abbrev main_call1_v1 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_call2_cst : Ref sig .tc := ⟨.hbm, 67, rfl⟩
abbrev main_call2_v0 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_cst_12 : Ref sig .tc := ⟨.hbm, 74, rfl⟩
abbrev main_v51 : Ref sig .tc := ⟨.hbm, 75, rfl⟩
abbrev main_cst_13 : Ref sig .tc := ⟨.hbm, 76, rfl⟩
abbrev main_call3_v0 : Ref sig .tc := ⟨.hbm, 77, rfl⟩
abbrev main_call3_v1 : Ref sig .tc := ⟨.hbm, 78, rfl⟩
abbrev main_v52 : Ref sig .tc := ⟨.hbm, 79, rfl⟩
abbrev main_cst_14 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_15 : Ref sig .tc := ⟨.hbm, 84, rfl⟩
abbrev main_v56 : Ref sig .tc := ⟨.hbm, 85, rfl⟩
abbrev main_cst_16 : Ref sig .tc := ⟨.hbm, 86, rfl⟩
abbrev main_call4_v0 : Ref sig .tc := ⟨.hbm, 87, rfl⟩
abbrev main_call4_v1 : Ref sig .tc := ⟨.hbm, 88, rfl⟩
abbrev main_v57 : Ref sig .tc := ⟨.hbm, 89, rfl⟩
abbrev main_v58 : Ref sig .tc := ⟨.hbm, 90, rfl⟩
abbrev main_cst_17 : Ref sig .tc := ⟨.hbm, 91, rfl⟩
abbrev main_call5_v0 : Ref sig .tc := ⟨.hbm, 92, rfl⟩
abbrev main_call5_v1 : Ref sig .tc := ⟨.hbm, 93, rfl⟩
abbrev main_v59 : Ref sig .tc := ⟨.hbm, 94, rfl⟩
abbrev main_cst_18 : Ref sig .tc := ⟨.hbm, 95, rfl⟩
abbrev main_v60 : Ref sig .tc := ⟨.hbm, 96, rfl⟩
abbrev main_cst_19 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_20 : Ref sig .tc := ⟨.hbm, 101, rfl⟩
abbrev main_v64 : Ref sig .tc := ⟨.hbm, 102, rfl⟩
abbrev main_v65 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x16384 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S4x64x512x512_S4x64x262144 : S4x64x512x512.ShapeCasts S4x64x262144
  shapeCasts_S4x512x512_S4x1x262144 : S4x512x512.ShapeCasts S4x1x262144
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S1x64x16384_S1x64x16384_0_0_0 : ∀ a, (![0, 0, 0] : Fin 3 → Nat) a + S1x64x16384.size a ≤ S1x64x16384.size a
  h_S1x64x16384 : 0 < S1x64x16384.numel
  shapeCasts_S1x64x16384_S64x16384 : S1x64x16384.ShapeCasts S64x16384
  inb_S1x1x16384_S1x1x16384_0_0_0 : ∀ a, (![0, 0, 0] : Fin 3 → Nat) a + S1x1x16384.size a ≤ S1x1x16384.size a
  h_S1x1x16384 : 0 < S1x1x16384.numel
  shapeCasts_S1x1x16384_S1x16384 : S1x1x16384.ShapeCasts S1x16384
  bitsLt_bf16_f32 : FTy.bits .bf16 < FTy.bits .f32
  iota_S128x1_d0_w32 : S128x1.Iotas .tc 32 [0]
  broadcasts_S128x1_S128x16384 : S128x1.Broadcasts S128x16384
  broadcasts_S1x16384_S128x16384 : S1x16384.Broadcasts S128x16384
  natLt_1_32 : 1 < 32
  reducesTo_S4x64x128_S64x128_d0 : S4x64x128.ReducesTo [0] S64x128
  h_S_ : 0 < S_.numel
  reducesTo_S4x1x128_S1x128_d0 : S4x1x128.ReducesTo [0] S1x128
  bcast_S_S1x128 : S_.BroadcastsInDim S1x128 (![] : Fin 0 → Fin S1x128.rank)
  bcast_S1x128_S64x128_0_1 : S1x128.BroadcastsInDim S64x128 (![0, 1] : Fin 2 → Fin S64x128.rank)
  reducesTo_S1x128_S_d0_1 : S1x128.ReducesTo [0, 1] S_
  inb_S64x128_S64x128_0_0 : ∀ a, (![0, 0] : Fin 2 → Nat) a + S64x128.size a ≤ S64x128.size a
  h_S64x128 : 0 < S64x128.numel
  shapeCasts_S64x128_S64x128 : S64x128.ShapeCasts S64x128
  reduces_S64x16384_S16384 : S64x16384.Reduces [0] S16384
  shapeCasts_S16384_S1x16384 : S16384.ShapeCasts S1x16384
  transposes_S64x128_S128x64_1_0 : S64x128.Transposes [1, 0] S128x64
  slices_S128x64_S19x64_0_0 : S128x64.Slices ![0, 0] S19x64
  shapeCasts_S1x128_S128 : S1x128.ShapeCasts S128
  slices_S128_S19_0 : S128.Slices ![0] S19
  bcast_S19x64_S19x1x64_0_2 : S19x64.BroadcastsInDim S19x1x64 (![0, 2] : Fin 2 → Fin S19x1x64.rank)
  bcast_S19x64_S1x19x64_1_2 : S19x64.BroadcastsInDim S1x19x64 (![1, 2] : Fin 2 → Fin S1x19x64.rank)
  bcast_S19x1x64_S19x19x64_0_1_2 : S19x1x64.BroadcastsInDim S19x19x64 (![0, 1, 2] : Fin 3 → Fin S19x19x64.rank)
  bcast_S1x19x64_S19x19x64_0_1_2 : S1x19x64.BroadcastsInDim S19x19x64 (![0, 1, 2] : Fin 3 → Fin S19x19x64.rank)
  reducesTo_S19x19x64_S19x19_d2 : S19x19x64.ReducesTo [2] S19x19
  bcast_S_S19x19 : S_.BroadcastsInDim S19x19 (![] : Fin 0 → Fin S19x19.rank)
  bcast_S19_S19x1_0 : S19.BroadcastsInDim S19x1 (![0] : Fin 1 → Fin S19x1.rank)
  bcast_S19_S1x19_1 : S19.BroadcastsInDim S1x19 (![1] : Fin 1 → Fin S1x19.rank)
  bcast_S19x1_S19x19_0_1 : S19x1.BroadcastsInDim S19x19 (![0, 1] : Fin 2 → Fin S19x19.rank)
  bcast_S1x19_S19x19_0_1 : S1x19.BroadcastsInDim S19x19 (![0, 1] : Fin 2 → Fin S19x19.rank)
  reducesTo_S19x19_S_d0_1 : S19x19.ReducesTo [0, 1] S_
  reducesTo_S19x64_S19_d1 : S19x64.ReducesTo [1] S19
  bcast_S_S19 : S_.BroadcastsInDim S19 (![] : Fin 0 → Fin S19.rank)
  reducesTo_S19_S_d0 : S19.ReducesTo [0] S_
  dot_S64x16384_S128x16384_S64x128_1_1_0_0_n_n_wf : DotDims.WF S64x16384 S128x16384 S64x128 [1] [1] [0] [0] [] []
  dot_S1x16384_S128x16384_S1x128_1_1_0_0_n_n_wf : DotDims.WF S1x16384 S128x16384 S1x128 [1] [1] [0] [0] [] []
  dot_S64x128_S128x16384_S64x16384_1_0_0_1_n_n_wf : DotDims.WF S64x128 S128x16384 S64x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x16384.size a ≤ S4x64x262144.size a
  hwx0_0 : ∀ i : grid0.Coords, EltTy.bits .f32 = 32 ∨ (Rect.block (s := S4x64x262144) S1x64x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x16384.size a ≤ S4x1x262144.size a
  hwx0_1 : ∀ i : grid0.Coords, EltTy.bits .i32 = 32 ∨ (Rect.block (s := S4x1x262144) S1x1x16384.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S4x64x128.size a
  hwx0_2 : ∀ i : grid0.Coords, EltTy.bits .f32 = 32 ∨ (Rect.block (s := S4x64x128) S1x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S4x1x128.size a
  hwx0_3 : ∀ i : grid0.Coords, EltTy.bits .f32 = 32 ∨ (Rect.block (s := S4x1x128) S1x1x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x16384.size a ≤ S4x64x262144.size a
  hwx1_0 : ∀ i : grid1.Coords, EltTy.bits .f32 = 32 ∨ (Rect.block (s := S4x64x262144) S1x64x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x16384.size a ≤ S4x1x262144.size a
  hwx1_1 : ∀ i : grid1.Coords, EltTy.bits .i32 = 32 ∨ (Rect.block (s := S4x1x262144) S1x1x16384.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S4x1x128.size a
  hwx1_3 : ∀ i : grid1.Coords, EltTy.bits .f32 = 32 ∨ (Rect.block (s := S4x1x128) S1x1x128.size (cc1_transform_3 i) (hinb1_3 i)).WholeWords (EltTy.packing .f32)

variable [Facts₀]

def dot_S64x16384_S128x16384_S64x128_1_1_0_0_n_n : DotDims S64x16384 S128x16384 S64x128 where
  lhsContracting := [1]
  rhsContracting := [1]
  lhsNonContracting := [0]
  rhsNonContracting := [0]
  lhsBatch := []
  rhsBatch := []
  wf := dot_S64x16384_S128x16384_S64x128_1_1_0_0_n_n_wf
def dot_S1x16384_S128x16384_S1x128_1_1_0_0_n_n : DotDims S1x16384 S128x16384 S1x128 where
  lhsContracting := [1]
  rhsContracting := [1]
  lhsNonContracting := [0]
  rhsNonContracting := [0]
  lhsBatch := []
  rhsBatch := []
  wf := dot_S1x16384_S128x16384_S1x128_1_1_0_0_n_n_wf
def dot_S64x128_S128x16384_S64x16384_1_0_0_1_n_n : DotDims S64x128 S128x16384 S64x16384 where
  lhsContracting := [1]
  rhsContracting := [0]
  lhsNonContracting := [0]
  rhsNonContracting := [1]
  lhsBatch := []
  rhsBatch := []
  wf := dot_S64x128_S128x16384_S64x16384_1_0_0_1_n_n_wf

abbrev win0_0 : Pipeline.Window sig grid0 :=
  Pipeline.Window.ofSpec (Memref.whole main_v0) S1x64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x64x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1x64x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x1x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x64x512x512 : Shape := ⟨4, ![4, 64, 512, 512]⟩
abbrev S4x512x512 : Shape := ⟨3, ![4, 512, 512]⟩
abbrev S4x512x512x64 : Shape := ⟨4, ![4, 512, 512, 64]⟩
abbrev S1048576x64 : Shape := ⟨2, ![1048576, 64]⟩
abbrev S1048576 : Shape := ⟨1, ![1048576]⟩
abbrev S_ : Shape := ⟨0, ![]⟩
abbrev S19 : Shape := ⟨1, ![19]⟩
abbrev S1048576x1 : Shape := ⟨2, ![1048576, 1]⟩
abbrev S19x64 : Shape := ⟨2, ![19, 64]⟩
abbrev S19x1 : Shape := ⟨2, ![19, 1]⟩
abbrev S19x1x64 : Shape := ⟨3, ![19, 1, 64]⟩
abbrev S1x19x64 : Shape := ⟨3, ![1, 19, 64]⟩
abbrev S19x19x64 : Shape := ⟨3, ![19, 19, 64]⟩
abbrev S19x19 : Shape := ⟨2, ![19, 19]⟩
abbrev S1x19 : Shape := ⟨2, ![1, 19]⟩

abbrev nBuf : Space → Nat
  | .hbm => 131
  | .vmem => 0
  | .smem => 0
  | _ => 0

abbrev hbmTy0_0 (i : Nat) : BufTy := match i % 128 with
  | 0 => ⟨S4x64x512x512, .f32⟩
  | 1 => ⟨S4x512x512, .i32⟩
  | 2 => ⟨S4x512x512x64, .f32⟩
  | 3 => ⟨S1048576x64, .f32⟩
  | 4 => ⟨S1048576, .i32⟩
  | 5 => ⟨S_, .f32⟩
  | 6 => ⟨S1048576, .f32⟩
  | 7 => ⟨S_, .f32⟩
  | 8 => ⟨S19, .f32⟩
  | 9 => ⟨S1048576x1, .i32⟩
  | 10 => ⟨S19, .f32⟩
  | 11 => ⟨S_, .f32⟩
  | 12 => ⟨S19x64, .f32⟩
  | 13 => ⟨S1048576x1, .i32⟩
  | 14 => ⟨S19x64, .f32⟩
  | 15 => ⟨S_, .f32⟩
  | 16 => ⟨S19, .f32⟩
  | 17 => ⟨S19, .i1⟩
  | 18 => ⟨S_, .f32⟩
  | 19 => ⟨S19, .f32⟩
  | 20 => ⟨S19, .f32⟩
  | 21 => ⟨S19x1, .f32⟩
  | 22 => ⟨S19x64, .f32⟩
  | 23 => ⟨S19x64, .f32⟩
  | 24 => ⟨S19, .f32⟩
  | 25 => ⟨S_, .f32⟩
  | 26 => ⟨S_, .f32⟩
  | 27 => ⟨S_, .i32⟩
  | 28 => ⟨S1048576, .i32⟩
  | 29 => ⟨S1048576, .i1⟩
  | 30 => ⟨S_, .i32⟩
  | 31 => ⟨S1048576, .i32⟩
  | 32 => ⟨S1048576, .i32⟩
  | 33 => ⟨S1048576, .i32⟩
  | 34 => ⟨S1048576x1, .i32⟩
  | 35 => ⟨S1048576x64, .f32⟩
  | 36 => ⟨S1048576x64, .f32⟩
  | 37 => ⟨S1048576x64, .f32⟩
  | 38 => ⟨S_, .f32⟩
  | 39 => ⟨S1048576, .f32⟩
  | 40 => ⟨S_, .f32⟩
  | 41 => ⟨S1048576, .f32⟩
  | 42 => ⟨S1048576, .f32⟩
  | 43 => ⟨S1048576, .f32⟩
  | 44 => ⟨S_, .f32⟩
  | 45 => ⟨S1048576, .f32⟩
  | 46 => ⟨S1048576, .f32⟩
  | 47 => ⟨S_, .f32⟩
  | 48 => ⟨S1048576, .f32⟩
  | 49 => ⟨S1048576, .f32⟩
  | 50 => ⟨S1048576, .f32⟩
  | 51 => ⟨S_, .f32⟩
  | 52 => ⟨S19, .f32⟩
  | 53 => ⟨S1048576x1, .i32⟩
  | 54 => ⟨S19, .f32⟩
  | 55 => ⟨S19, .f32⟩
  | 56 => ⟨S_, .f32⟩
  | 57 => ⟨S_, .f32⟩
  | 58 => ⟨S19, .f32⟩
  | 59 => ⟨S19, .f32⟩
  | 60 => ⟨S_, .f32⟩
  | 61 => ⟨S_, .f32⟩
  | 62 => ⟨S_, .f32⟩
  | 63 => ⟨S_, .f32⟩
  | 64 => ⟨S_, .f32⟩
  | 65 => ⟨S19x1x64, .f32⟩
  | 66 => ⟨S1x19x64, .f32⟩
  | 67 => ⟨S19x19x64, .f32⟩
  | 68 => ⟨S19x19x64, .f32⟩
  | 69 => ⟨S19x19x64, .f32⟩
  | 70 => ⟨S19x19x64, .f32⟩
  | 71 => ⟨S_, .f32⟩
  | 72 => ⟨S19x19, .f32⟩
  | 73 => ⟨S19x19, .i32⟩
  | 74 => ⟨S19x19, .i32⟩
  | 75 => ⟨S_, .i32⟩
  | 76 => ⟨S19x19, .i32⟩
  | 77 => ⟨S19x19, .i32⟩
  | 78 => ⟨S19x19, .i1⟩
  | 79 => ⟨S19x19, .i1⟩
  | 80 => ⟨S19x1, .i1⟩
  | 81 => ⟨S1x19, .i1⟩
  | 82 => ⟨S19x19, .i1⟩
  | 83 => ⟨S19x19, .i1⟩
  | 84 => ⟨S19x19, .i1⟩
  | 85 => ⟨S19x19, .i1⟩
  | 86 => ⟨S_, .f32⟩
  | 87 => ⟨S_, .f32⟩
  | 88 => ⟨S19x19, .f32⟩
  | 89 => ⟨S19x19, .f32⟩
  | 90 => ⟨S19x19, .f32⟩
  | 91 => ⟨S_, .f32⟩
  | 92 => ⟨S19x19, .f32⟩
  | 93 => ⟨S19x19, .f32⟩
  | 94 => ⟨S_, .f32⟩
  | 95 => ⟨S19x19, .f32⟩
  | 96 => ⟨S19x19, .f32⟩
  | 97 => ⟨S19x19, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S19x19, .f32⟩
  | 106 => ⟨S19x19, .f32⟩
  | 107 => ⟨S_, .f32⟩
  | 108 => ⟨S_, .f32⟩
  | 109 => ⟨S_, .f32⟩
  | 110 => ⟨S19x64, .f32⟩
  | 111 => ⟨S_, .f32⟩
  | 112 => ⟨S19, .f32⟩
  | 113 => ⟨S_, .f32⟩
  | 114 => ⟨S_, .f32⟩
  | 115 => ⟨S19, .f32⟩
  | 116 => ⟨S19, .f32⟩
  | 117 => ⟨S19, .f32⟩
  | 118 => ⟨S_, .f32⟩
  | 119 => ⟨S_, .f32⟩
  | 120 => ⟨S19, .f32⟩
  | 121 => ⟨S19, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4x64x512x512, .f32⟩

abbrev hbmTy0_1 (i : Nat) : BufTy := match i % 128 with
  | 0 => ⟨S_, .f32⟩
  | 1 => ⟨S_, .f32⟩
  | 2 => ⟨S_, .f32⟩
  | _ => ⟨S4x64x512x512, .f32⟩

abbrev hbmTy (i : Nat) : BufTy := match i / 128 with
  | 0 => hbmTy0_0 i
  | 1 => hbmTy0_1 i
  | _ => ⟨S4x64x512x512, .f32⟩

abbrev bufTy : (tb : Table) → Fin (tcTables nBuf tb) → BufTy
  | .hbm, ⟨i, _⟩ => hbmTy i
  | _, _ => ⟨S4x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_call0_cst : Ref sig .tc := ⟨.hbm, 47, rfl⟩
abbrev main_call0_v0 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_call1_v0 : Ref sig .tc := ⟨.hbm, 57, rfl⟩
abbrev main_call1_v1 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_cst_12 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_13 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_14 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_15 : Ref sig .tc := ⟨.hbm, 86, rfl⟩
abbrev main_call2_v0 : Ref sig .tc := ⟨.hbm, 87, rfl⟩
abbrev main_call2_v1 : Ref sig .tc := ⟨.hbm, 88, rfl⟩
abbrev main_v63 : Ref sig .tc := ⟨.hbm, 89, rfl⟩
abbrev main_v64 : Ref sig .tc := ⟨.hbm, 90, rfl⟩
abbrev main_cst_16 : Ref sig .tc := ⟨.hbm, 91, rfl⟩
abbrev main_v65 : Ref sig .tc := ⟨.hbm, 92, rfl⟩
abbrev main_v66 : Ref sig .tc := ⟨.hbm, 93, rfl⟩
abbrev main_call3_cst : Ref sig .tc := ⟨.hbm, 94, rfl⟩
abbrev main_call3_v0 : Ref sig .tc := ⟨.hbm, 95, rfl⟩
abbrev main_v67 : Ref sig .tc := ⟨.hbm, 96, rfl⟩
abbrev main_v68 : Ref sig .tc := ⟨.hbm, 97, rfl⟩
abbrev main_cst_17 : Ref sig .tc := ⟨.hbm, 98, rfl⟩
abbrev main_v69 : Ref sig .tc := ⟨.hbm, 99, rfl⟩
abbrev main_v70 : Ref sig .tc := ⟨.hbm, 100, rfl⟩
abbrev main_cst_18 : Ref sig .tc := ⟨.hbm, 101, rfl⟩
abbrev main_v71 : Ref sig .tc := ⟨.hbm, 102, rfl⟩
abbrev main_cst_19 : Ref sig .tc := ⟨.hbm, 103, rfl⟩
abbrev main_call4_v0 : Ref sig .tc := ⟨.hbm, 104, rfl⟩
abbrev main_call4_v1 : Ref sig .tc := ⟨.hbm, 105, rfl⟩
abbrev main_v72 : Ref sig .tc := ⟨.hbm, 106, rfl⟩
abbrev main_cst_20 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_21 : Ref sig .tc := ⟨.hbm, 111, rfl⟩
abbrev main_v76 : Ref sig .tc := ⟨.hbm, 112, rfl⟩
abbrev main_cst_22 : Ref sig .tc := ⟨.hbm, 113, rfl⟩
abbrev main_call5_v0 : Ref sig .tc := ⟨.hbm, 114, rfl⟩
abbrev main_call5_v1 : Ref sig .tc := ⟨.hbm, 115, rfl⟩
abbrev main_v77 : Ref sig .tc := ⟨.hbm, 116, rfl⟩
abbrev main_v78 : Ref sig .tc := ⟨.hbm, 117, rfl⟩
abbrev main_cst_23 : Ref sig .tc := ⟨.hbm, 118, rfl⟩
abbrev main_call6_v0 : Ref sig .tc := ⟨.hbm, 119, rfl⟩
abbrev main_call6_v1 : Ref sig .tc := ⟨.hbm, 120, rfl⟩
abbrev main_v79 : Ref sig .tc := ⟨.hbm, 121, rfl⟩
abbrev main_cst_24 : Ref sig .tc := ⟨.hbm, 122, rfl⟩
abbrev main_v80 : Ref sig .tc := ⟨.hbm, 123, rfl⟩
abbrev main_cst_25 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_cst_26 : Ref sig .tc := ⟨.hbm, 128, rfl⟩
abbrev main_v84 : Ref sig .tc := ⟨.hbm, 129, rfl⟩
abbrev main_v85 : Ref sig .tc := ⟨.hbm, 130, rfl⟩

abbrev nD : Nat := 1
abbrev τ : Topo := Topo.v7x

variable {F : FTy → Type} [FloatOps F]

class Facts₀ : Prop where
  transposes_S4x64x512x512_S4x512x512x64_0_2_3_1 : S4x64x512x512.Transposes [0, 2, 3, 1] S4x512x512x64
  shapeCasts_S4x512x512x64_S1048576x64 : S4x512x512x64.ShapeCasts S1048576x64
  shapeCasts_S4x512x512_S1048576 : S4x512x512.ShapeCasts S1048576
  bcast_S_S1048576 : S_.BroadcastsInDim S1048576 (![] : Fin 0 → Fin S1048576.rank)
  bcast_S_S19 : S_.BroadcastsInDim S19 (![] : Fin 0 → Fin S19.rank)
  bcast_S1048576_S1048576x1_0 : S1048576.BroadcastsInDim S1048576x1 (![0] : Fin 1 → Fin S1048576x1.rank)
  bcast_S_S19x64 : S_.BroadcastsInDim S19x64 (![] : Fin 0 → Fin S19x64.rank)
  bcast_S19_S19x1_0 : S19.BroadcastsInDim S19x1 (![0] : Fin 1 → Fin S19x1.rank)
  bcast_S19x1_S19x64_0_1 : S19x1.BroadcastsInDim S19x64 (![0, 1] : Fin 2 → Fin S19x64.rank)
  reducesTo_S19_S_d0 : S19.ReducesTo [0] S_
  h_S_ : 0 < S_.numel
  reducesTo_S1048576x64_S1048576_d1 : S1048576x64.ReducesTo [1] S1048576
  bcast_S19x64_S19x1x64_0_2 : S19x64.BroadcastsInDim S19x1x64 (![0, 2] : Fin 2 → Fin S19x1x64.rank)
  bcast_S19x64_S1x19x64_1_2 : S19x64.BroadcastsInDim S1x19x64 (![1, 2] : Fin 2 → Fin S1x19x64.rank)
  bcast_S19x1x64_S19x19x64_0_1_2 : S19x1x64.BroadcastsInDim S19x19x64 (![0, 1, 2] : Fin 3 → Fin S19x19x64.rank)
  bcast_S1x19x64_S19x19x64_0_1_2 : S1x19x64.BroadcastsInDim S19x19x64 (![0, 1, 2] : Fin 3 → Fin S19x19x64.rank)
  reducesTo_S19x19x64_S19x19_d2 : S19x19x64.ReducesTo [2] S19x19
  bcast_S_S19x19 : S_.BroadcastsInDim S19x19 (![] : Fin 0 → Fin S19x19.rank)
  bcast_S19_S1x19_1 : S19.BroadcastsInDim S1x19 (![1] : Fin 1 → Fin S1x19.rank)
  bcast_S19x1_S19x19_0_1 : S19x1.BroadcastsInDim S19x19 (![0, 1] : Fin 2 → Fin S19x19.rank)
  bcast_S1x19_S19x19_0_1 : S1x19.BroadcastsInDim S19x19 (![0, 1] : Fin 2 → Fin S19x19.rank)
  reducesTo_S19x19_S_d0_1 : S19x19.ReducesTo [0, 1] S_
  reducesTo_S19x64_S19_d1 : S19x64.ReducesTo [1] S19
  scatter_S19_S1048576x1_S1048576_n_0_0_1_wf : ScatterDims.WF S19 S1048576x1 S1048576 [] [0] [0] 1
  scatter_S19x64_S1048576x1_S1048576x64_1_0_0_1_wf : ScatterDims.WF S19x64 S1048576x1 S1048576x64 [1] [0] [0] 1
  gather_S19x64_S1048576x1_S1048576x64_1_0_n_n_0_1_164_wf : GatherDims.WF S19x64 S1048576x1 S1048576x64 [1] [0] [] [0] [] 1 ![1, 64]

variable [Facts₀]

def scatter_S19_S1048576x1_S1048576_n_0_0_1 : ScatterDims S19 S1048576x1 S1048576 where
  updateWindowDims := []
  insertedWindowDims := [0]
  scatterDimsToOperandDims := [0]
  indexVectorDim := 1
  wf := scatter_S19_S1048576x1_S1048576_n_0_0_1_wf
def scatter_S19x64_S1048576x1_S1048576x64_1_0_0_1 : ScatterDims S19x64 S1048576x1 S1048576x64 where
  updateWindowDims := [1]
  insertedWindowDims := [0]
  scatterDimsToOperandDims := [0]
  indexVectorDim := 1
  wf := scatter_S19x64_S1048576x1_S1048576x64_1_0_0_1_wf
def gather_S19x64_S1048576x1_S1048576x64_1_0_n_n_0_1_164 : GatherDims S19x64 S1048576x1 S1048576x64 where
  offsetDims := [1]
  collapsedSliceDims := [0]
  operandBatchingDims := []
  startIndicesBatchingDims := []
  startIndexMap := [0]
  indexVectorDim := 1
  sliceSizes := ![1, 64]
  wf := gather_S19x64_S1048576x1_S1048576x64_1_0_n_n_0_1_164_wf

class Facts : Prop extends Facts₀ where

variable [Facts]
-- ==== Proof.Spec.lean ====
/-
  The mathematics both programs compute, stated over pixels.

  The embedding tensor is read as `X b c p` (batch `b`, channel `c`, pixel `p = 512·h + w` of that batch's
  image) and the label tensor as `L b p`, a natural number. For a class `k`:
    * `cnt L k`      the number of pixels labelled `k` (a sum of ones),
    * `sm X L c k`   the sum over those pixels of channel `c`,
    * `cen X L c k`  the class centre, `sm / max(cnt, 1)`,
    * `vpix X L b p` the pull term of one pixel, `relu(√(max(‖centre(label) − x‖², ε)) − ½)²`,
    * `vs X L k`     the sum of the pull terms over the pixels labelled `k`.
  All sums are sums of extended reals: addition there is commutative and associative, and `0 · x = 0`, so no
  regrouping below needs a finiteness hypothesis. When every label is below 19 the classes from 19 on are empty.
-/
import Idealize.ShloMosaic.PureOps.Ideal
import Idealize.ShloMosaic.Lib.ValueIdx
import Mathlib.Algebra.BigOperators.Group.Finset.Basic
import Mathlib.Data.Fintype.BigOperators

noncomputable section

namespace Cert.SegLoss

open Idealize.ShloMosaic Idealize.ShloMosaic.ValueIdx

/-- Pixel `p` of an image is row `p / 512`, column `p % 512`. -/
abbrev prow (p : Fin 262144) : Fin 512 := ⟨p.val / 512, by have := p.isLt; omega⟩
abbrev pcol (p : Fin 262144) : Fin 512 := ⟨p.val % 512, Nat.mod_lt _ (by decide)⟩

/-- The embedding tensor [4, 64, 512, 512] read by batch, channel and pixel. -/
def Xof (x : (⟨4, ![4, 64, 512, 512]⟩ : Shape).Idx → EReal) : Fin 4 → Fin 64 → Fin 262144 → EReal :=
  fun b c p => x (ix4 b c (prow p) (pcol p))

/-- The label tensor [4, 512, 512] read by batch and pixel, each word as the natural number it spells unsigned. -/
def Lof (t : IVec (⟨3, ![4, 512, 512]⟩ : Shape) 32) : Fin 4 → Fin 262144 → ℕ :=
  fun b p => (t (ix3 b (prow p) (pcol p))).toNat

variable (X : Fin 4 → Fin 64 → Fin 262144 → EReal) (L : Fin 4 → Fin 262144 → ℕ)

/-- How many pixels carry label `k`. -/
def cnt (k : ℕ) : EReal := ∑ b : Fin 4, ∑ p : Fin 262144, if L b p = k then (1 : EReal) else 0

/-- Channel `c` summed over the pixels labelled `k`. -/
def sm (c : Fin 64) (k : ℕ) : EReal := ∑ b : Fin 4, ∑ p : Fin 262144, if L b p = k then X b c p else 0

/-- The count, kept away from zero by the literal 1.0. -/
def safe (k : ℕ) : EReal := max (cnt L k) (Ideal.ofBits .f32 0x3F800000#32)

/-- The centre of class `k`, channel `c`. -/
def cen (c : Fin 64) (k : ℕ) : EReal := Ideal.div (sm X L c k) (safe L k)

/-- Squared distance of pixel `(b, p)` to the centre of its own class. -/
def dist2 (b : Fin 4) (p : Fin 262144) : EReal :=
  ∑ c : Fin 64, (cen X L c (L b p) - X b c p) * (cen X L c (L b p) - X b c p)

/-- The pull term of pixel `(b, p)`: `relu(√(max(d², ε)) − ½)²`, the literals ε = 9.99999996e-13 and ½ as their words. -/
def vpix (b : Fin 4) (p : Fin 262144) : EReal :=
  max (Ideal.sqrt (max (dist2 X L b p) (Ideal.ofBits .f32 0x2B8CBCCC#32)) - Ideal.ofBits .f32 0x3F000000#32) 0
    * max (Ideal.sqrt (max (dist2 X L b p) (Ideal.ofBits .f32 0x2B8CBCCC#32)) - Ideal.ofBits .f32 0x3F000000#32) 0

/-- The pull terms summed over the pixels labelled `k`. -/
def vs (k : ℕ) : EReal := ∑ b : Fin 4, ∑ p : Fin 262144, if L b p = k then vpix X L b p else 0

/-- A class no pixel carries is empty: its count, its channel sums and its pull sum are zero. -/
theorem cnt_eq_zero {k : ℕ} (h : ∀ b p, L b p ≠ k) : cnt L k = 0 := by
  unfold cnt
  exact Finset.sum_eq_zero fun b _ => Finset.sum_eq_zero fun p _ => if_neg (h b p)

theorem sm_eq_zero {k : ℕ} (h : ∀ b p, L b p ≠ k) (c : Fin 64) : sm X L c k = 0 := by
  unfold sm
  exact Finset.sum_eq_zero fun b _ => Finset.sum_eq_zero fun p _ => if_neg (h b p)

theorem vs_eq_zero {k : ℕ} (h : ∀ b p, L b p ≠ k) : vs X L k = 0 := by
  unfold vs
  exact Finset.sum_eq_zero fun b _ => Finset.sum_eq_zero fun p _ => if_neg (h b p)

/-- With every label below 19, the classes from 19 on are empty. -/
theorem ne_of_range (hL : ∀ b p, L b p < 19) {k : ℕ} (hk : 19 ≤ k) : ∀ b p, L b p ≠ k :=
  fun b p e => by have := hL b p; omega

end Cert.SegLoss

end
-- ==== Proof.Tails.lean ====
/-
  The host arithmetic around the pixel sums, as functions.

  Both programs end in the same chain: from the 19 class centres `C`, the 19 validity bits `V`, the number of valid
  classes `n` and the pull loss `lv` they form the pairwise push term, the centre-norm term and `lv + push + 0.001 · reg`
  (`pair`). What differs is the head: the reference gets `C, V, n, lv` from its 19-lane count, channel-sum and pull-sum
  arrays (`rC … rlv`), the kernel from three arrays of 4 per-batch partials over 128 lanes, which it first adds over
  the batches, then cuts down to the first 19 lanes (`kC … klv`; `kcen` is the centre table its second launch reads).
  When no pixel is labelled 19 or more, lanes 19 … 127 count zero pixels, are not valid and add nothing, so the two
  heads agree (proved in the module that reads these heads lane by lane).
-/
import proofs.«402319_j32229434589496_3_alg».proof.Proof.Gen.KernelIdeal
import proofs.«402319_j32229434589496_3_alg».proof.Proof.Gen.ReferenceIdeal
import proofs.«402319_j32229434589496_3_alg».proof.Proof.Spec
import Idealize.ShloMosaic.PureOps.Ideal.Laws
import Idealize.ShloMosaic.Lib.ValueIdx

noncomputable section

open Idealize.ShloMosaic Idealize.ShloMosaic.ValueIdx

namespace Cert.ReferenceIdeal.Tail

open Cert.ReferenceIdeal Cert.ReferenceIdeal.Facts₀ Cert.ReferenceIdeal.Facts

variable {F : FTy → Type} [FloatOps F]

/-- The common end of both programs, from centres, validity bits, valid count and pull loss. -/
def pair (C : FVec F S19x64 .f32) (V : IVec S19 1) (n : FVec F S_ .f32) (lv : FVec F S_ .f32) : FVec F S_ .f32 :=
  let v44 : FVec F S19x1x64 .f32 := broadcastInDim S19x1x64 ![0, 2] bcast_S19x64_S19x1x64_0_2 C
  let v45 : FVec F S1x19x64 .f32 := broadcastInDim S1x19x64 ![1, 2] bcast_S19x64_S1x19x64_1_2 C
  let v46 : FVec F S19x19x64 .f32 := broadcastInDim S19x19x64 ![0, 1, 2] bcast_S19x1x64_S19x19x64_0_1_2 v44
  let v47 : FVec F S19x19x64 .f32 := broadcastInDim S19x19x64 ![0, 1, 2] bcast_S1x19x64_S19x19x64_0_1_2 v45
  let v48 : FVec F S19x19x64 .f32 := subf v46 v47
  let v49 : FVec F S19x19x64 .f32 := mulf v48 v48
  let v50 : FVec F S19x19 .f32 := Host.reduceAdd v49 (constant S_ .f32 0x00000000#32) reducesTo_S19x19x64_S19x19_d2 h_S_
  let v51 : IVec S19x19 32 := iotaInDim S19x19 32 0
  let v52 : IVec S19x19 32 := iotaInDim S19x19 32 1
  let v53 : IVec S19x19 32 := broadcastInDim S19x19 ![] bcast_S_S19x19 (constantI S_ 32 0#32)
  let v54 : IVec S19x19 32 := addi v51 v53
  let v55 : IVec S19x19 1 := cmpi .eq v54 v52
  let v56 : IVec S19x19 1 := noti v55
  let v57 : IVec S19x1 1 := broadcastInDim S19x1 ![0] bcast_S19_S19x1_0 V
  let v58 : IVec S1x19 1 := broadcastInDim S1x19 ![1] bcast_S19_S1x19_1 V
  let v59 : IVec S19x19 1 := broadcastInDim S19x19 ![0, 1] bcast_S19x1_S19x19_0_1 v57
  let v60 : IVec S19x19 1 := broadcastInDim S19x19 ![0, 1] bcast_S1x19_S19x19_0_1 v58
  let v61 : IVec S19x19 1 := andi v59 v60
  let v62 : IVec S19x19 1 := andi v61 v56
  let v63 : FVec F S19x19 .f32 := select v62 v50 (broadcastInDim S19x19 ![] bcast_S_S19x19 (id (constant S_ .f32 0x3F800000#32)))
  let v64 : FVec F S19x19 .f32 := Host.sqrt v63
  let v65 : FVec F S19x19 .f32 := broadcastInDim S19x19 ![] bcast_S_S19x19 (constant S_ .f32 0x40400000#32)
  let v66 : FVec F S19x19 .f32 := subf v65 v64
  let v67 : FVec F S19x19 .f32 := maximumf v66 (broadcastInDim S19x19 ![] bcast_S_S19x19 (constant S_ .f32 0x00000000#32))
  let v68 : FVec F S19x19 .f32 := mulf v67 v67
  let v69 : FVec F S_ .f32 := subf n (constant S_ .f32 0x3F800000#32)
  let v70 : FVec F S_ .f32 := mulf n v69
  let v71 : FVec F S_ .f32 := maximumf v70 (constant S_ .f32 0x3F800000#32)
  let v72 : FVec F S19x19 .f32 := select v62 v68 (broadcastInDim S19x19 ![] bcast_S_S19x19 (id (constant S_ .f32 0x00000000#32)))
  let v73 : FVec F S_ .f32 := Host.reduceAdd v72 (constant S_ .f32 0x00000000#32) reducesTo_S19x19_S_d0_1 h_S_
  let v74 : FVec F S_ .f32 := Host.divf v73 v71
  let v75 : FVec F S19x64 .f32 := mulf C C
  let v76 : FVec F S19 .f32 := Host.reduceAdd v75 (constant S_ .f32 0x00000000#32) reducesTo_S19x64_S19_d1 h_S_
  let v77 : FVec F S19 .f32 := select V v76 (broadcastInDim S19 ![] bcast_S_S19 (id (constant S_ .f32 0x3F800000#32)))
  let v78 : FVec F S19 .f32 := Host.sqrt v77
  let v79 : FVec F S19 .f32 := select V v78 (broadcastInDim S19 ![] bcast_S_S19 (id (constant S_ .f32 0x00000000#32)))
  let v80 : FVec F S_ .f32 := Host.reduceAdd v79 (constant S_ .f32 0x00000000#32) reducesTo_S19_S_d0 h_S_
  let v81 : FVec F S_ .f32 := maximumf n (constant S_ .f32 0x3F800000#32)
  let v82 : FVec F S_ .f32 := Host.divf v80 v81
  let v83 : FVec F S_ .f32 := addf lv v74
  let v84 : FVec F S_ .f32 := mulf (constant S_ .f32 0x3A83126F#32) v82
  addf v83 v84

/-- The reference's count floor `max(count, 1)`. -/
def rsafe (cnt : FVec F S19 .f32) : FVec F S19 .f32 :=
  maximumf cnt (broadcastInDim S19 ![] bcast_S_S19 (constant S_ .f32 0x3F800000#32))

/-- The reference's centres: channel sums over the count floor. -/
def rC (cnt : FVec F S19 .f32) (sums : FVec F S19x64 .f32) : FVec F S19x64 .f32 :=
  Host.divf sums (broadcastInDim S19x64 ![0, 1] bcast_S19x1_S19x64_0_1 (broadcastInDim S19x1 ![0] bcast_S19_S19x1_0 (rsafe cnt)))

/-- The reference's validity bits: more than 20 pixels. -/
def rV (cnt : FVec F S19 .f32) : IVec S19 1 :=
  cmpf (F := F) .ogt cnt (broadcastInDim S19 ![] bcast_S_S19 (constant S_ .f32 0x41A00000#32))

/-- The reference's number of valid classes. -/
def rn (cnt : FVec F S19 .f32) : FVec F S_ .f32 :=
  Host.reduceAdd (uitofp (F := F) .f32 (rV (F := F) cnt)) (constant S_ .f32 0x00000000#32) reducesTo_S19_S_d0 h_S_

/-- The reference's pull loss: the valid classes' mean pull terms, summed, over `max(n, 1)`. -/
def rlv (cnt : FVec F S19 .f32) (vs : FVec F S19 .f32) : FVec F S_ .f32 :=
  Host.divf
    (Host.reduceAdd (select (rV (F := F) cnt) (Host.divf vs (rsafe cnt)) (broadcastInDim S19 ![] bcast_S_S19 (id (constant S_ .f32 0x00000000#32))))
      (constant S_ .f32 0x00000000#32) reducesTo_S19_S_d0 h_S_)
    (maximumf (rn cnt) (constant S_ .f32 0x3F800000#32))

/-- The reference's result from its three 19-lane arrays. -/
def RT (cnt : FVec F S19 .f32) (sums : FVec F S19x64 .f32) (vs : FVec F S19 .f32) : FVec F S_ .f32 :=
  pair (rC cnt sums) (rV (F := F) cnt) (rn cnt) (rlv cnt vs)

end Cert.ReferenceIdeal.Tail

namespace Cert.KernelIdeal.Tail

open Cert.KernelIdeal Cert.KernelIdeal.Facts₀ Cert.KernelIdeal.Facts

variable {F : FTy → Type} [FloatOps F]

/-- The per-batch partial channel sums added over the 4 batches. -/
def ksum (s4 : FVec F S4x64x128 .f32) : FVec F S64x128 .f32 :=
  Host.reduceAdd s4 (constant S_ .f32 0x00000000#32) reducesTo_S4x64x128_S64x128_d0 h_S_

/-- The per-batch partial counts (or pull sums) added over the 4 batches. -/
def krow (c4 : FVec F S4x1x128 .f32) : FVec F S1x128 .f32 :=
  Host.reduceAdd c4 (constant S_ .f32 0x00000000#32) reducesTo_S4x1x128_S1x128_d0 h_S_

/-- The kernel's count floor over 128 lanes. -/
def ksafe (c4 : FVec F S4x1x128 .f32) : FVec F S1x128 .f32 :=
  maximumf (krow c4) (broadcastInDim S1x128 ![] bcast_S_S1x128 (constant S_ .f32 0x3F800000#32))

/-- The centre table the second launch reads: [64 channels, 128 lanes]. -/
def kcen (s4 : FVec F S4x64x128 .f32) (c4 : FVec F S4x1x128 .f32) : FVec F S64x128 .f32 :=
  Host.divf (ksum s4) (broadcastInDim S64x128 ![0, 1] bcast_S1x128_S64x128_0_1 (ksafe c4))

/-- The kernel's validity bits over 128 lanes. -/
def kvalid (c4 : FVec F S4x1x128 .f32) : IVec S1x128 1 :=
  cmpf (F := F) .ogt (krow c4) (broadcastInDim S1x128 ![] bcast_S_S1x128 (constant S_ .f32 0x41A00000#32))

/-- The kernel's 19 centres: the table transposed, its first 19 rows. -/
def kC (s4 : FVec F S4x64x128 .f32) (c4 : FVec F S4x1x128 .f32) : FVec F S19x64 .f32 :=
  extractStridedSlice S19x64 ![0, 0] (transpose S128x64 [1, 0] (kcen s4 c4) transposes_S64x128_S128x64_1_0) slices_S128x64_S19x64_0_0

/-- The kernel's 19 validity bits: the first 19 lanes. -/
def kV (c4 : FVec F S4x1x128 .f32) : IVec S19 1 :=
  extractStridedSlice S19 ![0] (shapeCast S128 (kvalid (F := F) c4) shapeCasts_S1x128_S128) slices_S128_S19_0

/-- The kernel's number of valid classes, counted over all 128 lanes. -/
def kn (c4 : FVec F S4x1x128 .f32) : FVec F S_ .f32 :=
  Host.reduceAdd (uitofp (F := F) .f32 (kvalid (F := F) c4)) (constant S_ .f32 0x00000000#32) reducesTo_S1x128_S_d0_1 h_S_

/-- The kernel's pull loss, summed over all 128 lanes. -/
def klv (c4 : FVec F S4x1x128 .f32) (v4 : FVec F S4x1x128 .f32) : FVec F S_ .f32 :=
  Host.divf
    (Host.reduceAdd (select (kvalid (F := F) c4) (Host.divf (krow v4) (ksafe c4)) (broadcastInDim S1x128 ![] bcast_S_S1x128 (id (constant S_ .f32 0x00000000#32))))
      (constant S_ .f32 0x00000000#32) reducesTo_S1x128_S_d0_1 h_S_)
    (maximumf (kn c4) (constant S_ .f32 0x3F800000#32))

/-- The kernel's result from the three arrays its two launches leave. -/
def KT (s4 : FVec F S4x64x128 .f32) (c4 : FVec F S4x1x128 .f32) (v4 : FVec F S4x1x128 .f32) : FVec F S_ .f32 :=
  Cert.ReferenceIdeal.Tail.pair (F := F) (kC s4 c4) (kV (F := F) c4) (kn c4) (klv c4 v4)

end Cert.KernelIdeal.Tail

namespace Cert.SegLoss

open Cert.SegLoss

variable (X : Fin 4 → Fin 64 → Fin 262144 → EReal) (L : Fin 4 → Fin 262144 → ℕ)

/-- The three per-class quantities as 19-lane arrays (class along axis 0; the channel sums are [19, 64]). -/
def cntA : Cert.ReferenceIdeal.S19.Idx → EReal := fun i => cnt L (i 0).val
def smA : Cert.ReferenceIdeal.S19x64.Idx → EReal := fun i => sm X L ⟨(i 1).val, (i 1).isLt⟩ (i 0).val
def vsA : Cert.ReferenceIdeal.S19.Idx → EReal := fun i => vs X L (i 0).val

/-- The loss both programs compute. -/
def Loss : Cert.ReferenceIdeal.S_.Idx → EReal :=
  Cert.ReferenceIdeal.Tail.RT (F := Ideal) (cntA L) (smA X L) (vsA X L)

end Cert.SegLoss

end
-- ==== Proof.PreLabels.lean ====
/-
  The label range, read out of the precondition.

  The precondition is a conjunction of three "all" statements over the argument arrays; the second and third say of the
  label tensor that every word is at least 0 and below 19, both read signed. A 32-bit word whose signed reading is
  nonnegative reads the same unsigned, so every label, read as a natural number, is below 19.
-/
import proofs.«402319_j32229434589496_3_alg».proof.Defs
import proofs.«402319_j32229434589496_3_alg».proof.Proof.Gen.Pre_finite_inputs
import proofs.«402319_j32229434589496_3_alg».proof.Proof.Spec
import Idealize.ShloMosaic.Lib.ReduceAll
import Idealize.ShloMosaic.Lib.StableHlo.Predicate

noncomputable section

namespace Cert.SegLoss

open Idealize.ShloMosaic Idealize.SL.Sem

/-- The scalar shape has one index. -/
local instance scalarIdx_subsingleton : Subsingleton Cert.Pre_finite_inputs.S_.Idx := ⟨fun a b => funext fun d => d.elim0⟩

/-- A 32-bit word that is at least 0 and below 19, both read signed, is below 19 read unsigned. -/
theorem toNat_lt_of_signed (w : BitVec 32) (h0 : IntOp.cmpi .sge w (0#32) = 1#1)
    (h19 : IntOp.cmpi .slt w (19#32) = 1#1) : w.toNat < 19 := by
  rw [IntOp.cmpi_sge] at h0
  rw [IntOp.cmpi_slt] at h19
  have h32 := w.isLt
  unfold BitVec.toInt at h0 h19
  split at h19 <;> simp at h0 h19 <;> omega

/-- The precondition decoded at one element of the label tensor. -/
theorem label_word_lt (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.Pre_finite_inputs.S4x512x512.Idx) :
    ((m ((c.tc : Thread Cert.KernelIdeal.nD Cert.KernelIdeal.τ).loc Cert.KernelIdeal.main_arg1) : IVec Cert.Pre_finite_inputs.S4x512x512 32) i).toNat < 19 := by
  have e := congrFun (h c) ValueIdx.ix0
  dsimp only [Cert.Pre_finite_inputs.fn] at e
  obtain ⟨e1, e19⟩ := IntOp.andi_eq_one.1 e
  obtain ⟨-, e0⟩ := IntOp.andi_eq_one.1 e1
  have g0 := Host.reduce_andi_all _ _ _ _ _ e0 i
  have g19 := Host.reduce_andi_all _ _ _ _ _ e19 i
  simp only [cmpi, StableHlo.Predicate.bcast_scalar _ Cert.Pre_finite_inputs.Gen.h_S_, constantI] at g0 g19
  exact toNat_lt_of_signed _ g0 g19

/-- Every label, read as a natural number by batch and pixel, is below 19. -/
theorem labels_lt (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∀ (b : Fin 4) (p : Fin 262144), Cert.SegLoss.Lof (m ((c.tc : Thread Cert.KernelIdeal.nD Cert.KernelIdeal.τ).loc Cert.KernelIdeal.main_arg1)) b p < 19 :=
  fun b p => label_word_lt m h c (ValueIdx.ix3 b (prow p) (pcol p))

end Cert.SegLoss

end
-- ==== Proof.LibGatherScatterRows.lean ====
/-
  Row gathers and row scatter-adds read at an index.

  A `stablehlo.gather` that picks whole rows of a rank-2 or rank-3 operand by one start index per
  result row (axis 0 collapsed, the other axes offset axes, slice sizes 1 × the row), and a float
  `stablehlo.scatter` with an `add` body that accumulates update rows into the operand's rows named by
  one scatter index per update row (axis 0 inserted, the other axes window axes), at the exact instance.
  Each statement takes an arbitrary dimension-number record with equations naming its fields, so it
  applies to any record whose fields are those lists by `rfl`.
-/
import Idealize.ShloMosaic.PureOps.ShapeOps
import Idealize.ShloMosaic.PureOps.Ideal
import Idealize.ShloMosaic.PureOps.Contract
import Idealize.ShloMosaic.Lib.ValueIdx
import Mathlib.Algebra.BigOperators.Group.Finset.Basic
import Mathlib.Data.Fintype.BigOperators

noncomputable section

namespace Idealize.ShloMosaic.RowsGS

open Idealize.ShloMosaic Idealize.ShloMosaic.ValueIdx

variable {N C A B E w : Nat} {α : Type}

/-! ## The row gather: the operand index a result index reads -/

/-- A signed start index that is a row number `n < N`, clamped into `[0, N − 1]`, is `n`. -/
private theorem clamp_eq {z : Int} (n : Fin N) (hz : z = (n.val : Int)) : min z.toNat (N - 1) = n.val := by
  rw [hz, Int.toNat_natCast]
  have := n.isLt
  omega

/-- Rank 2: result index `(e, c)` reads the operand at `(idx[e], c)`, the start inside the operand. -/
private theorem g2_operandIdx (wf) (idx : IVec ⟨2, ![E, 1]⟩ w) (e : Fin E) (c : Fin C) (n : Fin N)
    (hn : (idx (ix2 e 0)).toInt = (n.val : Int)) :
    (⟨[1], [0], [], [], [0], 1, ![1, C], wf⟩ : GatherDims ⟨2, ![N, C]⟩ ⟨2, ![E, 1]⟩ ⟨2, ![E, C]⟩).operandIdx
        (ix2 e c) idx = ix2 n c := by
  funext a
  refine Fin.ext ?_
  show GatherDims.start _ (ix2 e c) idx a + GatherDims.batchCoord _ (ix2 e c) a + GatherDims.offCoord _ (ix2 e c) a = _
  rw [GatherDims.batchCoord_eq_zero _ _ _ List.not_mem_nil, Nat.add_zero]
  match a with
  | ⟨0, _⟩ =>
    show GatherDims.start _ (ix2 e c) idx 0 + GatherDims.offCoord _ (ix2 e c) 0 = n.val
    rw [GatherDims.offCoord_eq_zero _ _ _ (fun h => ((GatherDims.mem_sKept _ _).mp h).1 (List.mem_singleton.mpr rfl)),
      Nat.add_zero]
    unfold GatherDims.start
    rw [dif_pos (List.mem_cons_self)]
    have hsi : GatherDims.siIdx (⟨[1], [0], [], [], [0], 1, ![1, C], wf⟩ :
        GatherDims ⟨2, ![N, C]⟩ ⟨2, ![E, 1]⟩ ⟨2, ![E, C]⟩) (ix2 e c)
        ⟨List.idxOf (0 : Fin 2) [0], List.idxOf_lt_length_iff.2 List.mem_cons_self⟩ = ix2 e 0 := by
      funext b'; refine Fin.ext ?_
      match b' with
      | ⟨0, _⟩ => rfl
      | ⟨1, _⟩ => rfl
    rw [hsi]
    exact clamp_eq n hn
  | ⟨1, _⟩ =>
    have hs : GatherDims.start (⟨[1], [0], [], [], [0], 1, ![1, C], wf⟩ :
        GatherDims ⟨2, ![N, C]⟩ ⟨2, ![E, 1]⟩ ⟨2, ![E, C]⟩) (ix2 e c) idx 1 = 0 := by
      unfold GatherDims.start; rw [dif_neg (by simp)]
    show GatherDims.start _ (ix2 e c) idx 1 + GatherDims.offCoord _ (ix2 e c) 1 = c.val
    rw [hs, Nat.zero_add]; rfl

/-- `x[idx]` over a rank-2 operand READ AT (e, c), the start inside the operand: the operand's row idx[e]. -/
theorem gather_rows2_apply (d : GatherDims ⟨2, ![N, C]⟩ ⟨2, ![E, 1]⟩ ⟨2, ![E, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (c : Fin C) (n : Fin N)
    (hn : (idx (ix2 e 0)).toInt = (n.val : Int)) :
    Host.gather d x idx (ix2 e c) = x (ix2 n c) := by
  obtain ⟨od, cs, ob, sb, sm, iv, ss, wf⟩ := d
  dsimp only at hod hcs hob hsb hsm hiv hss
  subst hod hcs hob hsb hsm hiv hss
  unfold Host.gather
  rw [g2_operandIdx wf idx e c n hn]

/-- Rank 3: result index `(e, a, b)` reads the operand at `(idx[e], a, b)`, the start inside the operand. -/
private theorem g3_operandIdx (wf) (idx : IVec ⟨2, ![E, 1]⟩ w) (e : Fin E) (a : Fin A) (b : Fin B) (n : Fin N)
    (hn : (idx (ix2 e 0)).toInt = (n.val : Int)) :
    (⟨[1, 2], [0], [], [], [0], 1, ![1, A, B], wf⟩ : GatherDims ⟨3, ![N, A, B]⟩ ⟨2, ![E, 1]⟩ ⟨3, ![E, A, B]⟩).operandIdx
        (ix3 e a b) idx = ix3 n a b := by
  funext k
  refine Fin.ext ?_
  show GatherDims.start _ (ix3 e a b) idx k + GatherDims.batchCoord _ (ix3 e a b) k + GatherDims.offCoord _ (ix3 e a b) k = _
  rw [GatherDims.batchCoord_eq_zero _ _ _ List.not_mem_nil, Nat.add_zero]
  match k with
  | ⟨0, _⟩ =>
    show GatherDims.start _ (ix3 e a b) idx 0 + GatherDims.offCoord _ (ix3 e a b) 0 = n.val
    rw [GatherDims.offCoord_eq_zero _ _ _ (fun h => ((GatherDims.mem_sKept _ _).mp h).1 (List.mem_singleton.mpr rfl)),
      Nat.add_zero]
    unfold GatherDims.start
    rw [dif_pos (List.mem_cons_self)]
    have hsi : GatherDims.siIdx (⟨[1, 2], [0], [], [], [0], 1, ![1, A, B], wf⟩ :
        GatherDims ⟨3, ![N, A, B]⟩ ⟨2, ![E, 1]⟩ ⟨3, ![E, A, B]⟩) (ix3 e a b)
        ⟨List.idxOf (0 : Fin 3) [0], List.idxOf_lt_length_iff.2 List.mem_cons_self⟩ = ix2 e 0 := by
      funext b'; refine Fin.ext ?_
      match b' with
      | ⟨0, _⟩ => rfl
      | ⟨1, _⟩ => rfl
    rw [hsi]
    exact clamp_eq n hn
  | ⟨1, _⟩ =>
    have hs : GatherDims.start (⟨[1, 2], [0], [], [], [0], 1, ![1, A, B], wf⟩ :
        GatherDims ⟨3, ![N, A, B]⟩ ⟨2, ![E, 1]⟩ ⟨3, ![E, A, B]⟩) (ix3 e a b) idx 1 = 0 := by
      unfold GatherDims.start; rw [dif_neg (by simp)]
    show GatherDims.start _ (ix3 e a b) idx 1 + GatherDims.offCoord _ (ix3 e a b) 1 = a.val
    rw [hs, Nat.zero_add]; rfl
  | ⟨2, _⟩ =>
    have hs : GatherDims.start (⟨[1, 2], [0], [], [], [0], 1, ![1, A, B], wf⟩ :
        GatherDims ⟨3, ![N, A, B]⟩ ⟨2, ![E, 1]⟩ ⟨3, ![E, A, B]⟩) (ix3 e a b) idx 2 = 0 := by
      unfold GatherDims.start; rw [dif_neg (by simp)]
    show GatherDims.start _ (ix3 e a b) idx 2 + GatherDims.offCoord _ (ix3 e a b) 2 = b.val
    rw [hs, Nat.zero_add]; rfl

/-- `x[idx]` over a rank-3 operand READ AT (e, a, b), the start inside the operand: the operand's slab idx[e]. -/
theorem gather_rows3_apply (d : GatherDims ⟨3, ![N, A, B]⟩ ⟨2, ![E, 1]⟩ ⟨3, ![E, A, B]⟩)
    (hod : d.offsetDims = [1, 2]) (hcs : d.collapsedSliceDims = [0]) (hob : d.operandBatchingDims = [])
    (hsb : d.startIndicesBatchingDims = []) (hsm : d.startIndexMap = [0]) (hiv : d.indexVectorDim = 1)
    (hss : d.sliceSizes = ![1, A, B])
    (x : (⟨3, ![N, A, B]⟩ : Shape).Idx → α) (idx : IVec ⟨2, ![E, 1]⟩ w) (e : Fin E) (a : Fin A) (b : Fin B) (n : Fin N)
    (hn : (idx (ix2 e 0)).toInt = (n.val : Int)) :
    Host.gather d x idx (ix3 e a b) = x (ix3 n a b) := by
  obtain ⟨od, cs, ob, sb, sm, iv, ss, wf⟩ := d
  dsimp only at hod hcs hob hsb hsm hiv hss
  subst hod hcs hob hsb hsm hiv hss
  unfold Host.gather
  rw [g3_operandIdx wf idx e a b n hn]

/-! ## The row scatter: the target of an update position -/

/-- An update position lands on `i` exactly when, on every axis, the signed start plus the window
    coordinate is `i`'s coordinate. -/
private theorem resultIdx?_eq_some {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  by_cases hr : ∀ a, 0 ≤ d.start j idx a + d.window j a ∧ d.start j idx a + d.window j a < s.size a
  · rw [dif_pos hr, Option.some_inj]
    constructor
    · intro h a
      have h2 := congrArg Fin.val (congrFun h a)
      simp only at h2
      have := (hr a).1
      omega
    · intro h; funext a; apply Fin.ext; have := h a; have := (hr a).1; simp only; omega
  · rw [dif_neg hr]
    constructor
    · intro h; cases h
    · intro h; exact absurd (fun a => by have := h a; have := (i a).isLt; omega) hr

/-- The window coordinate is zero on an inserted axis. -/
private theorem window_inserted {s si u : Shape} (d : ScatterDims s si u) (j : u.Idx) (a : Fin s.rank)
    (ha : a ∈ d.insertedWindowDims) : d.window j a = 0 := by
  unfold ScatterDims.window
  rw [dif_neg]
  simp [ScatterDims.sKept, Shape.kept, List.mem_filter, ha]

/-- The start is zero on an axis the scatter indices do not address. -/
private theorem start_unaddressed {s si u : Shape} (d : ScatterDims s si u) (j : u.Idx) (idx : IVec si w) (a : Fin s.rank)
    (ha : a ∉ d.scatterDimsToOperandDims) : d.start j idx a = 0 := by
  unfold ScatterDims.start
  rw [dif_neg ha]

/-- Rank 2, row axis: the start of update `(e, c')` is the scatter index of row `e`, read signed. -/
private theorem s2_start0 (wf) (idx : IVec ⟨2, ![E, 1]⟩ w) (e : Fin E) (c' : Fin C) :
    (⟨[1], [0], [0], 1, wf⟩ : ScatterDims ⟨2, ![N, C]⟩ ⟨2, ![E, 1]⟩ ⟨2, ![E, C]⟩).start (ix2 e c') idx 0
      = (idx (ix2 e 0)).toInt := by
  unfold ScatterDims.start
  rw [dif_pos (List.mem_cons_self)]
  congr 2
  funext b'; refine Fin.ext ?_
  match b' with
  | ⟨0, _⟩ => rfl
  | ⟨1, _⟩ => rfl

/-- Rank 2, column axis: the window coordinate of update `(e, c')` is `c'`. -/
private theorem s2_window1 (wf) (e : Fin E) (c' : Fin C) :
    (⟨[1], [0], [0], 1, wf⟩ : ScatterDims ⟨2, ![N, C]⟩ ⟨2, ![E, 1]⟩ ⟨2, ![E, C]⟩).window (ix2 e c') 1 = c'.val := rfl

/-- Rank 2: update `(e, c')` lands on `(n, c)` exactly when the scatter index of row `e`, read signed, is
    `n` and `c' = c`. -/
private theorem s2_resultIdx?_iff (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (idx : IVec ⟨2, ![E, 1]⟩ w) (e : Fin E) (c' : Fin C) (n : Fin N) (c : Fin C) :
    d.resultIdx? (ix2 e c') idx = some (ix2 n c) ↔ (idx (ix2 e 0)).toInt = (n.val : Int) ∧ c' = c := by
  obtain ⟨uw, iw, sd, iv, wf⟩ := d
  dsimp only at huw hiw hsd hiv
  subst huw hiw hsd hiv
  rw [resultIdx?_eq_some]
  have w0 := window_inserted (⟨[1], [0], [0], 1, wf⟩ : ScatterDims ⟨2, ![N, C]⟩ ⟨2, ![E, 1]⟩ ⟨2, ![E, C]⟩)
    (ix2 e c') 0 List.mem_cons_self
  have s1 := start_unaddressed (⟨[1], [0], [0], 1, wf⟩ : ScatterDims ⟨2, ![N, C]⟩ ⟨2, ![E, 1]⟩ ⟨2, ![E, C]⟩)
    (ix2 e c') idx 1 (by simp)
  constructor
  · intro h
    have h0 := h 0
    have h1 := h 1
    rw [s2_start0, w0, Nat.cast_zero, Int.add_zero] at h0
    rw [s1, s2_window1, Int.zero_add] at h1
    exact ⟨h0, Fin.ext (by exact_mod_cast h1)⟩
  · rintro ⟨h0, rfl⟩ a
    match a with
    | ⟨0, _⟩ =>
      show ScatterDims.start _ (ix2 e c') idx 0 + ((ScatterDims.window _ (ix2 e c') 0 : Nat) : Int) = _
      rw [s2_start0, w0, Nat.cast_zero, Int.add_zero]; exact h0
    | ⟨1, _⟩ =>
      show ScatterDims.start _ (ix2 e c') idx 1 + ((ScatterDims.window _ (ix2 e c') 1 : Nat) : Int) = _
      rw [s1, s2_window1, Int.zero_add]

/-- `x.at[idx].add(upd)` over a rank-2 operand READ AT (n, c), at the exact instance: the operand's element plus
    the sum of the update rows aimed at row n (a scatter index outside the operand aims at no row). -/
theorem scatterAdd_rows2_apply (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Host.scatterAdd (F := Ideal) (φ := .f32) d x idx upd (ix2 n c)
      = x (ix2 n c) + ∑ e : Fin E, if (idx (ix2 e 0)).toInt = (n.val : Int) then upd (ix2 e c) else 0 := by
  unfold Host.scatterAdd
  rw [Ideal.hostScatterAdd_def]
  unfold Ideal.hostScatterAdd
  congr 1
  rw [Finset.sum_filter, sum_idx2]
  refine Finset.sum_congr rfl fun e _ => ?_
  by_cases he : (idx (ix2 e 0)).toInt = (n.val : Int)
  · rw [if_pos he, Finset.sum_eq_single c]
    · rw [if_pos ((s2_resultIdx?_iff d huw hiw hsd hiv idx e c n c).2 ⟨he, rfl⟩)]
    · intro c' _ hc'
      rw [if_neg fun h => hc' ((s2_resultIdx?_iff d huw hiw hsd hiv idx e c' n c).1 h).2]
    · intro h; exact absurd (Finset.mem_univ _) h
  · rw [if_neg he]
    refine Finset.sum_eq_zero fun c' _ => ?_
    rw [if_neg fun h => he ((s2_resultIdx?_iff d huw hiw hsd hiv idx e c' n c).1 h).1]

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Rank 3, slab axis: the start of update `(e, a', b')` is the scatter index of slab `e`, read signed. -/
private theorem s3_start0 (wf) (idx : IVec ⟨2, ![E, 1]⟩ w) (e : Fin E) (a' : Fin A) (b' : Fin B) :
    (⟨[1, 2], [0], [0], 1, wf⟩ : ScatterDims ⟨3, ![N, A, B]⟩ ⟨2, ![E, 1]⟩ ⟨3, ![E, A, B]⟩).start (ix3 e a' b') idx 0
      = (idx (ix2 e 0)).toInt := by
  unfold ScatterDims.start
  rw [dif_pos (List.mem_cons_self)]
  congr 2
  funext k; refine Fin.ext ?_
  match k with
  | ⟨0, _⟩ => rfl
  | ⟨1, _⟩ => rfl

/-- Rank 3, second axis: the window coordinate of update `(e, a', b')` is `a'`. -/
private theorem s3_window1 (wf) (e : Fin E) (a' : Fin A) (b' : Fin B) :
    (⟨[1, 2], [0], [0], 1, wf⟩ : ScatterDims ⟨3, ![N, A, B]⟩ ⟨2, ![E, 1]⟩ ⟨3, ![E, A, B]⟩).window (ix3 e a' b') 1 = a'.val := rfl

/-- Rank 3, third axis: the window coordinate of update `(e, a', b')` is `b'`. -/
private theorem s3_window2 (wf) (e : Fin E) (a' : Fin A) (b' : Fin B) :
    (⟨[1, 2], [0], [0], 1, wf⟩ : ScatterDims ⟨3, ![N, A, B]⟩ ⟨2, ![E, 1]⟩ ⟨3, ![E, A, B]⟩).window (ix3 e a' b') 2 = b'.val := rfl

/-- Rank 3: update `(e, a', b')` lands on `(n, a, b)` exactly when the scatter index of slab `e`, read
    signed, is `n`, `a' = a` and `b' = b`. -/
private theorem s3_resultIdx?_iff (d : ScatterDims ⟨3, ![N, A, B]⟩ ⟨2, ![E, 1]⟩ ⟨3, ![E, A, B]⟩)
    (huw : d.updateWindowDims = [1, 2]) (hiw : d.insertedWindowDims = [0])
    (hsd : d.scatterDimsToOperandDims = [0]) (hiv : d.indexVectorDim = 1)
    (idx : IVec ⟨2, ![E, 1]⟩ w) (e : Fin E) (a' : Fin A) (b' : Fin B) (n : Fin N) (a : Fin A) (b : Fin B) :
    d.resultIdx? (ix3 e a' b') idx = some (ix3 n a b) ↔
      (idx (ix2 e 0)).toInt = (n.val : Int) ∧ a' = a ∧ b' = b := by
  obtain ⟨uw, iw, sd, iv, wf⟩ := d
  dsimp only at huw hiw hsd hiv
  subst huw hiw hsd hiv
  rw [resultIdx?_eq_some]
  have w0 := window_inserted (⟨[1, 2], [0], [0], 1, wf⟩ : ScatterDims ⟨3, ![N, A, B]⟩ ⟨2, ![E, 1]⟩ ⟨3, ![E, A, B]⟩)
    (ix3 e a' b') 0 List.mem_cons_self
  have s1 := start_unaddressed (⟨[1, 2], [0], [0], 1, wf⟩ : ScatterDims ⟨3, ![N, A, B]⟩ ⟨2, ![E, 1]⟩ ⟨3, ![E, A, B]⟩)
    (ix3 e a' b') idx 1 (by simp)
  have s2 := start_unaddressed (⟨[1, 2], [0], [0], 1, wf⟩ : ScatterDims ⟨3, ![N, A, B]⟩ ⟨2, ![E, 1]⟩ ⟨3, ![E, A, B]⟩)
    (ix3 e a' b') idx 2 (by simp)
  constructor
  · intro h
    have h0 := h 0
    have h1 := h 1
    have h2 := h 2
    rw [s3_start0, w0, Nat.cast_zero, Int.add_zero] at h0
    rw [s1, s3_window1, Int.zero_add] at h1
    rw [s2, s3_window2, Int.zero_add] at h2
    exact ⟨h0, Fin.ext (by exact_mod_cast h1), Fin.ext (by exact_mod_cast h2)⟩
  · rintro ⟨h0, rfl, rfl⟩ k
    match k with
    | ⟨0, _⟩ =>
      show ScatterDims.start _ (ix3 e a' b') idx 0 + ((ScatterDims.window _ (ix3 e a' b') 0 : Nat) : Int) = _
      rw [s3_start0, w0, Nat.cast_zero, Int.add_zero]; exact h0
    | ⟨1, _⟩ =>
      show ScatterDims.start _ (ix3 e a' b') idx 1 + ((ScatterDims.window _ (ix3 e a' b') 1 : Nat) : Int) = _
      rw [s1, s3_window1, Int.zero_add]
    | ⟨2, _⟩ =>
      show ScatterDims.start _ (ix3 e a' b') idx 2 + ((ScatterDims.window _ (ix3 e a' b') 2 : Nat) : Int) = _
      rw [s2, s3_window2, Int.zero_add]

/-- `x.at[idx].add(upd)` over a rank-3 operand READ AT (n, a, b), at the exact instance. -/
theorem scatterAdd_rows3_apply (d : ScatterDims ⟨3, ![N, A, B]⟩ ⟨2, ![E, 1]⟩ ⟨3, ![E, A, B]⟩)
    (huw : d.updateWindowDims = [1, 2]) (hiw : d.insertedWindowDims = [0])
    (hsd : d.scatterDimsToOperandDims = [0]) (hiv : d.indexVectorDim = 1)
    (x : (⟨3, ![N, A, B]⟩ : Shape).Idx → EReal) (idx : IVec ⟨2, ![E, 1]⟩ w) (upd : (⟨3, ![E, A, B]⟩ : Shape).Idx → EReal)
    (n : Fin N) (a : Fin A) (b : Fin B) :
    Host.scatterAdd (F := Ideal) (φ := .f32) d x idx upd (ix3 n a b)
      = x (ix3 n a b) + ∑ e : Fin E, if (idx (ix2 e 0)).toInt = (n.val : Int) then upd (ix3 e a b) else 0 := by
  unfold Host.scatterAdd
  rw [Ideal.hostScatterAdd_def]
  unfold Ideal.hostScatterAdd
  congr 1
  rw [Finset.sum_filter, sum_idx3]
  refine Finset.sum_congr rfl fun e _ => ?_
  by_cases he : (idx (ix2 e 0)).toInt = (n.val : Int)
  · rw [if_pos he, Finset.sum_eq_single a]
    · rw [Finset.sum_eq_single b]
      · rw [if_pos ((s3_resultIdx?_iff d huw hiw hsd hiv idx e a b n a b).2 ⟨he, rfl, rfl⟩)]
      · intro b' _ hb'
        rw [if_neg fun h => hb' ((s3_resultIdx?_iff d huw hiw hsd hiv idx e a b' n a b).1 h).2.2]
      · intro h; exact absurd (Finset.mem_univ _) h
    · intro a' _ ha'
      refine Finset.sum_eq_zero fun b' _ => ?_
      rw [if_neg fun h => ha' ((s3_resultIdx?_iff d huw hiw hsd hiv idx e a' b' n a b).1 h).2.1]
    · intro h; exact absurd (Finset.mem_univ _) h
  · rw [if_neg he]
    refine Finset.sum_eq_zero fun a' _ => Finset.sum_eq_zero fun b' _ => ?_
    rw [if_neg fun h => he ((s3_resultIdx?_iff d huw hiw hsd hiv idx e a' b' n a b).1 h).1]

end Idealize.ShloMosaic.RowsGS

end
-- ==== Proof.LibScatterAddVec.lean ====
/-
  A vector scatter-add read at an index.

  A float `stablehlo.scatter` with an `add` body that accumulates the elements of a rank-1 update array
  into the elements of a rank-1 operand named by one scatter index per update element (the operand's one
  axis inserted, no window axes), at the exact instance: the operand's element plus the sum of the update
  elements aimed at it; a scatter index outside the operand aims at no element. The statement takes an
  arbitrary dimension-number record with equations naming its fields, so it applies to any record whose
  fields are those lists by `rfl`. The rank-1 sibling of the row scatter-adds of LibGatherScatterRows.
-/
import Idealize.ShloMosaic.PureOps.ShapeOps
import Idealize.ShloMosaic.PureOps.Ideal
import Idealize.ShloMosaic.PureOps.Contract
import Idealize.ShloMosaic.Lib.ValueIdx
import Mathlib.Algebra.BigOperators.Group.Finset.Basic
import Mathlib.Data.Fintype.BigOperators

noncomputable section

namespace Idealize.ShloMosaic.RowsGS

open Idealize.ShloMosaic Idealize.ShloMosaic.ValueIdx

variable {N E w : Nat}

/-- An update position lands on `i` exactly when, on every axis, the signed start plus the window
    coordinate is `i`'s coordinate. -/
private theorem resultIdx?_eq_some {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  by_cases hr : ∀ a, 0 ≤ d.start j idx a + d.window j a ∧ d.start j idx a + d.window j a < s.size a
  · rw [dif_pos hr, Option.some_inj]
    constructor
    · intro h a
      have h2 := congrArg Fin.val (congrFun h a)
      simp only at h2
      have := (hr a).1
      omega
    · intro h; funext a; apply Fin.ext; have := h a; have := (hr a).1; simp only; omega
  · rw [dif_neg hr]
    constructor
    · intro h; cases h
    · intro h; exact absurd (fun a => by have := h a; have := (i a).isLt; omega) hr

/-- The window coordinate is zero on an inserted axis. -/
private theorem window_inserted {s si u : Shape} (d : ScatterDims s si u) (j : u.Idx) (a : Fin s.rank)
    (ha : a ∈ d.insertedWindowDims) : d.window j a = 0 := by
  unfold ScatterDims.window
  rw [dif_neg]
  simp [ScatterDims.sKept, Shape.kept, List.mem_filter, ha]

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The start of update `e` on the operand's one axis is the scatter index of `e`, read signed. -/
private theorem s1_start0 (wf) (idx : IVec ⟨2, ![E, 1]⟩ w) (e : Fin E) :
    (⟨[], [0], [0], 1, wf⟩ : ScatterDims ⟨1, ![N]⟩ ⟨2, ![E, 1]⟩ ⟨1, ![E]⟩).start (ix1 e) idx 0
      = (idx (ix2 e 0)).toInt := by
  unfold ScatterDims.start
  rw [dif_pos (List.mem_cons_self)]
  congr 2
  funext b'; refine Fin.ext ?_
  match b' with
  | ⟨0, _⟩ => rfl
  | ⟨1, _⟩ => rfl

/-- Update `e` lands on `n` exactly when the scatter index of `e`, read signed, is `n`. -/
private theorem s1_resultIdx?_iff (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (idx : IVec ⟨2, ![E, 1]⟩ w) (e : Fin E) (n : Fin N) :
    d.resultIdx? (ix1 e) idx = some (ix1 n) ↔ (idx (ix2 e 0)).toInt = (n.val : Int) := by
  obtain ⟨uw, iw, sd, iv, wf⟩ := d
  dsimp only at huw hiw hsd hiv
  subst huw hiw hsd hiv
  rw [resultIdx?_eq_some]
  have w0 := window_inserted (⟨[], [0], [0], 1, wf⟩ : ScatterDims ⟨1, ![N]⟩ ⟨2, ![E, 1]⟩ ⟨1, ![E]⟩)
    (ix1 e) 0 List.mem_cons_self
  constructor
  · intro h
    have h0 := h 0
    rw [s1_start0, w0, Nat.cast_zero, Int.add_zero] at h0
    exact h0
  · intro h0 a
    match a with
    | ⟨0, _⟩ =>
      show ScatterDims.start _ (ix1 e) idx 0 + ((ScatterDims.window _ (ix1 e) 0 : Nat) : Int) = _
      rw [s1_start0, w0, Nat.cast_zero, Int.add_zero]; exact h0

/-- `x.at[idx].add(upd)` over a rank-1 operand READ AT n, at the exact instance: the operand's element plus
    the sum of the update elements aimed at n (a scatter index outside the operand aims at no element). -/
theorem scatterAdd_vec_apply (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![E, 1]⟩ w) (upd : (⟨1, ![E]⟩ : Shape).Idx → EReal)
    (n : Fin N) :
    Host.scatterAdd (F := Ideal) (φ := .f32) d x idx upd (ix1 n)
      = x (ix1 n) + ∑ e : Fin E, if (idx (ix2 e 0)).toInt = (n.val : Int) then upd (ix1 e) else 0 := by
  unfold Host.scatterAdd
  rw [Ideal.hostScatterAdd_def]
  unfold Ideal.hostScatterAdd
  congr 1
  rw [Finset.sum_filter, sum_idx1]
  refine Finset.sum_congr rfl fun e _ => ?_
  by_cases he : (idx (ix2 e 0)).toInt = (n.val : Int)
  · rw [if_pos he, if_pos ((s1_resultIdx?_iff d huw hiw hsd hiv idx e n).2 he)]
  · rw [if_neg he, if_neg fun h => he ((s1_resultIdx?_iff d huw hiw hsd hiv idx e n).1 h)]

end Idealize.ShloMosaic.RowsGS

end
-- ==== Proof.RefSums.lean ====
/-
  The reference's two class-sum scatters read at a class.

  The reference flattens the pixels of the four images to one axis, n = 262144·b + p, and accumulates, by a
  scatter-add into 19 rows keyed by the label, the number of pixels of each class and the channel sums of each
  class. With every label below 19, the count array is `cnt` and the channel-sum array is `sm` of the
  specification, class by class: the scatter's sum over the flat axis is regrouped as the double sum over image
  and pixel, the flat reads of the label and embedding tensors are the tensors at (b, row, column), and a label
  word below 19 read signed is the label.
-/
import proofs.«402319_j32229434589496_3_alg».proof.Proof.RefRead
import proofs.«402319_j32229434589496_3_alg».proof.Proof.Tails
import proofs.«402319_j32229434589496_3_alg».proof.Proof.LibGatherScatterRows
import proofs.«402319_j32229434589496_3_alg».proof.Proof.LibScatterAddVec
import Idealize.ShloMosaic.Lib.IdealHost

noncomputable section

namespace Cert.ReferenceIdeal.RV

open Cert.ReferenceIdeal Cert.ReferenceIdeal.ReadP Cert.SegLoss Idealize.ShloMosaic Idealize.ShloMosaic.ValueIdx

/-- The flat pixel number of pixel `p` of image `b`. -/
def flat (b : Fin 4) (p : Fin 262144) : Fin 1048576 := ⟨262144 * b.val + p.val, by have := b.isLt; have := p.isLt; omega⟩

/-- The flat axis is the product of the image axis and the pixel axis … -/
private def flatEquiv : Fin 4 × Fin 262144 ≃ Fin 1048576 where
  toFun q := flat q.1 q.2
  invFun n := (⟨n.val / 262144, by have := n.isLt; omega⟩, ⟨n.val % 262144, Nat.mod_lt _ (by decide)⟩)
  left_inv q := by
    obtain ⟨b, p⟩ := q
    have := b.isLt; have := p.isLt
    refine Prod.ext (Fin.ext ?_) (Fin.ext ?_)
    · show (262144 * b.val + p.val) / 262144 = b.val; omega
    · show (262144 * b.val + p.val) % 262144 = p.val; omega
  right_inv n := by
    refine Fin.ext ?_
    show 262144 * (n.val / 262144) + n.val % 262144 = n.val
    omega

/-- … so a sum over it is the double sum over images and pixels. -/
theorem sum_flat {M : Type*} [AddCommMonoid M] (f : Fin 1048576 → M) :
    ∑ n, f n = ∑ b : Fin 4, ∑ p : Fin 262144, f (flat b p) := by
  rw [← Equiv.sum_comp flatEquiv f, Fintype.sum_prod_type]
  rfl

/-- The flattened labels at flat pixel (b, p) are the label tensor at (b, row, column). -/
theorem lab_flat (x1 : IVec S4x512x512 32) (b : Fin 4) (p : Fin 262144) :
    val_main_v2 (F := Ideal) x1 (ix1 (flat b p)) = x1 (ix3 b (prow p) (pcol p)) := by
  rw [val_main_v2_apply]
  congr 1
  funext a
  refine Fin.ext ?_
  have := b.isLt; have := p.isLt
  match a with
  | ⟨0, _⟩ => show (262144 * b.val + p.val) / 262144 = b.val; omega
  | ⟨1, _⟩ => show (262144 * b.val + p.val) / 512 % 512 = p.val / 512; omega
  | ⟨2, _⟩ => show (262144 * b.val + p.val) % 512 = p.val % 512; omega

/-- The flattened embeddings at flat pixel (b, p), channel ch, are the embedding tensor at (b, ch, row, column). -/
theorem pix_flat (x0 : FVec Ideal S4x64x512x512 .f32) (b : Fin 4) (ch : Fin 64) (p : Fin 262144) :
    val_main_v1 (F := Ideal) x0 (ix2 (flat b p) ch) = x0 (ix4 b ch (prow p) (pcol p)) := by
  rw [val_main_v1_apply, val_main_v0_apply]
  congr 1
  funext a
  refine Fin.ext ?_
  have := b.isLt; have := p.isLt; have := ch.isLt
  match a with
  | ⟨0, _⟩ => show ((262144 * b.val + p.val) * 64 + ch.val) / 16777216 = b.val; omega
  | ⟨1, _⟩ => show ((262144 * b.val + p.val) * 64 + ch.val) % 64 = ch.val; omega
  | ⟨2, _⟩ => show ((262144 * b.val + p.val) * 64 + ch.val) / 32768 % 512 = p.val / 512; omega
  | ⟨3, _⟩ => show ((262144 * b.val + p.val) * 64 + ch.val) / 64 % 512 = p.val % 512; omega

/-- A 32-bit word below 19, read signed, is a natural number exactly when it is that number read unsigned. -/
theorem toInt_eq_iff (w : BitVec 32) (hw : w.toNat < 19) (k : ℕ) : w.toInt = (k : Int) ↔ w.toNat = k := by
  rw [BitVec.toInt_eq_toNat_of_lt (by omega)]
  exact Int.ofNat_inj

/-- The word 0x3F800000 is the number one. -/
theorem one_word : Ideal.ofBits .f32 0x3F800000#32 = (1 : EReal) := Ideal.ofBits_one_f32

/-- The count scatter is the class counts. -/
theorem cnt19_eq (x1 : IVec S4x512x512 32) (hL : ∀ b p, Lof x1 b p < 19) :
    val_main_v6 (F := Ideal) x1 = cntA (Lof x1) := by
  funext i
  obtain ⟨k, rfl⟩ : ∃ k : Fin 19, i = ix1 k := ⟨i 0, eq_ix1 i⟩
  unfold val_main_v6
  rw [RowsGS.scatterAdd_vec_apply _ rfl rfl rfl rfl, val_main_v4_apply, val_main_cst_0_apply,
    Ideal.ofBits_def, Ideal.ofBits_zero_f32, zero_add, sum_flat]
  show _ = cnt (Lof x1) k.val
  unfold cnt
  refine Finset.sum_congr rfl fun b _ => Finset.sum_congr rfl fun p _ => ?_
  have hidx : val_main_v5 (F := Ideal) x1 (ix2 (flat b p) 0) = x1 (ix3 b (prow p) (pcol p)) := by
    rw [val_main_v5_apply, ← lab_flat x1 b p]
    congr 1
    funext a
    match a with
    | ⟨0, _⟩ => rfl
  rw [hidx, val_main_v3_apply, val_main_cst_apply, Ideal.ofBits_def, one_word]
  exact if_congr (toInt_eq_iff _ (hL b p) _) rfl rfl

/-- The channel-sum scatter is the class channel sums. -/
theorem sums19_eq (x0 : FVec Ideal S4x64x512x512 .f32) (x1 : IVec S4x512x512 32) (hL : ∀ b p, Lof x1 b p < 19) :
    val_main_v9 (F := Ideal) x0 x1 = smA (Xof x0) (Lof x1) := by
  funext i
  obtain ⟨k, c, rfl⟩ : ∃ (k : Fin 19) (c : Fin 64), i = ix2 k c := ⟨i 0, i 1, eq_ix2 i⟩
  unfold val_main_v9
  rw [RowsGS.scatterAdd_rows2_apply _ rfl rfl rfl rfl, val_main_v7_apply, val_main_cst_1_apply,
    Ideal.ofBits_def, Ideal.ofBits_zero_f32, zero_add, sum_flat]
  show _ = sm (Xof x0) (Lof x1) c k.val
  unfold sm
  refine Finset.sum_congr rfl fun b _ => Finset.sum_congr rfl fun p _ => ?_
  have hidx : val_main_v8 (F := Ideal) x1 (ix2 (flat b p) 0) = x1 (ix3 b (prow p) (pcol p)) := by
    rw [val_main_v8_apply, ← lab_flat x1 b p]
    congr 1
    funext a
    match a with
    | ⟨0, _⟩ => rfl
  rw [hidx, pix_flat]
  exact if_congr (toInt_eq_iff _ (hL b p) _) rfl rfl

end Cert.ReferenceIdeal.RV

end
-- ==== Proof.RefPull.lean ====
/-
  The reference's pull sums and its result, read as the mathematics over pixels.

  The reference flattens the pixels of the 4 images to one axis, n = 262144·b + p. Its pull-sum array is a scatter-add
  of the per-pixel pull terms by the labels: lane n collects the terms of the pixels whose label, read signed, is n.
  With every label below 19 the signed reading of a label is the label itself, so
    * the row gather of the centres reads, at pixel (b, p), row L b p of the centres array: the wrap-around select
      `lab < 0 ? lab + 19 : lab` keeps a label that is not negative, and the start lies inside the 19 rows;
    * the centres array at (class k, channel c) is the channel sum over the count floor, `cen X L c k`;
    * the reduce over the 64 channels is the zero word plus the sum, so the squared distance is `dist2 X L b p` and the
      term the reference squares is `vpix X L b p`;
    * the scatter-add from the zero array is then `vs X L n` at lane n, the sum over images and pixels.
  The last stage of the reference is, by unfolding alone and for any float values, the common tail applied to the three
  scatter results (counts, channel sums, pull sums); with the three read as `cntA`, `smA`, `vsA` it is `Loss`.
-/
import proofs.«402319_j32229434589496_3_alg».proof.Proof.RefRead
import proofs.«402319_j32229434589496_3_alg».proof.Proof.Tails
import proofs.«402319_j32229434589496_3_alg».proof.Proof.LibGatherScatterRows
import proofs.«402319_j32229434589496_3_alg».proof.Proof.LibScatterAddVec
import proofs.«402319_j32229434589496_3_alg».proof.Proof.RefSums
import Idealize.ShloMosaic.Lib.IdealHost

noncomputable section

namespace Cert.ReferenceIdeal.RV

open Cert.ReferenceIdeal Cert.ReferenceIdeal.Gen Cert.ReferenceIdeal.ReadP Cert.ReferenceIdeal.Tail Cert.SegLoss
open Idealize.ShloMosaic Idealize.ShloMosaic.ValueIdx Idealize.ShloMosaic.TcCoe Idealize.SL.Sem Idealize.ShloMosaic.StableHlo

set_option maxRecDepth 8192 in
/-- The reference's last stage is the common tail applied to its three scatter results (for any float values). -/
theorem v85_eq_RT {F : FTy → Type} [FloatOps F] (x0 : (⟨S4x64x512x512, .f32⟩ : BufTy).Contents (Elt F)) (x1 : (⟨S4x512x512, .i32⟩ : BufTy).Contents (Elt F)) :
    val_main_v85 (F := F) x0 x1 = RT (F := F) (val_main_v6 (F := F) x1) (val_main_v9 (F := F) x0 x1) (val_main_v38 (F := F) x0 x1) := by
  rfl

section Pixels

variable (x0 : FVec Ideal S4x64x512x512 .f32) (x1 : IVec S4x512x512 32)

/-- A label below 19, read signed, is the same number. -/
theorem lab_toInt (hL : ∀ b p, Lof x1 b p < 19) (b : Fin 4) (p : Fin 262144) :
    (val_main_v2 (F := Ideal) x1 (ix1 (flat b p))).toInt = ((Lof x1 b p : ℕ) : Int) := by
  rw [lab_flat]
  exact (toInt_eq_iff _ (hL b p) _).2 rfl

/-- The gather's start index at pixel (b, p) is the label itself: the label is not negative, so the wrap-around select keeps it. -/
theorem start_flat (hL : ∀ b p, Lof x1 b p < 19) (b : Fin 4) (p : Fin 262144) :
    val_main_v24 (F := Ideal) x1 (ix2 (flat b p) 0) = val_main_v2 (F := Ideal) x1 (ix1 (flat b p)) := by
  have hi : idx_main_v24 (ix2 (flat b p) (0 : Fin 1)) = ix1 (flat b p) := by
    funext a; match a with | ⟨0, _⟩ => rfl
  rw [val_main_v24_apply, hi, val_main_v23_apply, val_main_v20_apply]
  have h0 : val_main_v19 (F := Ideal) (ix1 (flat b p)) = 0#32 := by rw [val_main_v19_apply]; rfl
  rw [h0]
  have hc : IntOp.cmpi .slt (val_main_v2 (F := Ideal) x1 (ix1 (flat b p))) 0#32 = 0#1 := by
    refine eq_zero_of_ne_one fun h => ?_
    have h' := IntOp.cmpi_slt.1 h
    rw [lab_toInt x1 hL b p] at h'
    have : (0#32 : BitVec 32).toInt = 0 := by decide
    omega
  rw [hc, select_zero]

/-- The centres array read at (class n, channel ch) is the centre of class n. -/
theorem cen_read (hL : ∀ b p, Lof x1 b p < 19) (n : Fin 19) (ch : Fin 64) :
    val_main_v16 (F := Ideal) x0 x1 (ix2 n ch) = cen (Xof x0) (Lof x1) ch n.val := by
  rw [val_main_v16_apply, val_main_v15_apply, val_main_v14_apply, val_main_v13_apply, val_main_v12_apply,
    sums19_eq x0 x1 hL, cnt19_eq x1 hL]
  rfl

/-- The gathered row at pixel (b, p) is the centre of that pixel's own class. -/
theorem gather_flat (hL : ∀ b p, Lof x1 b p < 19) (b : Fin 4) (p : Fin 262144) (ch : Fin 64) :
    val_main_v25 (F := Ideal) x0 x1 (ix2 (flat b p) ch) = cen (Xof x0) (Lof x1) ch (Lof x1 b p) := by
  unfold val_main_v25
  rw [Idealize.ShloMosaic.RowsGS.gather_rows2_apply gather_S19x64_S1048576x1_S1048576x64_1_0_n_n_0_1_164 rfl rfl rfl rfl rfl rfl rfl
    (val_main_v16 (F := Ideal) x0 x1) (val_main_v24 (F := Ideal) x1) (flat b p) ch ⟨Lof x1 b p, hL b p⟩
    (by rw [start_flat x1 hL b p]; exact lab_toInt x1 hL b p)]
  exact cen_read x0 x1 hL ⟨Lof x1 b p, hL b p⟩ ch

/-- The squared distance the reference forms at pixel (b, p): the zero word plus the sum over the 64 channels. -/
theorem dist_flat (hL : ∀ b p, Lof x1 b p < 19) (b : Fin 4) (p : Fin 262144) :
    val_main_v28 (F := Ideal) x0 x1 (ix1 (flat b p)) = dist2 (Xof x0) (Lof x1) b p := by
  have hi : ∀ k : Fin 64, idx_main_v28 (ix1 (flat b p)) k = ix2 (flat b p) k := fun k => by
    funext a; match a with | ⟨0, _⟩ => rfl | ⟨1, _⟩ => rfl
  rw [val_main_v28_apply, val_main_cst_6_apply, Ideal.ofBits_def, Ideal.ofBits_zero_f32, zero_add]
  unfold dist2
  refine Finset.sum_congr rfl fun k _ => ?_
  rw [hi k, val_main_v27_apply, val_main_v26_apply, gather_flat x0 x1 hL b p k, pix_flat x0 b k p]
  rfl

/-- The pull term the reference forms at pixel (b, p). -/
theorem pull_flat (hL : ∀ b p, Lof x1 b p < 19) (b : Fin 4) (p : Fin 262144) :
    val_main_v35 (F := Ideal) x0 x1 (ix1 (flat b p)) = vpix (Xof x0) (Lof x1) b p := by
  have h34 : val_main_v34 (F := Ideal) x0 x1 (ix1 (flat b p))
      = max (Ideal.sqrt (max (dist2 (Xof x0) (Lof x1) b p) (Ideal.ofBits .f32 0x2B8CBCCC#32)) - Ideal.ofBits .f32 0x3F000000#32) 0 := by
    rw [val_main_v34_apply, val_main_v33_apply, val_main_v31_apply, val_main_v30_apply, dist_flat x0 x1 hL b p,
      val_main_v29_apply, val_main_v32_apply, val_main_call0_v0_apply, val_main_cst_7_apply, val_main_cst_8_apply,
      val_main_call0_cst_apply]
    simp only [Ideal.ofBits_def, Ideal.ofBits_zero_f32, Ideal.maximumf_def, Ideal.subf_def, Ideal.hostUnary_sqrt_def]
  rw [val_main_v35_apply, h34]
  rfl

end Pixels

/-- The reference's pull-sum array is the per-class pull sums: lane n collects the pull terms of the pixels labelled n. -/
theorem vs19_eq (x0 : FVec Ideal S4x64x512x512 .f32) (x1 : IVec S4x512x512 32) (hL : ∀ b p, Lof x1 b p < 19) :
    val_main_v38 (F := Ideal) x0 x1 = vsA (Xof x0) (Lof x1) := by
  funext i
  obtain ⟨n, rfl⟩ : ∃ n : Fin 19, i = ix1 n := ⟨i 0, eq_ix1 (n := 19) i⟩
  have hi : ∀ e : Fin 1048576, idx_main_v37 (ix2 e (0 : Fin 1)) = ix1 e := fun e => by
    funext a; match a with | ⟨0, _⟩ => rfl
  unfold val_main_v38
  rw [Idealize.ShloMosaic.RowsGS.scatterAdd_vec_apply scatter_S19_S1048576x1_S1048576_n_0_0_1 rfl rfl rfl rfl,
    val_main_v36_apply, val_main_cst_9_apply, Ideal.ofBits_def, Ideal.ofBits_zero_f32, zero_add, sum_flat]
  show _ = vs (Xof x0) (Lof x1) n.val
  unfold vs
  refine Finset.sum_congr rfl fun b _ => Finset.sum_congr rfl fun p _ => ?_
  rw [val_main_v37_apply, hi, pull_flat x0 x1 hL b p]
  refine if_congr ?_ rfl rfl
  rw [lab_flat]
  exact toInt_eq_iff _ (hL b p) _

/-- The reference's result is the loss of the pixel sums, when every label is below 19. -/
theorem ref_result (m : (ℓ : Loc nD τ sig) → Buf (Elt Ideal) ℓ) (c : Dev nD) (hL : ∀ b p, Lof (m ((c.tc : Thread nD τ).loc main_arg1)) b p < 19) :
    Cert.ReferenceIdeal.ValueP.res_main_v85 (F := Ideal) m c = Loss (Xof (m ((c.tc : Thread nD τ).loc main_arg0))) (Lof (m ((c.tc : Thread nD τ).loc main_arg1))) := by
  rw [val_main_v85_eq, v85_eq_RT, cnt19_eq _ hL, sums19_eq _ _ hL, vs19_eq _ _ hL]
  rfl

end Cert.ReferenceIdeal.RV

end
-- ==== Proof.KPay.lean ====
/-
  The kernel bodies' arithmetic, read at a lane.

  Launch 0's body adds to the running block of channel sums, at channel ch and lane k, the sum over the block's pixels j
  of x[ch, j] when the pixel's label is k, and to the running block of counts the number of such pixels: each is a
  product against the one-hot table (lane k, pixel j) ↦ [label j = k] contracted over the pixels into a zero accumulator,
  which over the extended reals is the plain sum (x·1 = x, x·0 = 0). Launch 1's body first gathers the centre of each
  pixel's own class (the centre table contracted against the same one-hot table over the lanes), forms the pull term of
  the pixel from the squared distance summed over the channels, and adds at lane k the sum of the pull terms of the
  pixels labelled k.
-/
import proofs.«402319_j32229434589496_3_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Mathlib.Algebra.BigOperators.Group.Finset.Basic
import Mathlib.Data.Fintype.BigOperators

noncomputable section

namespace Cert.KernelIdeal.KP

open Cert.KernelIdeal Cert.KernelIdeal.Gen Idealize.ShloMosaic Idealize.ShloMosaic.ValueIdx
open scoped BigOperators

/-! ## The one-hot table -/

/-- A column [a, 1] broadcast along the lanes to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The comparison bit of two words, widened and converted, is the real 1 when they agree and 0 otherwise. -/
theorem onehot_word (a b : BitVec 32) :
    ((((IntOp.cmpi .eq a b).setWidth 32).toInt : ℝ) : EReal) = if a = b then 1 else 0 := by
  unfold IntOp.cmpi
  by_cases h : a = b
  · subst h
    rw [if_pos rfl]
    have e : ((BitVec.ofBool (a == a)).setWidth 32).toInt = 1 := by
      rw [beq_self_eq_true]; decide
    rw [e]; norm_cast
  · rw [if_neg h]
    have e : ((BitVec.ofBool (a == b)).setWidth 32).toInt = 0 := by
      rw [beq_eq_false_iff_ne.mpr h]; decide
    rw [e]; norm_cast

/-- The one-hot table of a label block: lane k, pixel j is 1 when pixel j carries label k, else 0. -/
theorem onehot_apply (lab : Vec Ideal S1x1x16384 .i32) (k : Fin 128) (j : Fin 16384) :
    k0_pay3 (F := Ideal) lab (ix2 k j) = if lab (ix3 0 0 j) = BitVec.ofNat 32 k.val then (1 : EReal) else 0 := by
  unfold k0_pay3
  show ((((IntOp.cmpi .eq
      (broadcastTo S128x16384 (iota .tc S128x1 32 [0] iota_S128x1_d0_w32) broadcasts_S128x1_S128x16384 (ix2 k j))
      (broadcastTo S128x16384 (shapeCast S1x16384 lab shapeCasts_S1x1x16384_S1x16384) broadcasts_S1x16384_S128x16384 (ix2 k j))).setWidth 32).toInt : ℝ) : EReal) = _
  rw [broadcastTo_1b_ab_apply, shapeCast_1ab_ab_apply, broadcastTo_a1_ab_apply, iota_single_apply, onehot_word]
  by_cases h : lab (ix3 0 0 j) = BitVec.ofNat 32 k.val
  · rw [if_pos h, if_pos h.symm]
  · rw [if_neg h, if_neg (fun e => h e.symm)]

/-- A value against a one-hot entry is the value where the entry is 1 and 0 elsewhere. -/
theorem mul_onehot (a : EReal) (p : Prop) [Decidable p] : a * (if p then (1 : EReal) else 0) = if p then a else 0 := by
  by_cases h : p
  · rw [if_pos h, if_pos h, mul_one]
  · rw [if_neg h, if_neg h, mul_zero]

/-! ## The operand indices of the three contractions, axis by axis -/

theorem lhs4_0 (j : S64x128.Idx) (k : dot_S64x16384_S128x16384_S64x128_1_1_0_0_n_n.contr.Idx) :
    (dot_S64x16384_S128x16384_S64x128_1_1_0_0_n_n.lhsIdx j k 0 : ℕ) = j 0 := by
  simp [DotDims.lhsIdx, dot_S64x16384_S128x16384_S64x128_1_1_0_0_n_n]; rfl
theorem lhs4_1 (j : S64x128.Idx) (k : dot_S64x16384_S128x16384_S64x128_1_1_0_0_n_n.contr.Idx) :
    (dot_S64x16384_S128x16384_S64x128_1_1_0_0_n_n.lhsIdx j k 1 : ℕ) = k ⟨0, by decide⟩ := by
  simp [DotDims.lhsIdx, dot_S64x16384_S128x16384_S64x128_1_1_0_0_n_n]; rfl
theorem rhs4_0 (j : S64x128.Idx) (k : dot_S64x16384_S128x16384_S64x128_1_1_0_0_n_n.contr.Idx) :
    (dot_S64x16384_S128x16384_S64x128_1_1_0_0_n_n.rhsIdx j k 0 : ℕ) = j 1 := by
  simp [DotDims.rhsIdx, dot_S64x16384_S128x16384_S64x128_1_1_0_0_n_n]; rfl
theorem rhs4_1 (j : S64x128.Idx) (k : dot_S64x16384_S128x16384_S64x128_1_1_0_0_n_n.contr.Idx) :
    (dot_S64x16384_S128x16384_S64x128_1_1_0_0_n_n.rhsIdx j k 1 : ℕ) = k ⟨0, by decide⟩ := by
  simp [DotDims.rhsIdx, dot_S64x16384_S128x16384_S64x128_1_1_0_0_n_n]; rfl

theorem lhs5_0 (j : S1x128.Idx) (k : dot_S1x16384_S128x16384_S1x128_1_1_0_0_n_n.contr.Idx) :
    (dot_S1x16384_S128x16384_S1x128_1_1_0_0_n_n.lhsIdx j k 0 : ℕ) = j 0 := by
  unfold DotDims.lhsIdx
  rw [dif_neg (show ¬(0 : Fin S1x16384.rank) ∈ dot_S1x16384_S128x16384_S1x128_1_1_0_0_n_n.lhsBatch by decide),
    dif_pos (show (0 : Fin S1x16384.rank) ∈ dot_S1x16384_S128x16384_S1x128_1_1_0_0_n_n.lhsNonContracting by decide)]
  rfl
theorem lhs5_1 (j : S1x128.Idx) (k : dot_S1x16384_S128x16384_S1x128_1_1_0_0_n_n.contr.Idx) :
    (dot_S1x16384_S128x16384_S1x128_1_1_0_0_n_n.lhsIdx j k 1 : ℕ) = k ⟨0, by decide⟩ := by
  simp [DotDims.lhsIdx, dot_S1x16384_S128x16384_S1x128_1_1_0_0_n_n]; rfl
theorem rhs5_0 (j : S1x128.Idx) (k : dot_S1x16384_S128x16384_S1x128_1_1_0_0_n_n.contr.Idx) :
    (dot_S1x16384_S128x16384_S1x128_1_1_0_0_n_n.rhsIdx j k 0 : ℕ) = j 1 := by
  simp [DotDims.rhsIdx, dot_S1x16384_S128x16384_S1x128_1_1_0_0_n_n]; rfl
theorem rhs5_1 (j : S1x128.Idx) (k : dot_S1x16384_S128x16384_S1x128_1_1_0_0_n_n.contr.Idx) :
    (dot_S1x16384_S128x16384_S1x128_1_1_0_0_n_n.rhsIdx j k 1 : ℕ) = k ⟨0, by decide⟩ := by
  simp [DotDims.rhsIdx, dot_S1x16384_S128x16384_S1x128_1_1_0_0_n_n]; rfl

theorem lhsG_0 (j : S64x16384.Idx) (k : dot_S64x128_S128x16384_S64x16384_1_0_0_1_n_n.contr.Idx) :
    (dot_S64x128_S128x16384_S64x16384_1_0_0_1_n_n.lhsIdx j k 0 : ℕ) = j 0 := by
  simp [DotDims.lhsIdx, dot_S64x128_S128x16384_S64x16384_1_0_0_1_n_n]; rfl
theorem lhsG_1 (j : S64x16384.Idx) (k : dot_S64x128_S128x16384_S64x16384_1_0_0_1_n_n.contr.Idx) :
    (dot_S64x128_S128x16384_S64x16384_1_0_0_1_n_n.lhsIdx j k 1 : ℕ) = k ⟨0, by decide⟩ := by
  simp [DotDims.lhsIdx, dot_S64x128_S128x16384_S64x16384_1_0_0_1_n_n]; rfl
theorem rhsG_0 (j : S64x16384.Idx) (k : dot_S64x128_S128x16384_S64x16384_1_0_0_1_n_n.contr.Idx) :
    (dot_S64x128_S128x16384_S64x16384_1_0_0_1_n_n.rhsIdx j k 0 : ℕ) = k ⟨0, by decide⟩ := by
  simp [DotDims.rhsIdx, dot_S64x128_S128x16384_S64x16384_1_0_0_1_n_n]; rfl
theorem rhsG_1 (j : S64x16384.Idx) (k : dot_S64x128_S128x16384_S64x16384_1_0_0_1_n_n.contr.Idx) :
    (dot_S64x128_S128x16384_S64x16384_1_0_0_1_n_n.rhsIdx j k 1 : ℕ) = j 1 := by
  simp [DotDims.rhsIdx, dot_S64x128_S128x16384_S64x16384_1_0_0_1_n_n]; rfl

/-! ## Launch 0 -/

/-- The zero block the first step of a batch stores. -/
theorem pay1_apply (ch : Fin 64) (k : Fin 128) : k0_pay1 (F := Ideal) (ix3 0 ch k) = 0 := by
  unfold k0_pay1
  refine (shapeCast_ab_1ab_apply _ _ 0 ch k).trans ?_
  exact Ideal.ofBits_zero_f32

/-- The zero row the first step of a batch stores. -/
theorem pay2_apply (k : Fin 128) : k0_pay2 (F := Ideal) (ix3 0 0 k) = 0 := by
  unfold k0_pay2
  refine (shapeCast_ab_1ab_apply _ _ 0 0 k).trans ?_
  exact Ideal.ofBits_zero_f32

/-- The channel-sum update at channel ch, lane k: the block it was given plus the sum, over the 16384 pixels of the
    block, of the pixel's channel value where the pixel carries label k. -/
theorem pay4_apply (x : Vec Ideal S1x64x16384 .f32) (lab : Vec Ideal S1x1x16384 .i32) (acc : Vec Ideal S1x64x128 .f32) (ch : Fin 64) (k : Fin 128) :
    k0_pay4 (F := Ideal) x lab acc (ix3 0 ch k) = acc (ix3 0 ch k) + ∑ j : Fin 16384, if lab (ix3 0 0 j) = BitVec.ofNat 32 k.val then x (ix3 0 ch j) else 0 := by
  unfold k0_pay4
  refine (shapeCast_ab_1ab_apply _ _ 0 ch k).trans ?_
  refine congrArg₂ (· + ·) (shapeCast_1ab_ab_apply _ _ ch k) ?_
  simp only [matmul]
  refine (Ideal.matmul_constant_zero_apply dot_S64x16384_S128x16384_S64x128_1_1_0_0_n_n none _ _ (ix2 ch k)).trans ?_
  rw [← Equiv.sum_comp (contrEquiv1 dot_S64x16384_S128x16384_S64x128_1_1_0_0_n_n 16384 rfl rfl).symm]
  refine Finset.sum_congr rfl fun j _ => ?_
  have hl : dot_S64x16384_S128x16384_S64x128_1_1_0_0_n_n.lhsIdx (ix2 ch k)
      ((contrEquiv1 dot_S64x16384_S128x16384_S64x128_1_1_0_0_n_n 16384 rfl rfl).symm j) = ix2 ch j := by
    funext a; apply Fin.ext
    match a with
    | ⟨0, _⟩ => exact lhs4_0 _ _
    | ⟨1, _⟩ => exact (lhs4_1 _ _).trans (contrEquiv1_symm_val _ 16384 rfl rfl j)
  have hr : dot_S64x16384_S128x16384_S64x128_1_1_0_0_n_n.rhsIdx (ix2 ch k)
      ((contrEquiv1 dot_S64x16384_S128x16384_S64x128_1_1_0_0_n_n 16384 rfl rfl).symm j) = ix2 k j := by
    funext a; apply Fin.ext
    match a with
    | ⟨0, _⟩ => exact rhs4_0 _ _
    | ⟨1, _⟩ => exact (rhs4_1 _ _).trans (contrEquiv1_symm_val _ 16384 rfl rfl j)
  rw [hl, hr, onehot_apply]
  show shapeCast S64x16384 x shapeCasts_S1x64x16384_S64x16384 (ix2 ch j) * _ = _
  rw [shapeCast_1ab_ab_apply, mul_onehot]

/-- The count update at lane k: the row it was given plus the number of pixels of the block that carry label k
    (the ones row against the one-hot table; the ones row's word is the real 1). -/
theorem pay5_apply (lab : Vec Ideal S1x1x16384 .i32) (acc : Vec Ideal S1x1x128 .f32) (k : Fin 128) :
    k0_pay5 (F := Ideal) lab acc (ix3 0 0 k) = acc (ix3 0 0 k) + ∑ j : Fin 16384, if lab (ix3 0 0 j) = BitVec.ofNat 32 k.val then (1 : EReal) else 0 := by
  unfold k0_pay5
  refine (shapeCast_ab_1ab_apply _ _ 0 0 k).trans ?_
  refine congrArg₂ (· + ·) (shapeCast_1ab_ab_apply _ _ 0 k) ?_
  simp only [matmul]
  refine (Ideal.matmul_constant_zero_apply dot_S1x16384_S128x16384_S1x128_1_1_0_0_n_n none _ _ (ix2 0 k)).trans ?_
  rw [← Equiv.sum_comp (contrEquiv1 dot_S1x16384_S128x16384_S1x128_1_1_0_0_n_n 16384 rfl rfl).symm]
  refine Finset.sum_congr rfl fun j _ => ?_
  have hr : dot_S1x16384_S128x16384_S1x128_1_1_0_0_n_n.rhsIdx (ix2 0 k)
      ((contrEquiv1 dot_S1x16384_S128x16384_S1x128_1_1_0_0_n_n 16384 rfl rfl).symm j) = ix2 k j := by
    funext a; apply Fin.ext
    match a with
    | ⟨0, _⟩ => exact rhs5_0 _ _
    | ⟨1, _⟩ => exact (rhs5_1 _ _).trans (contrEquiv1_symm_val _ 16384 rfl rfl j)
  rw [hr, onehot_apply]
  show Ideal.ofBits .bf16 0x3F80#16 * _ = _
  rw [Ideal.ofBits_one_bf16, one_mul]

/-! ## Launch 1 -/

/-- The centre of pixel j's own class, channel ch: the centre table against the one-hot column of the pixel's label. -/
def gathB (lab : Vec Ideal S1x1x16384 .i32) (cen : Vec Ideal S64x128 .f32) (ch : Fin 64) (j : Fin 16384) : EReal :=
  ∑ k' : Fin 128, cen (ix2 ch k') * (if lab (ix3 0 0 j) = BitVec.ofNat 32 k'.val then (1 : EReal) else 0)

/-- The pull term of pixel j of the block. -/
def pullB (x : Vec Ideal S1x64x16384 .f32) (lab : Vec Ideal S1x1x16384 .i32) (cen : Vec Ideal S64x128 .f32) (j : Fin 16384) : EReal :=
  max (Ideal.sqrt (max (∑ ch : Fin 64, (gathB lab cen ch j - x (ix3 0 ch j)) * (gathB lab cen ch j - x (ix3 0 ch j))) (Ideal.ofBits .f32 0x2B8CBCCC#32)) - Ideal.ofBits .f32 0x3F000000#32) 0
    * max (Ideal.sqrt (max (∑ ch : Fin 64, (gathB lab cen ch j - x (ix3 0 ch j)) * (gathB lab cen ch j - x (ix3 0 ch j))) (Ideal.ofBits .f32 0x2B8CBCCC#32)) - Ideal.ofBits .f32 0x3F000000#32) 0

/-- The zero row the first step of a batch stores. -/
theorem k1_pay2_apply (k : Fin 128) : k1_pay2 (F := Ideal) (ix3 0 0 k) = 0 := by
  unfold k1_pay2
  refine (shapeCast_ab_1ab_apply _ _ 0 0 k).trans ?_
  exact Ideal.ofBits_zero_f32

/-- The gathered centre: the centre table contracted against the one-hot table over the lanes, at channel ch, pixel j. -/
theorem gath_apply (lab : Vec Ideal S1x1x16384 .i32) (cen : Vec Ideal S64x128 .f32) (ch : Fin 64) (j : Fin 16384) :
    matmul (F := Ideal) dot_S64x128_S128x16384_S64x16384_1_0_0_1_n_n none
      (truncf .bf16 (shapeCast S64x128 cen shapeCasts_S64x128_S64x128) bitsLt_bf16_f32 : FVec Ideal S64x128 .bf16)
      (k0_pay3 (F := Ideal) lab) (constant S64x16384 .f32 0x00000000#32) (ix2 ch j) = gathB lab cen ch j := by
  simp only [matmul]
  refine (Ideal.matmul_constant_zero_apply dot_S64x128_S128x16384_S64x16384_1_0_0_1_n_n none _ _ (ix2 ch j)).trans ?_
  rw [← Equiv.sum_comp (contrEquiv1 dot_S64x128_S128x16384_S64x16384_1_0_0_1_n_n 128 rfl rfl).symm]
  unfold gathB
  refine Finset.sum_congr rfl fun k' _ => ?_
  have hl : dot_S64x128_S128x16384_S64x16384_1_0_0_1_n_n.lhsIdx (ix2 ch j)
      ((contrEquiv1 dot_S64x128_S128x16384_S64x16384_1_0_0_1_n_n 128 rfl rfl).symm k') = ix2 ch k' := by
    funext a; apply Fin.ext
    match a with
    | ⟨0, _⟩ => exact lhsG_0 _ _
    | ⟨1, _⟩ => exact (lhsG_1 _ _).trans (contrEquiv1_symm_val _ 128 rfl rfl k')
  have hr : dot_S64x128_S128x16384_S64x16384_1_0_0_1_n_n.rhsIdx (ix2 ch j)
      ((contrEquiv1 dot_S64x128_S128x16384_S64x16384_1_0_0_1_n_n 128 rfl rfl).symm k') = ix2 k' j := by
    funext a; apply Fin.ext
    match a with
    | ⟨0, _⟩ => exact (rhsG_0 _ _).trans (contrEquiv1_symm_val _ 128 rfl rfl k')
    | ⟨1, _⟩ => exact rhsG_1 _ _
  rw [hl, hr, onehot_apply]
  show shapeCast S64x128 cen shapeCasts_S64x128_S64x128 (ix2 ch k') * _ = _
  rw [shapeCast_self]

/-- The squared distance of pixel j to its centre, summed over the channels: the channel reduction of the squared
    differences, read at the pixel. -/
theorem dist_of (G X4 : FVec Ideal S64x16384 .f32) (j : Fin 16384) (g y : Fin 64 → EReal)
    (hG : ∀ ch, G (ix2 ch j) = g ch) (hX : ∀ ch, X4 (ix2 ch j) = y ch) :
    (shapeCast S1x16384 (multiReduction (F := Ideal) .add [0] S16384 (mulf (subf G X4) (subf G X4)) 0x00000000#32
        reduces_S64x16384_S16384 (.inl rfl) rfl) shapeCasts_S16384_S1x16384 : FVec Ideal S1x16384 .f32) (ix2 0 j)
      = ∑ ch : Fin 64, (g ch - y ch) * (g ch - y ch) := by
  refine (shapeCast_a_1a_apply _ _ 0 j).trans ?_
  refine (Ideal.multiReduction_add_single _ _ reduces_S64x16384_S16384 _ _ (ix1 j)).trans ?_
  refine Finset.sum_congr rfl fun (ch : Fin 64) _ => ?_
  have e : reduces_S64x16384_S16384.lift (ix1 j) ch = ix2 ch j := by
    funext a; apply Fin.ext
    match a with
    | ⟨0, _⟩ => rfl
    | ⟨1, _⟩ => rfl
  rw [e]
  show (G (ix2 ch j) - X4 (ix2 ch j)) * (G (ix2 ch j) - X4 (ix2 ch j)) = _
  rw [hG, hX]

/-- The pull term from the squared distance: relu(√(max(d, ε)) − ½)², read at the pixel. -/
theorem pull_of_dist (d : FVec Ideal S1x16384 .f32) (j : Fin 16384) (S : EReal) (hd : d (ix2 0 j) = S) :
    (truncf .bf16
      (mulf
        (maximumf (subf (sqrt (maximumf d (broadcast S1x16384 (Scalar.ofBits (F := Ideal) .f32 0x2B8CBCCC#32))))
          (broadcast S1x16384 (Scalar.ofBits (F := Ideal) .f32 0x3F000000#32))) (broadcast S1x16384 (Scalar.ofBits (F := Ideal) .f32 0x00000000#32)))
        (maximumf (subf (sqrt (maximumf d (broadcast S1x16384 (Scalar.ofBits (F := Ideal) .f32 0x2B8CBCCC#32))))
          (broadcast S1x16384 (Scalar.ofBits (F := Ideal) .f32 0x3F000000#32))) (broadcast S1x16384 (Scalar.ofBits (F := Ideal) .f32 0x00000000#32))))
      bitsLt_bf16_f32 : FVec Ideal S1x16384 .bf16) (ix2 0 j)
      = max (Ideal.sqrt (max S (Ideal.ofBits .f32 0x2B8CBCCC#32)) - Ideal.ofBits .f32 0x3F000000#32) 0
        * max (Ideal.sqrt (max S (Ideal.ofBits .f32 0x2B8CBCCC#32)) - Ideal.ofBits .f32 0x3F000000#32) 0 := by
  subst hd
  show max (Ideal.sqrt (max (d (ix2 0 j)) (Ideal.ofBits .f32 0x2B8CBCCC#32)) - Ideal.ofBits .f32 0x3F000000#32) (Ideal.ofBits .f32 0x00000000#32)
      * max (Ideal.sqrt (max (d (ix2 0 j)) (Ideal.ofBits .f32 0x2B8CBCCC#32)) - Ideal.ofBits .f32 0x3F000000#32) (Ideal.ofBits .f32 0x00000000#32) = _
  rw [Ideal.ofBits_zero_f32]

/-- The pull-sum update at lane k: the row it was given plus the sum, over the 16384 pixels of the block, of the pixel's
    pull term where the pixel carries label k. -/
theorem pay3_apply (x : Vec Ideal S1x64x16384 .f32) (lab : Vec Ideal S1x1x16384 .i32) (cen : Vec Ideal S64x128 .f32) (acc : Vec Ideal S1x1x128 .f32) (k : Fin 128) :
    k1_pay1 (k1_pay3 (F := Ideal) x lab cen acc) (ix3 0 0 k) = acc (ix3 0 0 k) + ∑ j : Fin 16384, if lab (ix3 0 0 j) = BitVec.ofNat 32 k.val then pullB x lab cen j else 0 := by
  unfold k1_pay1 k1_pay3
  refine (shapeCast_ab_1ab_apply _ _ 0 0 k).trans ?_
  refine congrArg₂ (· + ·) (shapeCast_1ab_ab_apply _ _ 0 k) ?_
  refine (Ideal.matmul_constant_zero_apply dot_S1x16384_S128x16384_S1x128_1_1_0_0_n_n none _ _ (ix2 0 k)).trans ?_
  rw [← Equiv.sum_comp (contrEquiv1 dot_S1x16384_S128x16384_S1x128_1_1_0_0_n_n 16384 rfl rfl).symm]
  refine Finset.sum_congr rfl fun j _ => ?_
  have hl : dot_S1x16384_S128x16384_S1x128_1_1_0_0_n_n.lhsIdx (ix2 0 k)
      ((contrEquiv1 dot_S1x16384_S128x16384_S1x128_1_1_0_0_n_n 16384 rfl rfl).symm j) = ix2 0 j := by
    funext a; apply Fin.ext
    match a with
    | ⟨0, _⟩ => exact lhs5_0 _ _
    | ⟨1, _⟩ => exact (lhs5_1 _ _).trans (contrEquiv1_symm_val _ 16384 rfl rfl j)
  have hr : dot_S1x16384_S128x16384_S1x128_1_1_0_0_n_n.rhsIdx (ix2 0 k)
      ((contrEquiv1 dot_S1x16384_S128x16384_S1x128_1_1_0_0_n_n 16384 rfl rfl).symm j) = ix2 k j := by
    funext a; apply Fin.ext
    match a with
    | ⟨0, _⟩ => exact rhs5_0 _ _
    | ⟨1, _⟩ => exact (rhs5_1 _ _).trans (contrEquiv1_symm_val _ 16384 rfl rfl j)
  rw [hl, hr]
  refine (congrArg₂ (· * ·) (?_ : _ = pullB x lab cen j) (onehot_apply lab k j)).trans (mul_onehot _ _)
  unfold pullB
  exact pull_of_dist _ j _ (dist_of _ _ j _ _ (fun ch => gath_apply lab cen ch j) (fun ch => shapeCast_1ab_ab_apply _ _ ch j))

end Cert.KernelIdeal.KP

end
-- ==== Proof.KBlocks.lean ====
/-
  The kernel's block reads, at a grid point.

  Both launches run over the grid (4, 16): point t = 16·b + tb reads pixel block tb of image b. Window 0 is the
  embedding array [4, 64, 262144] in blocks [1, 64, 16384] at block index (b, 0, tb), window 1 the label array
  [4, 1, 262144] in blocks [1, 1, 16384] at (b, 0, tb), and the second launch's window 2 is the whole centre
  table [64, 128] at every point. A block's element at a coordinate inside the block is the array's element at
  block index × block size + that coordinate on every axis, so element (0, ch, j) of the block at t is the
  array at (t / 16, ch, 16384 · (t % 16) + j). The sixteen blocks of 16384 pixels tile the 262144 pixels of an
  image.
-/
import proofs.«402319_j32229434589496_3_alg».proof.Proof.Gen.KernelIdeal.Frame
import Idealize.ShloMosaic.Lib.ValueIdx

set_option maxRecDepth 16384

noncomputable section

namespace Cert.KernelIdeal.KB

open Cert.KernelIdeal Cert.KernelIdeal.Gen Idealize.ShloMosaic Idealize.ShloMosaic.ValueIdx Idealize.ShloMosaic.TcCoe Idealize.SL.Sem

variable (V : (c : Dev nD) → (b : Ref sig .tc) → Buf (Elt Ideal) ((c : Thread nD τ).loc b))

/-- Point t = 16·b + tb of either grid: its image b … -/
abbrev tb4 (t : Fin 64) : Fin 4 := ⟨t.val / 16, by have := t.isLt; omega⟩
/-- … and pixel j of its pixel block tb, as a pixel of the image. -/
abbrev pixOf (t : Fin 64) (j : Fin 16384) : Fin 262144 := ⟨16384 * (t.val % 16) + j.val, by have := j.isLt; omega⟩

/-- The first launch's grid has 64 points. -/
theorem N0 : cfg0.N = 64 := N_0
/-- The second launch's grid has 64 points. -/
theorem N1 : cfg1.N = 64 := N_1

/-- First launch, the embedding block at point t: element (0, ch, j) is the array at (t / 16, ch, 16384·(t % 16) + j). -/
theorem xblk0 (c : Dev nD) (t : Fin cfg0.N) (ch : Fin 64) (j : Fin 16384) :
    (iblk0 V c 0 t : Vec Ideal S1x64x16384 .f32) (ix3 0 ch j)
      = (V c main_v0 : FVec Ideal S4x64x262144 .f32) (ix3 (tb4 (t.cast N0)) ch (pixOf (t.cast N0) j)) := by
  have hi : ∀ t : Fin cfg0.N, win0_0.index t 0 = t.val / 16 ∧ win0_0.index t 1 = 0 ∧ win0_0.index t 2 = t.val % 16 :=
    (by decide +kernel : ∀ t : Fin grid0.N, _)
  obtain ⟨h0, h1, h2⟩ := hi t
  unfold iblk0
  rw [View.read_apply]
  show V c main_v0 _ = V c main_v0 _
  congr 1
  funext a
  apply Fin.ext
  match a with
  | ⟨0, _⟩ => show win0_0.index t 0 * 1 + 1 * 0 = t.val / 16; rw [h0]; omega
  | ⟨1, _⟩ => show win0_0.index t 1 * 64 + 1 * ch.val = ch.val; rw [h1]; omega
  | ⟨2, _⟩ => show win0_0.index t 2 * 16384 + 1 * j.val = 16384 * (t.val % 16) + j.val; rw [h2]; omega

/-- First launch, the label block at point t: element (0, 0, j) is the array at (t / 16, 0, 16384·(t % 16) + j). -/
theorem lblk0 (c : Dev nD) (t : Fin cfg0.N) (j : Fin 16384) :
    (iblk0 V c 1 t : IVec S1x1x16384 32) (ix3 0 0 j)
      = (V c main_v1 : IVec S4x1x262144 32) (ix3 (tb4 (t.cast N0)) 0 (pixOf (t.cast N0) j)) := by
  have hi : ∀ t : Fin cfg0.N, win0_1.index t 0 = t.val / 16 ∧ win0_1.index t 1 = 0 ∧ win0_1.index t 2 = t.val % 16 :=
    (by decide +kernel : ∀ t : Fin grid0.N, _)
  obtain ⟨h0, h1, h2⟩ := hi t
  unfold iblk0
  rw [View.read_apply]
  show V c main_v1 _ = V c main_v1 _
  congr 1
  funext a
  apply Fin.ext
  match a with
  | ⟨0, _⟩ => show win0_1.index t 0 * 1 + 1 * 0 = t.val / 16; rw [h0]; omega
  | ⟨1, _⟩ => show win0_1.index t 1 * 1 + 1 * 0 = 0; rw [h1]
  | ⟨2, _⟩ => show win0_1.index t 2 * 16384 + 1 * j.val = 16384 * (t.val % 16) + j.val; rw [h2]; omega

/-- Second launch, the embedding block at point t. -/
theorem xblk1 (c : Dev nD) (t : Fin cfg1.N) (ch : Fin 64) (j : Fin 16384) :
    (iblk1 V c 0 t : Vec Ideal S1x64x16384 .f32) (ix3 0 ch j)
      = (V c main_v0 : FVec Ideal S4x64x262144 .f32) (ix3 (tb4 (t.cast N1)) ch (pixOf (t.cast N1) j)) := by
  have hi : ∀ t : Fin cfg1.N, win1_0.index t 0 = t.val / 16 ∧ win1_0.index t 1 = 0 ∧ win1_0.index t 2 = t.val % 16 :=
    (by decide +kernel : ∀ t : Fin grid1.N, _)
  obtain ⟨h0, h1, h2⟩ := hi t
  unfold iblk1
  rw [View.read_apply]
  show V c main_v0 _ = V c main_v0 _
  congr 1
  funext a
  apply Fin.ext
  match a with
  | ⟨0, _⟩ => show win1_0.index t 0 * 1 + 1 * 0 = t.val / 16; rw [h0]; omega
  | ⟨1, _⟩ => show win1_0.index t 1 * 64 + 1 * ch.val = ch.val; rw [h1]; omega
  | ⟨2, _⟩ => show win1_0.index t 2 * 16384 + 1 * j.val = 16384 * (t.val % 16) + j.val; rw [h2]; omega

/-- Second launch, the label block at point t. -/
theorem lblk1 (c : Dev nD) (t : Fin cfg1.N) (j : Fin 16384) :
    (iblk1 V c 1 t : IVec S1x1x16384 32) (ix3 0 0 j)
      = (V c main_v1 : IVec S4x1x262144 32) (ix3 (tb4 (t.cast N1)) 0 (pixOf (t.cast N1) j)) := by
  have hi : ∀ t : Fin cfg1.N, win1_1.index t 0 = t.val / 16 ∧ win1_1.index t 1 = 0 ∧ win1_1.index t 2 = t.val % 16 :=
    (by decide +kernel : ∀ t : Fin grid1.N, _)
  obtain ⟨h0, h1, h2⟩ := hi t
  unfold iblk1
  rw [View.read_apply]
  show V c main_v1 _ = V c main_v1 _
  congr 1
  funext a
  apply Fin.ext
  match a with
  | ⟨0, _⟩ => show win1_1.index t 0 * 1 + 1 * 0 = t.val / 16; rw [h0]; omega
  | ⟨1, _⟩ => show win1_1.index t 1 * 1 + 1 * 0 = 0; rw [h1]
  | ⟨2, _⟩ => show win1_1.index t 2 * 16384 + 1 * j.val = 16384 * (t.val % 16) + j.val; rw [h2]; omega

/-- Second launch, the centre table's block at any point is the whole table. -/
theorem cblk1 (c : Dev nD) (t : Fin cfg1.N) :
    (iblk1 V c 2 t : Vec Ideal S64x128 .f32) = (V c main_v8 : FVec Ideal S64x128 .f32) := by
  have hi : ∀ t : Fin cfg1.N, win1_2.index t 0 = 0 ∧ win1_2.index t 1 = 0 :=
    (by decide +kernel : ∀ t : Fin grid1.N, _)
  obtain ⟨h0, h1⟩ := hi t
  funext y
  unfold iblk1
  rw [View.read_apply]
  show V c main_v8 _ = V c main_v8 _
  congr 1
  funext a
  apply Fin.ext
  match a with
  | ⟨0, _⟩ => show win1_2.index t 0 * 64 + 1 * (y 0).val = (y 0).val; rw [h0]; omega
  | ⟨1, _⟩ => show win1_2.index t 1 * 128 + 1 * (y 1).val = (y 1).val; rw [h1]; omega

/-- The pixels of an image are the pairs of a pixel block and a pixel inside it. -/
private def blkEquiv : Fin 16 × Fin 16384 ≃ Fin 262144 where
  toFun q := ⟨16384 * q.1.val + q.2.val, by have := q.1.isLt; have := q.2.isLt; omega⟩
  invFun p := (⟨p.val / 16384, by have := p.isLt; omega⟩, ⟨p.val % 16384, Nat.mod_lt _ (by decide)⟩)
  left_inv q := by
    obtain ⟨tb, j⟩ := q
    have := tb.isLt; have := j.isLt
    refine Prod.ext (Fin.ext ?_) (Fin.ext ?_)
    · show (16384 * tb.val + j.val) / 16384 = tb.val; omega
    · show (16384 * tb.val + j.val) % 16384 = j.val; omega
  right_inv p := by
    refine Fin.ext ?_
    show 16384 * (p.val / 16384) + p.val % 16384 = p.val
    omega

/-- The sixteen pixel blocks of an image tile its pixels: a sum over blocks and pixels inside a block is the sum over
    the image's pixels. -/
theorem sum_blocks {M : Type*} [AddCommMonoid M] (b : Fin 4) (f : Fin 262144 → M) :
    ∑ tb : Fin 16, ∑ j : Fin 16384, f ⟨16384 * tb.val + j.val, by have := tb.isLt; have := j.isLt; omega⟩
      = ∑ p : Fin 262144, f p := by
  rw [← Equiv.sum_comp blkEquiv f, Fintype.sum_prod_type]
  rfl

end Cert.KernelIdeal.KB

end
-- ==== Proof.K0Val.lean ====
/-
  What the first launch leaves in its two result arrays.

  The launch runs over the grid (4, 16): step t = 16·b + s reads pixel block s (16384 pixels) of batch b, as a block
  x[1, 64, 16384] of channel values and a block lab[1, 1, 16384] of labels. Its two result blocks, the channel sums
  [1, 64, 128] and the counts [1, 1, 128] of batch b, stay in place over the sixteen steps of a batch: the first step of a
  batch stores zeros and then adds, every step adds, at channel ch and class k, the sum over the block's pixels j of
  x(ch, j)·[lab j = k] (for the counts, of 1·[lab j = k]); the blocks are written back after the sixteenth step.

  Read over the extended reals, where addition is commutative and associative and a product with 0 is 0, the block
  after step n of batch b holds the contributions of pixel blocks 0 … n % 16 (by induction on n), so what is written
  back after step 16·b + 15 is the sum over all sixteen blocks, and the sixteen blocks of 16384 pixels are the 262144
  pixels of the image: entry (b, ch, k) of the first result array is the sum over the pixels p of batch b labelled k of
  x(b, ch, p), and entry (b, 0, k) of the second is the number of those pixels. Every entry lies in exactly the row
  b that the write-back after step 16·b + 15 covers.
-/
import proofs.«402319_j32229434589496_3_alg».proof.Proof.Gen.KernelIdeal.Frame
import proofs.«402319_j32229434589496_3_alg».proof.Proof.KPay
import proofs.«402319_j32229434589496_3_alg».proof.Proof.KBlocks
import Idealize.ShloMosaic.Lib.Pipeline.Value
import Idealize.ShloMosaic.Lib.Tactic

set_option maxRecDepth 16384

noncomputable section

namespace Cert.KernelIdeal.K0

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

/-! ## What each control case leaves in the two output blocks, as the arithmetic of the blocks it read -/

section Pieces
variable {F : FTy → Type} [FloatOps F]

/-- Every store and load of the body starts at the origin of its block. -/
theorem hz3 : (![0, 0, 0] : Fin 3 → Nat) = fun _ => 0 := funext fun a => by fin_cases a <;> rfl

/-- A later grid step of a batch: the running channel sums `xo2` plus this block's one-hot product. -/
theorem out_B_2 (c : Dev nD) (i : grid0.Coords) (a2 : Memref sig .tc .vmem S1x64x16384 .f32) (h2 : a2.IsWhole)
    (a3 : Memref sig .tc .vmem S1x1x16384 .i32) (h3 : a3.IsWhole) (a4 : Memref sig .tc .vmem S1x64x128 .f32) (h4 : a4.IsWhole)
    (a5 : Memref sig .tc .vmem S1x1x128 .f32) (h5 : a5.IsWhole) (hc : ¬cond0_0 i)
    (x0 : Vec F S1x64x16384 .f32) (x1 : Vec F S1x1x16384 .i32) (xo2 : Vec F S1x64x128 .f32) (xo3 : Vec F S1x1x128 .f32) :
    out0_B_2 c i a2 h2 a3 h3 a4 h4 a5 h5 hc x0 x1 xo2 xo3 = k0_pay4 x0 x1 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, View.ld_unit_zero (S := S1x64x16384) hz3,
    View.ld_unit_zero (S := S1x1x16384) hz3, View.ld_unit_zero (S := S1x64x128) hz3]

/-- A later grid step of a batch: the running counts `xo3` plus this block's one-hot column sums. -/
theorem out_B_3 (c : Dev nD) (i : grid0.Coords) (a2 : Memref sig .tc .vmem S1x64x16384 .f32) (h2 : a2.IsWhole)
    (a3 : Memref sig .tc .vmem S1x1x16384 .i32) (h3 : a3.IsWhole) (a4 : Memref sig .tc .vmem S1x64x128 .f32) (h4 : a4.IsWhole)
    (a5 : Memref sig .tc .vmem S1x1x128 .f32) (h5 : a5.IsWhole) (hc : ¬cond0_0 i)
    (x0 : Vec F S1x64x16384 .f32) (x1 : Vec F S1x1x16384 .i32) (xo2 : Vec F S1x64x128 .f32) (xo3 : Vec F S1x1x128 .f32) :
    out0_B_3 c i a2 h2 a3 h3 a4 h4 a5 h5 hc x0 x1 xo2 xo3 = k0_pay5 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h3.read_unread, h5.read_unread,
    View.ld_unit_zero (S := S1x1x16384) hz3, View.ld_unit_zero (S := S1x1x128) hz3]

/-- The first grid step of a batch: the zero block is stored, read back, and this block's one-hot product added. -/
theorem out_A_2 (c : Dev nD) (i : grid0.Coords) (a2 : Memref sig .tc .vmem S1x64x16384 .f32) (h2 : a2.IsWhole)
    (a3 : Memref sig .tc .vmem S1x1x16384 .i32) (h3 : a3.IsWhole) (a4 : Memref sig .tc .vmem S1x64x128 .f32) (h4 : a4.IsWhole)
    (a5 : Memref sig .tc .vmem S1x1x128 .f32) (h5 : a5.IsWhole) (hc : cond0_0 i)
    (x0 : Vec F S1x64x16384 .f32) (x1 : Vec F S1x1x16384 .i32) :
    out0_A_2 c i a2 h2 a3 h3 a4 h4 a5 h5 hc x0 x1 = k0_pay4 x0 x1 (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x64x128) hz3, View.readCov_unit_zero (S := S1x64x128) _ hz3]
  simp only [View.readAt_eq_ld, h2.read_unread, h3.read_unread, View.ld_unit_zero (S := S1x64x16384) hz3,
    View.ld_unit_zero (S := S1x1x16384) hz3, View.ld_unit_zero (S := S1x64x128) hz3]

/-- The first grid step of a batch, the counts: the zero row plus this block's one-hot column sums. -/
theorem out_A_3 (c : Dev nD) (i : grid0.Coords) (a2 : Memref sig .tc .vmem S1x64x16384 .f32) (h2 : a2.IsWhole)
    (a3 : Memref sig .tc .vmem S1x1x16384 .i32) (h3 : a3.IsWhole) (a4 : Memref sig .tc .vmem S1x64x128 .f32) (h4 : a4.IsWhole)
    (a5 : Memref sig .tc .vmem S1x1x128 .f32) (h5 : a5.IsWhole) (hc : cond0_0 i)
    (x0 : Vec F S1x64x16384 .f32) (x1 : Vec F S1x1x16384 .i32) :
    out0_A_3 c i a2 h2 a3 h3 a4 h4 a5 h5 hc x0 x1 = k0_pay5 x1 (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x128) hz3, View.readCov_unit_zero (S := S1x1x128) _ hz3]
  simp only [View.readAt_eq_ld, h3.read_unread,
    View.ld_unit_zero (S := S1x1x16384) hz3, View.ld_unit_zero (S := S1x1x128) hz3]

end Pieces

/-! ## The running blocks after each grid step, and what the launch leaves in its two result arrays -/

section Value

variable (V : (c : Dev nD) → (b : Ref sig .tc) → Buf (Elt Ideal) ((c : Thread nD τ).loc b))

/-- the pixel array and the label array as launch 0 finds them -/
abbrev xarr (c : Dev nD) : FVec Ideal S4x64x262144 .f32 := V c main_v0
abbrev larr (c : Dev nD) : IVec S4x1x262144 32 := V c main_v1

/-- The pixel block and the label block the body reads at grid step `t`. -/
abbrev xblk (c : Dev nD) (t : Fin cfg0.N) : Vec Ideal S1x64x16384 .f32 := iblk0 V c 0 t
abbrev lblk (c : Dev nD) (t : Fin cfg0.N) : Vec Ideal S1x1x16384 .i32 := iblk0 V c 1 t

/-- Pixel `j` of pixel block `s` of an image, as a pixel number (total in `s`: reduced below 262144). -/
abbrev pix (s : ℕ) (j : Fin 16384) : Fin 262144 := ⟨(16384 * s + j.val) % 262144, Nat.mod_lt _ (by decide)⟩

/-- One pixel's contribution to the channel sum of class `k`: its channel value when it carries label `k`. -/
def term2 (c : Dev nD) (b : Fin 4) (ch : Fin 64) (k : Fin 128) (p : Fin 262144) : EReal :=
  if larr V c (ix3 b 0 p) = BitVec.ofNat 32 k.val then xarr V c (ix3 b ch p) else 0
/-- One pixel's contribution to the count of class `k`. -/
def term3 (c : Dev nD) (b : Fin 4) (k : Fin 128) (p : Fin 262144) : EReal :=
  if larr V c (ix3 b 0 p) = BitVec.ofNat 32 k.val then (1 : EReal) else 0
/-- The contributions of the 16384 pixels of pixel block `s`. -/
def bsum2 (c : Dev nD) (b : Fin 4) (ch : Fin 64) (k : Fin 128) (s : ℕ) : EReal := ∑ j : Fin 16384, term2 V c b ch k (pix s j)
def bsum3 (c : Dev nD) (b : Fin 4) (k : Fin 128) (s : ℕ) : EReal := ∑ j : Fin 16384, term3 V c b k (pix s j)

/-- At grid step `t = 16·b + s` the body's sum over its pixel block is the contribution of pixel block `s` of batch `b`. -/
theorem blk2 (c : Dev nD) (t : Fin cfg0.N) (b : Fin 4) (hb : b.val = t.val / 16) (ch : Fin 64) (k : Fin 128) :
    (∑ j : Fin 16384, if lblk V c t (ix3 0 0 j) = BitVec.ofNat 32 k.val then xblk V c t (ix3 0 ch j) else 0)
      = bsum2 V c b ch k (t.val % 16) := by
  have hN : t.val < 64 := lt_of_lt_of_eq t.isLt KB.N0
  have eb : KB.tb4 (t.cast KB.N0) = b := Fin.ext hb.symm
  unfold bsum2 term2
  refine Finset.sum_congr rfl fun j _ => ?_
  have ep : KB.pixOf (t.cast KB.N0) j = pix (t.val % 16) j := Fin.ext (by
    have := j.isLt
    show 16384 * (t.val % 16) + j.val = (16384 * (t.val % 16) + j.val) % 262144
    omega)
  have hx : xblk V c t (ix3 0 ch j) = xarr V c (ix3 b ch (pix (t.val % 16) j)) := by
    have e := KB.xblk0 V c t ch j
    rw [eb, ep] at e
    exact e
  have hl : lblk V c t (ix3 0 0 j) = larr V c (ix3 b 0 (pix (t.val % 16) j)) := by
    have e := KB.lblk0 V c t j
    rw [eb, ep] at e
    exact e
  rw [hx, hl]

theorem blk3 (c : Dev nD) (t : Fin cfg0.N) (b : Fin 4) (hb : b.val = t.val / 16) (k : Fin 128) :
    (∑ j : Fin 16384, if lblk V c t (ix3 0 0 j) = BitVec.ofNat 32 k.val then (1 : EReal) else 0)
      = bsum3 V c b k (t.val % 16) := by
  have hN : t.val < 64 := lt_of_lt_of_eq t.isLt KB.N0
  have eb : KB.tb4 (t.cast KB.N0) = b := Fin.ext hb.symm
  unfold bsum3 term3
  refine Finset.sum_congr rfl fun j _ => ?_
  have ep : KB.pixOf (t.cast KB.N0) j = pix (t.val % 16) j := Fin.ext (by
    have := j.isLt
    show 16384 * (t.val % 16) + j.val = (16384 * (t.val % 16) + j.val) % 262144
    omega)
  have hl : lblk V c t (ix3 0 0 j) = larr V c (ix3 b 0 (pix (t.val % 16) j)) := by
    have e := KB.lblk0 V c t j
    rw [eb, ep] at e
    exact e
  rw [hl]

/-- The first step of a batch leaves the contribution of pixel block 0 (the zero block plus it). -/
theorem step_A_2 (c : Dev nD) (t : Fin cfg0.N) (h0 : t.val % 16 = 0) (b : Fin 4) (hb : b.val = t.val / 16)
    (ch : Fin 64) (k : Fin 128) :
    (outsAt0 V c t.val t.isLt).1 (ix3 0 ch k) = bsum2 V c b ch k 0 := by
  rw [outsAt0_A V c t h0]
  dsimp only
  refine (congrFun (out_A_2 (F := Ideal) c (grid0.coords t) (ms0_0 t) (hs0_0 t) (ms0_1 t) (hs0_1 t) (ms0_2 t) (hs0_2 t)
    (ms0_3 t) (hs0_3 t) ((hcond0_0 t).mpr h0) (xblk V c t) (lblk V c t)) (ix3 0 ch k)).trans ?_
  rw [KP.pay4_apply, KP.pay1_apply, zero_add, blk2 V c t b hb ch k, h0]

/-- A later step of a batch adds the contribution of its pixel block to what the step before left. -/
theorem step_B_2 (c : Dev nD) (t : Fin cfg0.N) (h0 : ¬t.val % 16 = 0) (b : Fin 4) (hb : b.val = t.val / 16)
    (ch : Fin 64) (k : Fin 128) :
    (outsAt0 V c t.val t.isLt).1 (ix3 0 ch k)
      = (outsAt0 V c (t.val - 1) (Nat.lt_of_le_of_lt (Nat.sub_le _ _) t.isLt)).1 (ix3 0 ch k) + bsum2 V c b ch k (t.val % 16) := by
  rw [outsAt0_B V c t h0]
  dsimp only
  refine (congrFun (out_B_2 (F := Ideal) c (grid0.coords t) (ms0_0 t) (hs0_0 t) (ms0_1 t) (hs0_1 t) (ms0_2 t) (hs0_2 t)
    (ms0_3 t) (hs0_3 t) (fun h => h0 ((hcond0_0 t).mp h)) (xblk V c t) (lblk V c t)
    (outsAt0 V c (t.val - 1) (Nat.lt_of_le_of_lt (Nat.sub_le _ _) t.isLt)).1
    (outsAt0 V c (t.val - 1) (Nat.lt_of_le_of_lt (Nat.sub_le _ _) t.isLt)).2) (ix3 0 ch k)).trans ?_
  rw [KP.pay4_apply, blk2 V c t b hb ch k]

theorem step_A_3 (c : Dev nD) (t : Fin cfg0.N) (h0 : t.val % 16 = 0) (b : Fin 4) (hb : b.val = t.val / 16) (k : Fin 128) :
    (outsAt0 V c t.val t.isLt).2 (ix3 0 0 k) = bsum3 V c b k 0 := by
  rw [outsAt0_A V c t h0]
  dsimp only
  refine (congrFun (out_A_3 (F := Ideal) c (grid0.coords t) (ms0_0 t) (hs0_0 t) (ms0_1 t) (hs0_1 t) (ms0_2 t) (hs0_2 t)
    (ms0_3 t) (hs0_3 t) ((hcond0_0 t).mpr h0) (xblk V c t) (lblk V c t)) (ix3 0 0 k)).trans ?_
  rw [KP.pay5_apply, KP.pay2_apply, zero_add, blk3 V c t b hb k, h0]

theorem step_B_3 (c : Dev nD) (t : Fin cfg0.N) (h0 : ¬t.val % 16 = 0) (b : Fin 4) (hb : b.val = t.val / 16) (k : Fin 128) :
    (outsAt0 V c t.val t.isLt).2 (ix3 0 0 k)
      = (outsAt0 V c (t.val - 1) (Nat.lt_of_le_of_lt (Nat.sub_le _ _) t.isLt)).2 (ix3 0 0 k) + bsum3 V c b k (t.val % 16) := by
  rw [outsAt0_B V c t h0]
  dsimp only
  refine (congrFun (out_B_3 (F := Ideal) c (grid0.coords t) (ms0_0 t) (hs0_0 t) (ms0_1 t) (hs0_1 t) (ms0_2 t) (hs0_2 t)
    (ms0_3 t) (hs0_3 t) (fun h => h0 ((hcond0_0 t).mp h)) (xblk V c t) (lblk V c t)
    (outsAt0 V c (t.val - 1) (Nat.lt_of_le_of_lt (Nat.sub_le _ _) t.isLt)).1
    (outsAt0 V c (t.val - 1) (Nat.lt_of_le_of_lt (Nat.sub_le _ _) t.isLt)).2) (ix3 0 0 k)).trans ?_
  rw [KP.pay5_apply, blk3 V c t b hb k]

/-- After grid step `n` of batch `b = n / 16` the channel-sum block holds the contributions of pixel blocks `0 … n % 16`. -/
theorem sums_inv (c : Dev nD) : ∀ (n : ℕ) (h : n < cfg0.N) (b : Fin 4), b.val = n / 16 → ∀ (ch : Fin 64) (k : Fin 128),
    (outsAt0 V c n h).1 (ix3 0 ch k) = ∑ s ∈ Finset.range (n % 16 + 1), bsum2 V c b ch k s := by
  intro n
  induction n with
  | zero =>
    intro h b hb ch k
    rw [Finset.sum_range_one]
    exact step_A_2 V c ⟨0, h⟩ rfl b hb ch k
  | succ n ih =>
    intro h b hb ch k
    by_cases h0 : (n + 1) % 16 = 0
    · rw [h0, Finset.sum_range_one]
      exact step_A_2 V c ⟨n + 1, h⟩ h0 b hb ch k
    · refine (step_B_2 V c ⟨n + 1, h⟩ h0 b hb ch k).trans ?_
      show (outsAt0 V c n (Nat.lt_of_succ_lt h)).1 (ix3 0 ch k) + bsum2 V c b ch k ((n + 1) % 16) = _
      rw [ih (Nat.lt_of_succ_lt h) b (by omega) ch k, show (n + 1) % 16 = n % 16 + 1 by omega,
        Finset.sum_range_succ _ (n % 16 + 1)]

/-- After grid step `n` of batch `b = n / 16` the count block holds the contributions of pixel blocks `0 … n % 16`. -/
theorem cnts_inv (c : Dev nD) : ∀ (n : ℕ) (h : n < cfg0.N) (b : Fin 4), b.val = n / 16 → ∀ (k : Fin 128),
    (outsAt0 V c n h).2 (ix3 0 0 k) = ∑ s ∈ Finset.range (n % 16 + 1), bsum3 V c b k s := by
  intro n
  induction n with
  | zero =>
    intro h b hb k
    rw [Finset.sum_range_one]
    exact step_A_3 V c ⟨0, h⟩ rfl b hb k
  | succ n ih =>
    intro h b hb k
    by_cases h0 : (n + 1) % 16 = 0
    · rw [h0, Finset.sum_range_one]
      exact step_A_3 V c ⟨n + 1, h⟩ h0 b hb k
    · refine (step_B_3 V c ⟨n + 1, h⟩ h0 b hb k).trans ?_
      show (outsAt0 V c n (Nat.lt_of_succ_lt h)).2 (ix3 0 0 k) + bsum3 V c b k ((n + 1) % 16) = _
      rw [ih (Nat.lt_of_succ_lt h) b (by omega) k, show (n + 1) % 16 = n % 16 + 1 by omega,
        Finset.sum_range_succ _ (n % 16 + 1)]

end Value

/-! ## From the running blocks to the arrays -/

section Arrays

variable (V : (c : Dev nD) → (b : Ref sig .tc) → Buf (Elt Ideal) ((c : Thread nD τ).loc b))

/-- The sixteen pixel blocks of an image are all its pixels. -/
theorem sum_pix {M : Type*} [AddCommMonoid M] (f : Fin 262144 → M) :
    ∑ s ∈ Finset.range 16, ∑ j : Fin 16384, f (pix s j) = ∑ p : Fin 262144, f p := by
  rw [Finset.sum_range, ← KB.sum_blocks 0 f]
  refine Finset.sum_congr rfl fun s _ => Finset.sum_congr rfl fun j _ => congrArg f (Fin.ext ?_)
  have := s.isLt
  have := j.isLt
  show (16384 * s.val + j.val) % 262144 = 16384 * s.val + j.val
  omega

/-- Channel `ch` summed over the pixels of batch `b` that carry label `k`; the number of those pixels. -/
def sumsAt (c : Dev nD) (b : Fin 4) (ch : Fin 64) (k : Fin 128) : EReal := ∑ p : Fin 262144, term2 V c b ch k p
def cntsAt (c : Dev nD) (b : Fin 4) (k : Fin 128) : EReal := ∑ p : Fin 262144, term3 V c b k p

/-- The two result arrays, entry by entry. -/
def sumsG (c : Dev nD) : FVec Ideal S4x64x128 .f32 := fun i => sumsAt V c (i 0) (i 1) (i 2)
def cntsG (c : Dev nD) : FVec Ideal S4x1x128 .f32 := fun i => cntsAt V c (i 0) (i 2)

theorem sumsG_apply (c : Dev nD) (i : S4x64x128.Idx) (b : Fin 4) (ch : Fin 64) (k : Fin 128)
    (h0 : (i 0).val = b.val) (h1 : (i 1).val = ch.val) (h2 : (i 2).val = k.val) : sumsG V c i = sumsAt V c b ch k := by
  obtain ⟨b', ch', k', rfl⟩ : ∃ (b' : Fin 4) (ch' : Fin 64) (k' : Fin 128), i = ix3 b' ch' k' := ⟨i 0, i 1, i 2, eq_ix3 i⟩
  obtain rfl : b' = b := Fin.ext h0
  obtain rfl : ch' = ch := Fin.ext h1
  obtain rfl : k' = k := Fin.ext h2
  rfl

theorem cntsG_apply (c : Dev nD) (i : S4x1x128.Idx) (b : Fin 4) (k : Fin 128)
    (h0 : (i 0).val = b.val) (h2 : (i 2).val = k.val) : cntsG V c i = cntsAt V c b k := by
  obtain ⟨b', u, k', rfl⟩ : ∃ (b' : Fin 4) (u : Fin 1) (k' : Fin 128), i = ix3 b' u k' := ⟨i 0, i 1, i 2, eq_ix3 i⟩
  obtain rfl : b' = b := Fin.ext h0
  obtain rfl : k' = k := Fin.ext h2
  rfl

/-- The two result windows' block indices at grid step `t`: block `t / 16` along the batch axis, the whole of the other two. -/
theorem idx_out : ∀ t : Fin cfg0.N, win0_2.index t (0 : Fin 3) = t.val / 16 ∧ win0_2.index t (1 : Fin 3) = 0
    ∧ win0_2.index t (2 : Fin 3) = 0 ∧ win0_3.index t (0 : Fin 3) = t.val / 16 ∧ win0_3.index t (1 : Fin 3) = 0
    ∧ win0_3.index t (2 : Fin 3) = 0 :=
  (by decide +kernel : ∀ t : Fin grid0.N, _)

/-- The write-back after the last step of batch `b` writes row `b` of the channel sums. -/
theorem flushed2_eq (c : Dev nD) (t : Fin cfg0.N) (hf : (cfg0.win 2).flush t = true) :
    (dat0 V c).flushed 2 t = ((cfg0.win 2).blk t).view.read (Elt Ideal) (sumsG V c) := by
  have hN : t.val < 64 := lt_of_lt_of_eq t.isLt KB.N0
  have h15 : t.val % 16 = 15 := (flush0_2 t).mp hf
  have h16 : t.val % 16 + 1 = 16 := by omega
  obtain ⟨e0, e1, e2, -, -, -⟩ := idx_out t
  show (cfg0.win 2).cut (grid0.coords t) ((dat0 V c).after 2 t) = _
  rw [after0_2]
  generalize hG : sumsG V c = G
  generalize hX : (outsAt0 V c t.val t.isLt).1 = X
  refine funext fun y => ?_
  rw [View.read_apply]
  have hy0 : (y 0).val < 1 := (y 0).isLt
  have hy1 : (y 1).val < 64 := (y 1).isLt
  have hy2 : (y 2).val < 128 := (y 2).isLt
  have ey : (cfg0.win 2).xinj (grid0.coords t) y
      = (ix3 (0 : Fin 1) (⟨(y 1).val, hy1⟩ : Fin 64) (⟨(y 2).val, hy2⟩ : Fin 128) : S1x64x128.Idx) :=
    funext fun a => Fin.ext (by
      match a with
      | ⟨0, _⟩ => show (y 0).val = 0; omega
      | ⟨1, _⟩ => rfl
      | ⟨2, _⟩ => rfl)
  show X ((cfg0.win 2).xinj (grid0.coords t) y) = G (((cfg0.win 2).blk t).view.emb y)
  rw [ey, ← hX, ← hG, sums_inv V c t.val t.isLt ⟨t.val / 16, by omega⟩ rfl _ _, h16]
  unfold bsum2
  rw [sum_pix]
  symm
  refine sumsG_apply V c _ ⟨t.val / 16, by omega⟩ _ _ ?_ ?_ ?_
  · show win0_2.index t (0 : Fin 3) * 1 + 1 * (y 0).val = t.val / 16
    rw [e0]; omega
  · show win0_2.index t (1 : Fin 3) * 64 + 1 * (y 1).val = (y 1).val
    rw [e1]; omega
  · show win0_2.index t (2 : Fin 3) * 128 + 1 * (y 2).val = (y 2).val
    rw [e2]; omega

/-- The write-back after the last step of batch `b` writes row `b` of the counts. -/
theorem flushed3_eq (c : Dev nD) (t : Fin cfg0.N) (hf : (cfg0.win 3).flush t = true) :
    (dat0 V c).flushed 3 t = ((cfg0.win 3).blk t).view.read (Elt Ideal) (cntsG V c) := by
  have hN : t.val < 64 := lt_of_lt_of_eq t.isLt KB.N0
  have h15 : t.val % 16 = 15 := (flush0_3 t).mp hf
  have h16 : t.val % 16 + 1 = 16 := by omega
  obtain ⟨-, -, -, e0, e1, e2⟩ := idx_out t
  show (cfg0.win 3).cut (grid0.coords t) ((dat0 V c).after 3 t) = _
  rw [after0_3]
  generalize hG : cntsG V c = G
  generalize hX : (outsAt0 V c t.val t.isLt).2 = X
  refine funext fun y => ?_
  rw [View.read_apply]
  have hy0 : (y 0).val < 1 := (y 0).isLt
  have hy1 : (y 1).val < 1 := (y 1).isLt
  have hy2 : (y 2).val < 128 := (y 2).isLt
  have ey : (cfg0.win 3).xinj (grid0.coords t) y
      = (ix3 (0 : Fin 1) (0 : Fin 1) (⟨(y 2).val, hy2⟩ : Fin 128) : S1x1x128.Idx) :=
    funext fun a => Fin.ext (by
      match a with
      | ⟨0, _⟩ => show (y 0).val = 0; omega
      | ⟨1, _⟩ => show (y 1).val = 0; omega
      | ⟨2, _⟩ => rfl)
  show X ((cfg0.win 3).xinj (grid0.coords t) y) = G (((cfg0.win 3).blk t).view.emb y)
  rw [ey, ← hX, ← hG, cnts_inv V c t.val t.isLt ⟨t.val / 16, by omega⟩ rfl _, h16]
  unfold bsum3
  rw [sum_pix]
  symm
  refine cntsG_apply V c _ ⟨t.val / 16, by omega⟩ _ ?_ ?_
  · show win0_3.index t (0 : Fin 3) * 1 + 1 * (y 0).val = t.val / 16
    rw [e0]; omega
  · show win0_3.index t (2 : Fin 3) * 128 + 1 * (y 2).val = (y 2).val
    rw [e2]; omega

/-- An entry of the channel sums lies in the block grid step `t` writes back iff its batch is `t`'s. -/
theorem mem_blk2 (t : Fin cfg0.N) (i : S4x64x128.Idx) :
    i ∈ ((cfg0.win 2).blk t).view.set ↔ ∀ a : Fin 3, win0_2.index t a * S1x64x128.size a ≤ (i a).val
      ∧ (i a).val < win0_2.index t a * S1x64x128.size a + S1x64x128.size a := by
  show i ∈ ((View.whole main_v2_0).slice (win0_2.rect t)).set ↔ _
  rw [View.set_slice_whole, Rect.mem_set_unit]
  exact Iff.rfl

theorem mem_blk3 (t : Fin cfg0.N) (i : S4x1x128.Idx) :
    i ∈ ((cfg0.win 3).blk t).view.set ↔ ∀ a : Fin 3, win0_3.index t a * S1x1x128.size a ≤ (i a).val
      ∧ (i a).val < win0_3.index t a * S1x1x128.size a + S1x1x128.size a := by
  show i ∈ ((View.whole main_v2_1).slice (win0_3.rect t)).set ↔ _
  rw [View.set_slice_whole, Rect.mem_set_unit]
  exact Iff.rfl

/-- Row `b` of the channel sums is written back after grid step `16·b + 15`. -/
theorem cover2 (i : S4x64x128.Idx) : ∃ t : Fin cfg0.N, (cfg0.win 2).flush t = true ∧ i ∈ ((cfg0.win 2).blk t).view.set := by
  have hi0 : (i 0).val < 4 := (i 0).isLt
  have hi1 : (i 1).val < 64 := (i 1).isLt
  have hi2 : (i 2).val < 128 := (i 2).isLt
  have ht : 16 * (i 0).val + 15 < cfg0.N := by rw [KB.N0]; omega
  obtain ⟨e0, e1, e2, -, -, -⟩ := idx_out ⟨16 * (i 0).val + 15, ht⟩
  have ev : (⟨16 * (i 0).val + 15, ht⟩ : Fin cfg0.N).val = 16 * (i 0).val + 15 := rfl
  refine ⟨⟨16 * (i 0).val + 15, ht⟩, (flush0_2 _).mpr (by rw [ev]; omega), ?_⟩
  rw [mem_blk2]
  intro a
  match a with
  | ⟨0, _⟩ =>
    show win0_2.index ⟨16 * (i 0).val + 15, ht⟩ (0 : Fin 3) * 1 ≤ (i 0).val ∧ (i 0).val < win0_2.index ⟨16 * (i 0).val + 15, ht⟩ (0 : Fin 3) * 1 + 1
    rw [e0, ev]; omega
  | ⟨1, _⟩ =>
    show win0_2.index ⟨16 * (i 0).val + 15, ht⟩ (1 : Fin 3) * 64 ≤ (i 1).val ∧ (i 1).val < win0_2.index ⟨16 * (i 0).val + 15, ht⟩ (1 : Fin 3) * 64 + 64
    rw [e1]; omega
  | ⟨2, _⟩ =>
    show win0_2.index ⟨16 * (i 0).val + 15, ht⟩ (2 : Fin 3) * 128 ≤ (i 2).val ∧ (i 2).val < win0_2.index ⟨16 * (i 0).val + 15, ht⟩ (2 : Fin 3) * 128 + 128
    rw [e2]; omega

theorem cover3 (i : S4x1x128.Idx) : ∃ t : Fin cfg0.N, (cfg0.win 3).flush t = true ∧ i ∈ ((cfg0.win 3).blk t).view.set := by
  have hi0 : (i 0).val < 4 := (i 0).isLt
  have hi1 : (i 1).val < 1 := (i 1).isLt
  have hi2 : (i 2).val < 128 := (i 2).isLt
  have ht : 16 * (i 0).val + 15 < cfg0.N := by rw [KB.N0]; omega
  obtain ⟨-, -, -, e0, e1, e2⟩ := idx_out ⟨16 * (i 0).val + 15, ht⟩
  have ev : (⟨16 * (i 0).val + 15, ht⟩ : Fin cfg0.N).val = 16 * (i 0).val + 15 := rfl
  refine ⟨⟨16 * (i 0).val + 15, ht⟩, (flush0_3 _).mpr (by rw [ev]; omega), ?_⟩
  rw [mem_blk3]
  intro a
  match a with
  | ⟨0, _⟩ =>
    show win0_3.index ⟨16 * (i 0).val + 15, ht⟩ (0 : Fin 3) * 1 ≤ (i 0).val ∧ (i 0).val < win0_3.index ⟨16 * (i 0).val + 15, ht⟩ (0 : Fin 3) * 1 + 1
    rw [e0, ev]; omega
  | ⟨1, _⟩ =>
    show win0_3.index ⟨16 * (i 0).val + 15, ht⟩ (1 : Fin 3) * 1 ≤ (i 1).val ∧ (i 1).val < win0_3.index ⟨16 * (i 0).val + 15, ht⟩ (1 : Fin 3) * 1 + 1
    rw [e1]; omega
  | ⟨2, _⟩ =>
    show win0_3.index ⟨16 * (i 0).val + 15, ht⟩ (2 : Fin 3) * 128 ≤ (i 2).val ∧ (i 2).val < win0_3.index ⟨16 * (i 0).val + 15, ht⟩ (2 : Fin 3) * 128 + 128
    rw [e2]; omega

/-- So launch 0 leaves the channel sums and the counts in its two result arrays. -/
theorem final2 (c : Dev nD) : (dat0 V c).arrAt 2 cfg0.N = sumsG V c :=
  (dat0 V c).arrAt_eq_of_cover 2 (sumsG V c) (flushed2_eq V c) (cover2)

theorem final3 (c : Dev nD) : (dat0 V c).arrAt 3 cfg0.N = cntsG V c :=
  (dat0 V c).arrAt_eq_of_cover 3 (cntsG V c) (flushed3_eq V c) (cover3)

theorem sums_arr (c : Dev nD) (b : Fin 4) (ch : Fin 64) (k : Fin 128) :
    (dat0 (F := Ideal) V c).arrAt 2 cfg0.N (ix3 b ch k)
      = ∑ p : Fin 262144, if larr V c (ix3 b 0 p) = BitVec.ofNat 32 k.val then xarr V c (ix3 b ch p) else 0 :=
  congrFun (final2 V c) (ix3 b ch k)

theorem cnts_arr (c : Dev nD) (b : Fin 4) (k : Fin 128) :
    (dat0 (F := Ideal) V c).arrAt 3 cfg0.N (ix3 b 0 k)
      = ∑ p : Fin 262144, if larr V c (ix3 b 0 p) = BitVec.ofNat 32 k.val then (1 : EReal) else 0 :=
  congrFun (final3 V c) (ix3 b 0 k)

end Arrays

end Cert.KernelIdeal.K0

end
-- ==== Proof.K1Val.lean ====
/-
  Launch 1 of the discriminative loss, read off its run: the array of pull sums.

  The second launch runs over the grid (4, 16): point t = 16·b + tb reads pixel block tb of image b (16384 pixels),
  the block's labels and the whole centre table, and keeps one output block per image. The point that opens an image
  (tb = 0) stores the zero block and then adds; every point adds, at lane k, the pull terms of its block's pixels
  labelled k; the point that closes the image (tb = 15) writes the block back as row b of the output array.

  Here: what each of the two control cases leaves in the output block, as the body's arithmetic applied to the
  point's input blocks (over the zero block in the opening case, over what the point before left otherwise); by
  induction on the point, the block after point n holds at lane k the sum of the addends of the points of n's image up
  to n; at the closing point of image b that is the sum over all sixteen blocks, which regrouped over the image's
  262144 pixels (pixel 16384·tb + j is pixel j of block tb) is the pull sum of class k over image b, the blocks'
  gathered centres and pull terms being the arrays' at the block's image and pixel; the closing point of image b
  covers row b of the output array, so the array ends holding the pull sums.
-/
import proofs.«402319_j32229434589496_3_alg».proof.Proof.Gen.KernelIdeal.Frame
import proofs.«402319_j32229434589496_3_alg».proof.Proof.KPay
import proofs.«402319_j32229434589496_3_alg».proof.Proof.KBlocks
import Idealize.ShloMosaic.Lib.Pipeline.Value
import Idealize.ShloMosaic.Lib.ValueIdx
import Idealize.ShloMosaic.Lib.Tactic
import Mathlib.Algebra.BigOperators.Group.Finset.Basic
import Mathlib.Algebra.BigOperators.Fin

noncomputable section

open Idealize.ShloMosaic Idealize.ShloMosaic.TcCoe Idealize.SL.Sem
open Idealize.ShloMosaic.Pipeline (Dat)

namespace Cert.KernelIdeal.K1

open Cert.KernelIdeal Cert.KernelIdeal.Gen Idealize.ShloMosaic Idealize.ShloMosaic.ValueIdx

section Pieces
variable {F : FTy → Type} [FloatOps F]

/-- the zero offsets of a whole-block access, rank 3 and rank 2 -/
theorem hz3 : (![0, 0, 0] : Fin 3 → Nat) = fun _ => 0 := funext fun a => by fin_cases a <;> rfl
theorem hz2 : (![0, 0] : Fin 2 → Nat) = fun _ => 0 := funext fun a => by fin_cases a <;> rfl

/-- A point that does not open a batch leaves, over the running block `acc`, the body's sum block of its three input blocks and `acc`. -/
theorem out_B (c : Dev nD) (i : grid1.Coords) (a2 : Memref sig .tc .vmem S1x64x16384 .f32) (h2 : a2.IsWhole)
    (a3 : Memref sig .tc .vmem S1x1x16384 .i32) (h3 : a3.IsWhole) (a4 : Memref sig .tc .vmem S64x128 .f32) (h4 : a4.IsWhole)
    (a5 : Memref sig .tc .vmem S1x1x128 .f32) (h5 : a5.IsWhole) (hc : ¬cond1_0 i)
    (x : Vec F S1x64x16384 .f32) (lab : Vec F S1x1x16384 .i32) (cen : Vec F S64x128 .f32) (acc : Vec F S1x1x128 .f32) :
    out1_B_3 c i a2 h2 a3 h3 a4 h4 a5 h5 hc x lab cen acc = k1_pay1 (k1_pay3 x lab cen acc) := by
  unfold out1_B_3
  rw [View.read_writes_eq_canon _ _ _ (cover1_B_3 c i a2 h2 a3 h3 a4 h4 a5 h5 hc x lab cen acc)]
  unfold kernelRun1_B
  dsimp only
  sl_unfold_words
  rw [View.canon_unit_zero hz3]
  simp only [View.readAt_eq_ld, h2.read_unread, h3.read_unread, h4.read_unread, h5.read_unread,
    View.ld_unit_zero (S := S1x64x16384) hz3, View.ld_unit_zero (S := S1x1x16384) hz3,
    View.ld_unit_zero (S := S64x128) hz2, View.ld_unit_zero (S := S1x1x128) hz3]

/-- A point that opens a batch leaves the same over the zero block. -/
theorem out_A (c : Dev nD) (i : grid1.Coords) (a2 : Memref sig .tc .vmem S1x64x16384 .f32) (h2 : a2.IsWhole)
    (a3 : Memref sig .tc .vmem S1x1x16384 .i32) (h3 : a3.IsWhole) (a4 : Memref sig .tc .vmem S64x128 .f32) (h4 : a4.IsWhole)
    (a5 : Memref sig .tc .vmem S1x1x128 .f32) (h5 : a5.IsWhole) (hc : cond1_0 i)
    (x : Vec F S1x64x16384 .f32) (lab : Vec F S1x1x16384 .i32) (cen : Vec F S64x128 .f32) :
    out1_A_3 c i a2 h2 a3 h3 a4 h4 a5 h5 hc x lab cen = k1_pay1 (k1_pay3 x lab cen (k1_pay2 (F := F))) := by
  unfold out1_A_3
  rw [View.read_writes_eq_canon _ _ _ (cover1_A_3 c i a2 h2 a3 h3 a4 h4 a5 h5 hc x lab cen)]
  unfold kernelRun1_A
  dsimp only
  sl_unfold_words
  rw [View.canon_cons_unit_zero (S := S1x1x128) hz3]
  simp only [View.readAt_eq_ld, h2.read_unread, h3.read_unread, h4.read_unread,
    View.ld_unit_zero (S := S1x64x16384) hz3, View.ld_unit_zero (S := S1x1x16384) hz3,
    View.ld_unit_zero (S := S64x128) hz2, View.readCov_unit_zero (S := S1x1x128) _ hz3]

end Pieces

section Run
variable (V : (c : Dev nD) → (b : Ref sig .tc) → Buf (Elt Ideal) ((c : Thread nD τ).loc b))

/-- the three input blocks at a point, at their literal types -/
abbrev xblk (c : Dev nD) (t : Fin cfg1.N) : Vec Ideal S1x64x16384 .f32 := iblk1 V c 0 t
abbrev lblk (c : Dev nD) (t : Fin cfg1.N) : Vec Ideal S1x1x16384 .i32 := iblk1 V c 1 t
abbrev cblk (c : Dev nD) (t : Fin cfg1.N) : Vec Ideal S64x128 .f32 := iblk1 V c 2 t

/-- what point `t` adds at lane `k`: the pull terms of its block's pixels labelled `k` (nothing past the grid) -/
def addend (c : Dev nD) (t : ℕ) (k : Fin 128) : EReal :=
  if h : t < cfg1.N then
    ∑ j : Fin 16384, if lblk V c ⟨t, h⟩ (ix3 0 0 j) = BitVec.ofNat 32 k.val
      then KP.pullB (xblk V c ⟨t, h⟩) (lblk V c ⟨t, h⟩) (cblk V c ⟨t, h⟩) j else 0
  else 0

theorem addend_of_lt (c : Dev nD) (t : ℕ) (h : t < cfg1.N) (k : Fin 128) :
    addend V c t k = ∑ j : Fin 16384, if lblk V c ⟨t, h⟩ (ix3 0 0 j) = BitVec.ofNat 32 k.val
      then KP.pullB (xblk V c ⟨t, h⟩) (lblk V c ⟨t, h⟩) (cblk V c ⟨t, h⟩) j else 0 := by
  unfold addend; rw [dif_pos h]

/-- After point `n` the output block holds, at lane `k`, the addends of the points of `n`'s batch up to `n`. -/
theorem outsAt_eq (c : Dev nD) : ∀ (n : ℕ) (h : n < cfg1.N) (k : Fin 128),
    outsAt1 V c n h (ix3 0 0 k) = ∑ s ∈ Finset.range (n % 16 + 1), addend V c (16 * (n / 16) + s) k
  | 0, h, k => by
    rw [outsAt1_A V c ⟨0, h⟩ rfl]
    refine (congrFun (out_A (F := Ideal) c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) (ms1_3 ⟨0, h⟩) (hs1_3 ⟨0, h⟩) ((hcond1_0 ⟨0, h⟩).mpr rfl)
      (xblk V c ⟨0, h⟩) (lblk V c ⟨0, h⟩) (cblk V c ⟨0, h⟩)) (ix3 0 0 k)).trans ?_
    refine (KP.pay3_apply (xblk V c ⟨0, h⟩) (lblk V c ⟨0, h⟩) (cblk V c ⟨0, h⟩) (k1_pay2 (F := Ideal)) k).trans ?_
    rw [KP.k1_pay2_apply, zero_add, Finset.sum_range_one, ← addend_of_lt V c 0 h k]
  | n + 1, h, k => by
    have hN : cfg1.N = 64 := N_1
    by_cases h0 : (n + 1) % 16 = 0
    · rw [outsAt1_A V c ⟨n + 1, h⟩ h0]
      refine (congrFun (out_A (F := Ideal) c (grid1.coords ⟨n + 1, h⟩) (ms1_0 ⟨n + 1, h⟩) (hs1_0 ⟨n + 1, h⟩) (ms1_1 ⟨n + 1, h⟩) (hs1_1 ⟨n + 1, h⟩)
        (ms1_2 ⟨n + 1, h⟩) (hs1_2 ⟨n + 1, h⟩) (ms1_3 ⟨n + 1, h⟩) (hs1_3 ⟨n + 1, h⟩) ((hcond1_0 ⟨n + 1, h⟩).mpr h0)
        (xblk V c ⟨n + 1, h⟩) (lblk V c ⟨n + 1, h⟩) (cblk V c ⟨n + 1, h⟩)) (ix3 0 0 k)).trans ?_
      refine (KP.pay3_apply (xblk V c ⟨n + 1, h⟩) (lblk V c ⟨n + 1, h⟩) (cblk V c ⟨n + 1, h⟩) (k1_pay2 (F := Ideal)) k).trans ?_
      rw [KP.k1_pay2_apply, zero_add, h0, Finset.sum_range_one, ← addend_of_lt V c (n + 1) h k]
      exact congrArg (fun t => addend V c t k) (by omega)
    · rw [outsAt1_B V c ⟨n + 1, h⟩ h0]
      refine (congrFun (out_B (F := Ideal) c (grid1.coords ⟨n + 1, h⟩) (ms1_0 ⟨n + 1, h⟩) (hs1_0 ⟨n + 1, h⟩) (ms1_1 ⟨n + 1, h⟩) (hs1_1 ⟨n + 1, h⟩)
        (ms1_2 ⟨n + 1, h⟩) (hs1_2 ⟨n + 1, h⟩) (ms1_3 ⟨n + 1, h⟩) (hs1_3 ⟨n + 1, h⟩) (fun hh => h0 ((hcond1_0 ⟨n + 1, h⟩).mp hh))
        (xblk V c ⟨n + 1, h⟩) (lblk V c ⟨n + 1, h⟩) (cblk V c ⟨n + 1, h⟩)
        (outsAt1 V c n (Nat.lt_of_succ_lt h))) (ix3 0 0 k)).trans ?_
      refine (KP.pay3_apply (xblk V c ⟨n + 1, h⟩) (lblk V c ⟨n + 1, h⟩) (cblk V c ⟨n + 1, h⟩) (outsAt1 V c n (Nat.lt_of_succ_lt h)) k).trans ?_
      rw [outsAt_eq c n (Nat.lt_of_succ_lt h) k, ← addend_of_lt V c (n + 1) h k]
      have e1 : (n + 1) % 16 = n % 16 + 1 := by omega
      have e2 : (n + 1) / 16 = n / 16 := by omega
      rw [e1, e2, Finset.sum_range_succ _ (n % 16 + 1)]
      exact congrArg (fun t => _ + addend V c t k) (by omega)

end Run

section Final
variable (V : (c : Dev nD) → (b : Ref sig .tc) → Buf (Elt Ideal) ((c : Thread nD τ).loc b))

/-- the pixel array, the label array and the centre table as launch 1 finds them -/
abbrev xarr (c : Dev nD) : FVec Ideal S4x64x262144 .f32 := V c main_v0
abbrev larr (c : Dev nD) : IVec S4x1x262144 32 := V c main_v1
abbrev carr (c : Dev nD) : FVec Ideal S64x128 .f32 := V c main_v8

/-- the centre the one-hot product picks for pixel (b, p), channel ch -/
def gath (c : Dev nD) (b : Fin 4) (ch : Fin 64) (p : Fin 262144) : EReal :=
  ∑ k' : Fin 128, carr V c (ix2 ch k') * (if larr V c (ix3 b 0 p) = BitVec.ofNat 32 k'.val then (1 : EReal) else 0)

/-- the pull term of pixel (b, p) -/
def pull (c : Dev nD) (b : Fin 4) (p : Fin 262144) : EReal :=
  max (Ideal.sqrt (max (∑ ch : Fin 64, (gath V c b ch p - xarr V c (ix3 b ch p)) * (gath V c b ch p - xarr V c (ix3 b ch p))) (Ideal.ofBits .f32 0x2B8CBCCC#32)) - Ideal.ofBits .f32 0x3F000000#32) 0
    * max (Ideal.sqrt (max (∑ ch : Fin 64, (gath V c b ch p - xarr V c (ix3 b ch p)) * (gath V c b ch p - xarr V c (ix3 b ch p))) (Ideal.ofBits .f32 0x2B8CBCCC#32)) - Ideal.ofBits .f32 0x3F000000#32) 0

/-- A block's gathered centre is the array's, at the block's batch and pixel. -/
theorem gathB_eq (c : Dev nD) (s : Fin cfg1.N) (ch : Fin 64) (j : Fin 16384) :
    KP.gathB (lblk V c s) (cblk V c s) ch j = gath V c (KB.tb4 (s.cast KB.N1)) ch (KB.pixOf (s.cast KB.N1) j) := by
  unfold KP.gathB gath
  refine Finset.sum_congr rfl fun k' _ => ?_
  have e1 : lblk V c s (ix3 0 0 j) = larr V c (ix3 (KB.tb4 (s.cast KB.N1)) 0 (KB.pixOf (s.cast KB.N1) j)) := KB.lblk1 V c s j
  have e2 : cblk V c s (ix2 ch k') = carr V c (ix2 ch k') := congrFun (KB.cblk1 V c s) (ix2 ch k')
  rw [e1, e2]

/-- A block's pull term is the array's, at the block's batch and pixel. -/
theorem pullB_eq (c : Dev nD) (s : Fin cfg1.N) (j : Fin 16384) :
    KP.pullB (xblk V c s) (lblk V c s) (cblk V c s) j = pull V c (KB.tb4 (s.cast KB.N1)) (KB.pixOf (s.cast KB.N1) j) := by
  have hs : (∑ ch : Fin 64, (KP.gathB (lblk V c s) (cblk V c s) ch j - xblk V c s (ix3 0 ch j)) * (KP.gathB (lblk V c s) (cblk V c s) ch j - xblk V c s (ix3 0 ch j)))
      = ∑ ch : Fin 64, (gath V c (KB.tb4 (s.cast KB.N1)) ch (KB.pixOf (s.cast KB.N1) j) - xarr V c (ix3 (KB.tb4 (s.cast KB.N1)) ch (KB.pixOf (s.cast KB.N1) j)))
          * (gath V c (KB.tb4 (s.cast KB.N1)) ch (KB.pixOf (s.cast KB.N1) j) - xarr V c (ix3 (KB.tb4 (s.cast KB.N1)) ch (KB.pixOf (s.cast KB.N1) j))) :=
    Finset.sum_congr rfl fun ch _ => by
      have e1 : xblk V c s (ix3 0 ch j) = xarr V c (ix3 (KB.tb4 (s.cast KB.N1)) ch (KB.pixOf (s.cast KB.N1) j)) := KB.xblk1 V c s ch j
      rw [gathB_eq V c s ch j, e1]
  unfold KP.pullB pull
  rw [hs]

/-- the pull sums per batch and lane, as the whole output array -/
def vsArr (c : Dev nD) : S4x1x128.Idx → EReal := fun i =>
  ∑ p : Fin 262144, if larr V c (ix3 (i 0 : Fin 4) 0 p) = BitVec.ofNat 32 (i 2).val then pull V c (i 0 : Fin 4) p else 0

/-- At the last point of a batch the output block holds, at lane `k`, the batch's pull sum of class `k`. -/
theorem lane_total (c : Dev nD) (t : Fin cfg1.N) (h15 : t.val % 16 = 15) (k : Fin 128) :
    outsAt1 V c t.val t.isLt (ix3 0 0 k) = vsArr V c (ix3 (KB.tb4 (t.cast KB.N1)) 0 k) := by
  have hN : cfg1.N = 64 := N_1
  have htl : t.val < 64 := lt_of_lt_of_eq t.isLt hN
  rw [outsAt_eq V c t.val t.isLt k, h15]
  show _ = ∑ p : Fin 262144, if larr V c (ix3 (KB.tb4 (t.cast KB.N1)) 0 p) = BitVec.ofNat 32 k.val then pull V c (KB.tb4 (t.cast KB.N1)) p else 0
  rw [← KB.sum_blocks (KB.tb4 (t.cast KB.N1)), Finset.sum_range]
  refine Finset.sum_congr rfl fun tb _ => ?_
  have htb : tb.val < 16 := tb.isLt
  have hlt : 16 * (t.val / 16) + tb.val < cfg1.N := by omega
  rw [addend_of_lt V c _ hlt k]
  refine Finset.sum_congr rfl fun j _ => ?_
  have hj : j.val < 16384 := j.isLt
  have hb : KB.tb4 ((⟨16 * (t.val / 16) + tb.val, hlt⟩ : Fin cfg1.N).cast KB.N1) = KB.tb4 (t.cast KB.N1) :=
    Fin.ext (by show (16 * (t.val / 16) + tb.val) / 16 = t.val / 16; omega)
  have hp : KB.pixOf ((⟨16 * (t.val / 16) + tb.val, hlt⟩ : Fin cfg1.N).cast KB.N1) j = ⟨16384 * tb.val + j.val, by omega⟩ :=
    Fin.ext (by show 16384 * ((16 * (t.val / 16) + tb.val) % 16) + j.val = 16384 * tb.val + j.val; omega)
  have e1 : lblk V c ⟨16 * (t.val / 16) + tb.val, hlt⟩ (ix3 0 0 j)
      = larr V c (ix3 (KB.tb4 ((⟨16 * (t.val / 16) + tb.val, hlt⟩ : Fin cfg1.N).cast KB.N1)) 0 (KB.pixOf ((⟨16 * (t.val / 16) + tb.val, hlt⟩ : Fin cfg1.N).cast KB.N1) j)) :=
    KB.lblk1 V c ⟨16 * (t.val / 16) + tb.val, hlt⟩ j
  rw [e1, pullB_eq V c ⟨16 * (t.val / 16) + tb.val, hlt⟩ j, hb, hp]

/-- the block indices of the output window, decided once over the grid -/
theorem idx_out : ∀ t : Fin cfg1.N, win1_3.index t (0 : Fin 3) = t.val / 16 ∧ win1_3.index t (1 : Fin 3) = 0 ∧ win1_3.index t (2 : Fin 3) = 0 :=
  (by decide +kernel : ∀ t : Fin grid1.N, win1_3.index t (0 : Fin 3) = t.val / 16 ∧ win1_3.index t (1 : Fin 3) = 0 ∧ win1_3.index t (2 : Fin 3) = 0)

/-- A block of the output array read at a coordinate is the array at the coordinate's place. -/
theorem read_blk_apply (G : S4x1x128.Idx → EReal) (t : Fin cfg1.N) (y : S1x1x128.Idx) (i : S4x1x128.Idx)
    (hi : ((cfg1.win 3).blk t).view.emb y = i) : ((cfg1.win 3).blk t).view.read (Elt Ideal) G y = G i := by
  subst hi
  rw [View.read_apply]
  exact cast_eq _ _

/-- What a point that writes back writes is its block of the array of pull sums. -/
theorem flushed_eq (c : Dev nD) (t : Fin cfg1.N) (hf : (cfg1.win 3).flush t = true) :
    (dat1 (F := Ideal) V c).flushed 3 t = ((cfg1.win 3).blk t).view.read (Elt Ideal) (vsArr V c) := by
  have hN : cfg1.N = 64 := N_1
  have htl : t.val < 64 := lt_of_lt_of_eq t.isLt hN
  have h15 : t.val % 16 = 15 := (flush1_3 t).mp hf
  obtain ⟨e0, e1, e2⟩ := idx_out t
  show (cfg1.win 3).cut (grid1.coords t) ((dat1 V c).after 3 t) = _
  rw [after1_3]
  funext y
  have h0 : (y 0).val < 1 := (y 0).isLt
  have h1 : (y 1).val < 1 := (y 1).isLt
  have h2 : (y 2).val < 128 := (y 2).isLt
  have ei : (cfg1.win 3).xinj (grid1.coords t) y = ix3 (0 : Fin 1) (0 : Fin 1) (⟨(y 2).val, h2⟩ : Fin 128) :=
    funext fun a => Fin.ext (by
      match a with
      | ⟨0, _⟩ => show (y 0).val = 0; omega
      | ⟨1, _⟩ => show (y 1).val = 0; omega
      | ⟨2, _⟩ => rfl)
  have eo : ((cfg1.win 3).blk t).view.emb y = ix3 (KB.tb4 (t.cast KB.N1)) (0 : Fin 1) (⟨(y 2).val, h2⟩ : Fin 128) :=
    funext fun a => Fin.ext (by
      match a with
      | ⟨0, _⟩ => show win1_3.index t (0 : Fin 3) * 1 + 1 * (y 0).val = t.val / 16; omega
      | ⟨1, _⟩ => show win1_3.index t (1 : Fin 3) * 1 + 1 * (y 1).val = 0; omega
      | ⟨2, _⟩ => show win1_3.index t (2 : Fin 3) * 128 + 1 * (y 2).val = (y 2).val; omega)
  have L : (cfg1.win 3).cut (grid1.coords t) (outsAt1 V c t.val t.isLt) y = outsAt1 V c t.val t.isLt (ix3 (0 : Fin 1) (0 : Fin 1) (⟨(y 2).val, h2⟩ : Fin 128)) :=
    congrArg (outsAt1 V c t.val t.isLt) ei
  exact L.trans ((lane_total V c t h15 ⟨(y 2).val, h2⟩).trans (read_blk_apply (vsArr V c) t y _ eo).symm)

/-- An index of the output array is in point `t`'s block iff each coordinate is in the block's range on its axis. -/
theorem mem_blk (t : Fin cfg1.N) (i : S4x1x128.Idx) :
    i ∈ ((cfg1.win 3).blk t).view.set ↔ ∀ a : Fin 3, win1_3.index t a * S1x1x128.size a ≤ (i a).val ∧ (i a).val < win1_3.index t a * S1x1x128.size a + S1x1x128.size a := by
  show i ∈ ((View.whole main_v13).slice (win1_3.rect t)).set ↔ _
  rw [View.set_slice_whole, Rect.mem_set_unit]
  exact Iff.rfl

/-- So the output array ends holding the pull sums: the last point of batch `b` covers row `b`. -/
theorem final_vs (c : Dev nD) : (dat1 (F := Ideal) V c).arrAt 3 cfg1.N = vsArr V c :=
  (dat1 (F := Ideal) V c).arrAt_eq_of_cover 3 (vsArr V c) (flushed_eq V c) fun i => by
    have hN : cfg1.N = 64 := N_1
    have h0 : (i 0 : Nat) < 4 := (i 0).isLt
    have h1 : (i 1 : Nat) < 1 := (i 1).isLt
    have h2 : (i 2 : Nat) < 128 := (i 2).isLt
    have hlt : 16 * (i 0 : Nat) + 15 < cfg1.N := by omega
    refine ⟨⟨16 * (i 0 : Nat) + 15, hlt⟩, (flush1_3 _).mpr (by show (16 * (i 0 : Nat) + 15) % 16 = 15; omega), ?_⟩
    obtain ⟨e0, e1, e2⟩ := idx_out ⟨16 * (i 0 : Nat) + 15, hlt⟩
    rw [mem_blk]
    intro a
    match a with
    | ⟨0, _⟩ => show win1_3.index ⟨16 * (i 0 : Nat) + 15, hlt⟩ (0 : Fin 3) * 1 ≤ (i 0).val ∧ (i 0).val < win1_3.index ⟨16 * (i 0 : Nat) + 15, hlt⟩ (0 : Fin 3) * 1 + 1
                rw [e0]; show (16 * (i 0 : Nat) + 15) / 16 * 1 ≤ (i 0).val ∧ (i 0).val < (16 * (i 0 : Nat) + 15) / 16 * 1 + 1; omega
    | ⟨1, _⟩ => show win1_3.index ⟨16 * (i 0 : Nat) + 15, hlt⟩ (1 : Fin 3) * 1 ≤ (i 1).val ∧ (i 1).val < win1_3.index ⟨16 * (i 0 : Nat) + 15, hlt⟩ (1 : Fin 3) * 1 + 1
                rw [e1]; omega
    | ⟨2, _⟩ => show win1_3.index ⟨16 * (i 0 : Nat) + 15, hlt⟩ (2 : Fin 3) * 128 ≤ (i 2).val ∧ (i 2).val < win1_3.index ⟨16 * (i 0 : Nat) + 15, hlt⟩ (2 : Fin 3) * 128 + 128
                rw [e2]; omega

theorem vs_arr (c : Dev nD) (b : Fin 4) (k : Fin 128) :
    (dat1 (F := Ideal) V c).arrAt 3 cfg1.N (ix3 b 0 k)
      = ∑ p : Fin 262144, if larr V c (ix3 b 0 p) = BitVec.ofNat 32 k.val then pull V c b p else 0 := by
  rw [final_vs V c]
  rfl

end Final

end Cert.KernelIdeal.K1

end
-- ==== Proof.KFold.lean ====
/-
  The host arithmetic of the kernel program, folded.

  Between and after its two launches the program runs stretches of host operations. Read back from the result buffer
  through the thirteen stretches that follow the second launch, and through the stretch between the launches, the
  result is the function `KT` of the three arrays the launches leave: the per-batch partial channel sums and counts of
  the first launch and the per-batch partial pull sums of the second. Along the way: the centre table the second launch
  reads is `kcen` of the first launch's two arrays, and both launches read the two arguments reshaped to pixel rows.
-/
import proofs.«402319_j32229434589496_3_alg».proof.Proof.Gen.KernelIdeal.Frame
import proofs.«402319_j32229434589496_3_alg».proof.Proof.Tails

set_option maxRecDepth 16384

noncomputable section

namespace Cert.KernelIdeal.KF

open Cert.KernelIdeal Cert.KernelIdeal.Gen Cert.KernelIdeal.Tail Idealize.ShloMosaic
open Idealize.ShloMosaic.TcCoe
open Idealize.ShloMosaic.Pipeline (Dat)

variable {F : FTy → Type} [FloatOps F]

variable (m : (ℓ : Loc nD τ sig) → Buf (Elt F) ℓ) (ρ : Dev nD → PrngReg)

/-! ## Input windows keep their arrays -/

/-- An input window of the first launch leaves its array as it found it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans ((Dat.arrAt_in (dat0 (V1 m ρ) c) w hin cfg0.N).trans (A_eq0 (V1 m ρ) c w))

/-- An input window of the second launch leaves its array as it found it. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans ((Dat.arrAt_in (dat1 (V3 m ρ) c) w hin cfg1.N).trans (A_eq1 (V3 m ρ) c w))

/-! ## The reshaped arguments

Both launches read the prediction as [4, 64, 262144] and the labels as [4, 1, 262144]: the two reshapes before the first
launch, which no later operation and no launch overwrites. -/

/-- The first launch's prediction window: the prediction argument reshaped to pixel rows. -/
theorem x_in0 (c : Dev nD) : V1 m ρ c main_v0
    = shapeCast S4x64x262144 (s := S4x64x512x512) (m ((c : Thread nD τ).loc main_arg0)) shapeCasts_S4x64x512x512_S4x64x262144 := by
  show StableHlo.after hostOps0 _ (Proc.devRef .tc main_v0) = _
  after_results
  rfl

/-- The first launch's label window: the label argument reshaped to pixel rows. -/
theorem lab_in0 (c : Dev nD) : V1 m ρ c main_v1
    = shapeCast S4x1x262144 (s := S4x512x512) (m ((c : Thread nD τ).loc main_arg1)) shapeCasts_S4x512x512_S4x1x262144 := by
  show StableHlo.after hostOps0 _ (Proc.devRef .tc main_v1) = _
  after_results
  rfl

/-- The second launch's prediction window holds what the first launch's did. -/
theorem x_in1 (c : Dev nD) : V3 m ρ c main_v0
    = shapeCast S4x64x262144 (s := S4x64x512x512) (m ((c : Thread nD τ).loc main_arg0)) shapeCasts_S4x64x512x512_S4x64x262144 := by
  have h3 : W3 m ρ c (Proc.devRef .tc main_v0) = W2 m ρ c (Proc.devRef .tc main_v0) := by
    show StableHlo.after hostOps1 _ (Proc.devRef .tc main_v0) = _
    after_results
  exact h3.trans ((W2_in m ρ c 0 rfl).trans (x_in0 m ρ c))

/-- The second launch's label window holds what the first launch's did. -/
theorem lab_in1 (c : Dev nD) : V3 m ρ c main_v1
    = shapeCast S4x1x262144 (s := S4x512x512) (m ((c : Thread nD τ).loc main_arg1)) shapeCasts_S4x512x512_S4x1x262144 := by
  have h3 : W3 m ρ c (Proc.devRef .tc main_v1) = W2 m ρ c (Proc.devRef .tc main_v1) := by
    show StableHlo.after hostOps1 _ (Proc.devRef .tc main_v1) = _
    after_results
  exact h3.trans ((W2_in m ρ c 1 rfl).trans (lab_in0 m ρ c))

/-! ## The stretch between the launches

From the first launch's partial sums and counts it forms the count floor, the centre table, the validity bits and the
number of valid classes; the second launch reads the centre table and writes none of the four. -/

/-- The centre table the second launch reads. -/
theorem cen_in (c : Dev nD) : V3 m ρ c main_v8
    = kcen (W2 m ρ c (Proc.devRef .tc main_v2_0)) (W2 m ρ c (Proc.devRef .tc main_v2_1)) := by
  show StableHlo.after hostOps1 _ (Proc.devRef .tc main_v8) = _
  after_results
  rfl

/-- After the second launch the count floor is still the one formed before it. -/
theorem safe_out (c : Dev nD) : W4 m ρ c (Proc.devRef .tc main_v6) = ksafe (W2 m ρ c (Proc.devRef .tc main_v2_1)) := by
  refine (W4_of_ne m ρ c main_v6 (by decide)).trans ?_
  show StableHlo.after hostOps1 _ (Proc.devRef .tc main_v6) = _
  after_results
  rfl

/-- After the second launch the centre table is still the one it read: its window is an input. -/
theorem cen_out (c : Dev nD) : W4 m ρ c (Proc.devRef .tc main_v8)
    = kcen (W2 m ρ c (Proc.devRef .tc main_v2_0)) (W2 m ρ c (Proc.devRef .tc main_v2_1)) :=
  (W4_in m ρ c 2 rfl).trans (cen_in m ρ c)

/-- After the second launch the validity bits are still the ones formed before it. -/
theorem valid_out (c : Dev nD) : W4 m ρ c (Proc.devRef .tc main_v10) = kvalid (F := F) (W2 m ρ c (Proc.devRef .tc main_v2_1)) := by
  refine (W4_of_ne m ρ c main_v10 (by decide)).trans ?_
  show StableHlo.after hostOps1 _ (Proc.devRef .tc main_v10) = _
  after_results
  rfl

/-- After the second launch the number of valid classes is still the one formed before it. -/
theorem n_out (c : Dev nD) : W4 m ρ c (Proc.devRef .tc main_v12) = kn (W2 m ρ c (Proc.devRef .tc main_v2_1)) := by
  refine (W4_of_ne m ρ c main_v12 (by decide)).trans ?_
  show StableHlo.after hostOps1 _ (Proc.devRef .tc main_v12) = _
  after_results
  rfl

/-! ## The tail

The thirteen stretches after the second launch, read back from the result: each operation's buffer holds its function
of its operands' buffers, down to the second launch's pull sums and the four buffers above. What is left is `KT`'s
own chain of operations, term for term: the pull loss over the 128 lanes, the 19 centres cut from the transposed
table, the 19 validity bits, and the common end `pair`. -/

set_option maxHeartbeats 4000000 in
/-- The program's result is `KT` of the three arrays its two launches leave. -/
theorem tail_fold (c : Dev nD) : W17 m ρ c (Proc.devRef .tc main_v65)
    = KT (W2 m ρ c (Proc.devRef .tc main_v2_0)) (W2 m ρ c (Proc.devRef .tc main_v2_1)) (W4 m ρ c (Proc.devRef .tc main_v13)) := by
  show StableHlo.after hostOps2_12 (StableHlo.after hostOps2_11 (StableHlo.after hostOps2_10 (StableHlo.after hostOps2_9
    (StableHlo.after hostOps2_8 (StableHlo.after hostOps2_7 (StableHlo.after hostOps2_6 (StableHlo.after hostOps2_5
    (StableHlo.after hostOps2_4 (StableHlo.after hostOps2_3 (StableHlo.after hostOps2_2 (StableHlo.after hostOps2_1
    (StableHlo.after hostOps2 (W4 m ρ c))))))))))))) (Proc.devRef .tc main_v65) = _
  after_results_simp
  simp only [StableHlo.TRef.ofBuf, StableHlo.TRef.toBuf, cast_eq]
  rw [safe_out m ρ c, cen_out m ρ c, valid_out m ρ c, n_out m ρ c]
  rfl

end Cert.KernelIdeal.KF

end
-- ==== Proof.Collapse.lean ====
/-
  The kernel's head over 128 lanes agrees with the reference's head over 19 lanes.

  Read lane by lane: a host sum over the batch axis is the zero it starts from plus the four partials; the centre at
  (channel, lane) is that sum over `max(count, 1)`; a lane is valid when its count exceeds 20. With every label below
  19 the lanes 19 … 127 count no pixel, so they are not valid (0 > 20 is false), add 0 to the number of valid classes
  and 0 to the pull loss, and the first 19 lanes are the reference's 19 classes.
-/
import proofs.«402319_j32229434589496_3_alg».proof.Proof.Tails
import Idealize.ShloMosaic.Lib.Pipeline.Value
import Idealize.ShloMosaic.Lib.ValueLayout
import Idealize.ShloMosaic.Lib.ValueIdxRank1
import Mathlib.Algebra.BigOperators.Fin

noncomputable section

open Idealize.ShloMosaic Idealize.ShloMosaic.ValueIdx

namespace Cert.SegLoss

open Cert.KernelIdeal.Tail

variable (X : Fin 4 → Fin 64 → Fin 262144 → EReal) (L : Fin 4 → Fin 262144 → ℕ)

/-- The batch sum of a [4,1,128] array read at a lane. -/
theorem krow_apply (c4 : FVec Ideal Cert.KernelIdeal.S4x1x128 .f32) (j : Cert.KernelIdeal.S1x128.Idx) :
    krow (F := Ideal) c4 j = ∑ b : Fin 4, c4 (ix3 b 0 (j 1)) := by
  unfold krow
  simp only [Host.reduceAdd, Ideal.hostReduceAdd_def]
  rw [Ideal.hostReduceAdd_single _ (by decide)]
  rw [constant_apply, Ideal.ofBits_zero_f32, zero_add]
  refine Finset.sum_congr rfl fun b _ => ?_
  refine congrArg c4 (funext fun a => Fin.ext ?_)
  match a with
  | ⟨0, _⟩ => rfl
  | ⟨1, _⟩ =>
    show (j 0).val = 0
    have := idx2_lt0 j; omega
  | ⟨2, _⟩ => rfl

/-- The batch sum of a [4,64,128] array read at (channel, lane). -/
theorem ksum_apply (s4 : FVec Ideal Cert.KernelIdeal.S4x64x128 .f32) (j : Cert.KernelIdeal.S64x128.Idx) :
    ksum (F := Ideal) s4 j = ∑ b : Fin 4, s4 (ix3 b (j 0) (j 1)) := by
  unfold ksum
  simp only [Host.reduceAdd, Ideal.hostReduceAdd_def]
  rw [Ideal.hostReduceAdd_single _ (by decide)]
  rw [constant_apply, Ideal.ofBits_zero_f32, zero_add]
  refine Finset.sum_congr rfl fun b _ => ?_
  refine congrArg s4 (funext fun a => Fin.ext ?_)
  match a with
  | ⟨0, _⟩ => rfl
  | ⟨1, _⟩ => rfl
  | ⟨2, _⟩ => rfl

/-- The count floor read at a lane. -/
theorem ksafe_apply (c4 : FVec Ideal Cert.KernelIdeal.S4x1x128 .f32) (j : Cert.KernelIdeal.S1x128.Idx) :
    ksafe (F := Ideal) c4 j = max (krow (F := Ideal) c4 j) (Ideal.ofBits .f32 0x3F800000#32) := rfl

/-- The validity bit read at a lane. -/
theorem kvalid_apply (c4 : FVec Ideal Cert.KernelIdeal.S4x1x128 .f32) (j : Cert.KernelIdeal.S1x128.Idx) :
    kvalid (F := Ideal) c4 j = Ideal.cmp .ogt (krow (F := Ideal) c4 j) (Ideal.ofBits .f32 0x41A00000#32) := rfl

/-- The centre table read at (channel, lane). -/
theorem kcen_apply' (s4 : FVec Ideal Cert.KernelIdeal.S4x64x128 .f32) (c4 : FVec Ideal Cert.KernelIdeal.S4x1x128 .f32)
    (j : Cert.KernelIdeal.S64x128.Idx) :
    kcen (F := Ideal) s4 c4 j = Ideal.div (ksum (F := Ideal) s4 j) (ksafe (F := Ideal) c4 (ix2 0 (j 1))) := by
  unfold kcen
  show Ideal.div _ _ = _
  congr 1
  exact broadcastInDim_apply _ _ _ j (ix2 0 (j 1)) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-- The word 0x41A00000 denotes twenty. -/
theorem ofBits_twenty : Ideal.ofBits .f32 0x41A00000#32 = ((20 : ℝ) : EReal) := by
  simp [Ideal.ofBits, Ideal.ieee, -EReal.coe_mul]; norm_num

/-- Zero does not exceed twenty: an empty class is not valid. -/
theorem cmp_zero_twenty : Ideal.cmp .ogt 0 (Ideal.ofBits .f32 0x41A00000#32) = 0#1 := by
  rw [ofBits_twenty]
  unfold Ideal.cmp
  have h : ¬ (((20 : ℝ) : EReal) < 0) := by
    rw [not_lt]; exact_mod_cast (by norm_num : (0 : ℝ) ≤ 20)
  simp [h]

/-- A function of the lane number that vanishes from lane 19 on has the same sum over 128 lanes as over 19. -/
theorem sum_lanes (f : ℕ → EReal) (hf : ∀ k, 19 ≤ k → f k = 0) :
    ∑ k : Fin 128, f k.val = ∑ k : Fin 19, f k.val := by
  rw [Fin.sum_univ_eq_sum_range f 128, Fin.sum_univ_eq_sum_range f 19]
  refine (Finset.sum_subset (Finset.range_subset.2 (by decide)) fun k _ hk => hf k ?_).symm
  rw [Finset.mem_range] at hk; omega

/-- A sum over the indices of a [1,128] array is the sum over its 128 lanes. -/
theorem sum_S1x128 (g : Cert.KernelIdeal.S1x128.Idx → EReal) : ∑ j, g j = ∑ k : Fin 128, g (ix2 0 k) := by
  rw [sum_idx2 g, Fin.sum_univ_one]

/-- A sum over the indices of a [19] array is the sum over its 19 lanes. -/
theorem sum_S19 (g : Cert.ReferenceIdeal.S19.Idx → EReal) : ∑ j, g j = ∑ k : Fin 19, g (ix1 k) := by
  rw [← Equiv.sum_comp (idxEquiv1 (n := 19)).symm g]
  rfl

/-- Lane `k` of 19 as a lane of 128. -/
abbrev lane (k : Fin 19) : Fin 128 := ⟨k.val, by have := k.isLt; omega⟩

/-- The kernel's 19 centres read at (class, channel): the table at (channel, class). -/
theorem kC_apply (s4 : FVec Ideal Cert.KernelIdeal.S4x64x128 .f32) (c4 : FVec Ideal Cert.KernelIdeal.S4x1x128 .f32)
    (k : Fin 19) (ch : Fin 64) :
    kC (F := Ideal) s4 c4 (ix2 k ch) = kcen (F := Ideal) s4 c4 (ix2 ch (lane k)) := by
  unfold kC
  refine (extractStridedSlice_apply _ _ _ (ix2 k ch) (ix2 (lane k) ch) (fun a => match a with
    | ⟨0, _⟩ => by show k.val = 0 + k.val; omega
    | ⟨1, _⟩ => by show ch.val = 0 + ch.val; omega)).trans ?_
  exact transpose_apply _ _ _ _ (ix2 ch (lane k)) (fun b => match b with
    | ⟨0, _⟩ => rfl
    | ⟨1, _⟩ => rfl)

/-- The kernel's 19 validity bits read at a class: the bit of that lane. -/
theorem kV_apply (c4 : FVec Ideal Cert.KernelIdeal.S4x1x128 .f32) (k : Fin 19) :
    kV (F := Ideal) c4 (ix1 k) = kvalid (F := Ideal) c4 (ix2 0 (lane k)) := by
  unfold kV
  refine (extractStridedSlice_apply _ _ _ (ix1 k) (ix1 (lane k)) (fun a => match a with
    | ⟨0, _⟩ => by show k.val = 0 + k.val; omega)).trans ?_
  exact shapeCast_apply _ _ _ (ix2 0 (lane k))
    (by rw [Shape.rowMajor_val_two, Shape.rowMajor_val_one]; show 0 * 128 + k.val = k.val; omega)

/-- The reference's centres read at (class, channel). -/
theorem rC_apply (cnt : FVec Ideal Cert.ReferenceIdeal.S19 .f32) (sums : FVec Ideal Cert.ReferenceIdeal.S19x64 .f32)
    (k : Fin 19) (ch : Fin 64) :
    Cert.ReferenceIdeal.Tail.rC (F := Ideal) cnt sums (ix2 k ch)
      = Ideal.div (sums (ix2 k ch)) (max (cnt (ix1 k)) (Ideal.ofBits .f32 0x3F800000#32)) := by
  unfold Cert.ReferenceIdeal.Tail.rC
  show Ideal.div _ _ = _
  congr 1
  refine (broadcastInDim_apply _ _ _ (ix2 k ch) (ix2 k 0) (fun a => match a with
    | ⟨0, _⟩ => by show k.val = if (19 : Nat) = 1 then 0 else k.val; rw [if_neg (by decide)]
    | ⟨1, _⟩ => by show 0 = if (1 : Nat) = 1 then 0 else ch.val; rw [if_pos rfl])).trans ?_
  exact broadcastInDim_apply _ _ _ _ (ix1 k) (fun a => match a with
    | ⟨0, _⟩ => by show k.val = if (19 : Nat) = 1 then 0 else k.val; rw [if_neg (by decide)])

/-- The reference's validity bit read at a class. -/
theorem rV_apply (cnt : FVec Ideal Cert.ReferenceIdeal.S19 .f32) (i : Cert.ReferenceIdeal.S19.Idx) :
    Cert.ReferenceIdeal.Tail.rV (F := Ideal) cnt i = Ideal.cmp .ogt (cnt i) (Ideal.ofBits .f32 0x41A00000#32) := rfl

/-- How a count enters the number of valid classes: 1 when it exceeds twenty, else 0. -/
def vbit (c : EReal) : EReal := (((Ideal.cmp .ogt c (Ideal.ofBits .f32 0x41A00000#32)).toNat : ℝ) : EReal)

/-- The kernel's number of valid classes: the sum over the 128 lanes. -/
theorem kn_apply (c4 : FVec Ideal Cert.KernelIdeal.S4x1x128 .f32) (i : Cert.KernelIdeal.S_.Idx) :
    kn (F := Ideal) c4 i = ∑ k : Fin 128, vbit (krow (F := Ideal) c4 (ix2 0 k)) := by
  unfold kn
  simp only [Host.reduceAdd, Ideal.hostReduceAdd_def]
  rw [Ideal.hostReduceAdd_total _ (fun b => b.elim0)]
  rw [constant_apply, Ideal.ofBits_zero_f32, zero_add, sum_S1x128]
  rfl

/-- The reference's number of valid classes: the sum over the 19 classes. -/
theorem rn_apply (cnt : FVec Ideal Cert.ReferenceIdeal.S19 .f32) (i : Cert.ReferenceIdeal.S_.Idx) :
    Cert.ReferenceIdeal.Tail.rn (F := Ideal) cnt i = ∑ k : Fin 19, vbit (cnt (ix1 k)) := by
  unfold Cert.ReferenceIdeal.Tail.rn
  simp only [Host.reduceAdd, Ideal.hostReduceAdd_def]
  rw [Ideal.hostReduceAdd_total _ (fun b => b.elim0)]
  rw [constant_apply, Ideal.ofBits_zero_f32, zero_add, sum_S19]
  rfl

/-- How a class enters the pull loss: its mean pull term when it is valid, else 0. -/
def pterm (c v : EReal) : EReal :=
  Scalar.select (Ideal.cmp .ogt c (Ideal.ofBits .f32 0x41A00000#32))
    (Ideal.div v (max c (Ideal.ofBits .f32 0x3F800000#32))) (Ideal.ofBits .f32 0x00000000#32)

/-- The kernel's pull loss: the sum over the 128 lanes over `max(n, 1)`. -/
theorem klv_apply (c4 v4 : FVec Ideal Cert.KernelIdeal.S4x1x128 .f32) (i : Cert.KernelIdeal.S_.Idx) :
    klv (F := Ideal) c4 v4 i
      = Ideal.div (∑ k : Fin 128, pterm (krow (F := Ideal) c4 (ix2 0 k)) (krow (F := Ideal) v4 (ix2 0 k)))
          (max (kn (F := Ideal) c4 i) (Ideal.ofBits .f32 0x3F800000#32)) := by
  unfold klv
  show Ideal.div _ _ = _
  congr 1
  simp only [Host.reduceAdd, Ideal.hostReduceAdd_def]
  rw [Ideal.hostReduceAdd_total _ (fun b => b.elim0)]
  rw [constant_apply, Ideal.ofBits_zero_f32, zero_add, sum_S1x128]
  rfl

/-- The reference's pull loss: the sum over the 19 classes over `max(n, 1)`. -/
theorem rlv_apply (cnt vs : FVec Ideal Cert.ReferenceIdeal.S19 .f32) (i : Cert.ReferenceIdeal.S_.Idx) :
    Cert.ReferenceIdeal.Tail.rlv (F := Ideal) cnt vs i
      = Ideal.div (∑ k : Fin 19, pterm (cnt (ix1 k)) (vs (ix1 k)))
          (max (Cert.ReferenceIdeal.Tail.rn (F := Ideal) cnt i) (Ideal.ofBits .f32 0x3F800000#32)) := by
  unfold Cert.ReferenceIdeal.Tail.rlv
  show Ideal.div _ _ = _
  congr 1
  simp only [Host.reduceAdd, Ideal.hostReduceAdd_def]
  rw [Ideal.hostReduceAdd_total _ (fun b => b.elim0)]
  rw [constant_apply, Ideal.ofBits_zero_f32, zero_add, sum_S19]
  rfl

section Heads
variable {X L}
variable (s4 : FVec Ideal Cert.KernelIdeal.S4x64x128 .f32) (c4 v4 : FVec Ideal Cert.KernelIdeal.S4x1x128 .f32)

/-- The batch-summed count at a lane is the class count. -/
theorem krow_c (hc : ∀ k : Fin 128, ∑ b : Fin 4, c4 (ix3 b 0 k) = cnt L k.val) (k : Fin 128) :
    krow (F := Ideal) c4 (ix2 0 k) = cnt L k.val := (krow_apply c4 _).trans (hc k)

/-- The batch-summed pull sum at a lane is the class pull sum. -/
theorem krow_v (hv : ∀ k : Fin 128, ∑ b : Fin 4, v4 (ix3 b 0 k) = vs X L k.val) (k : Fin 128) :
    krow (F := Ideal) v4 (ix2 0 k) = vs X L k.val := (krow_apply v4 _).trans (hv k)

/-- An empty class adds nothing to the number of valid classes. -/
theorem vbit_zero : vbit 0 = 0 := by
  unfold vbit
  rw [cmp_zero_twenty]
  simp

/-- An empty class adds nothing to the pull loss. -/
theorem pterm_zero (v : EReal) : pterm 0 v = 0 := by
  unfold pterm
  rw [cmp_zero_twenty, select_zero, Ideal.ofBits_zero_f32]

end Heads

/-- The centre table at (channel, lane) is the spec's centre. -/
theorem kcen_apply
    (s4 : FVec Ideal Cert.KernelIdeal.S4x64x128 .f32) (c4 : FVec Ideal Cert.KernelIdeal.S4x1x128 .f32)
    (hs : ∀ (ch : Fin 64) (k : Fin 128), ∑ b : Fin 4, s4 (ix3 b ch k) = sm X L ch k.val)
    (hc : ∀ k : Fin 128, ∑ b : Fin 4, c4 (ix3 b 0 k) = cnt L k.val) (ch : Fin 64) (k : Fin 128) :
    Cert.KernelIdeal.Tail.kcen (F := Ideal) s4 c4 (ix2 ch k) = cen X L ch k.val := by
  rw [kcen_apply', ksafe_apply, krow_c c4 hc, ksum_apply]
  show Ideal.div (∑ b : Fin 4, s4 (ix3 b ch k)) _ = _
  rw [hs ch k]
  rfl

/-- THE COLLAPSE. Three arrays of per-batch partials over 128 lanes whose batch sums are the per-class quantities
    give, when every label is below 19, the reference's result of the 19-lane arrays. -/
theorem collapse (hL : ∀ b p, L b p < 19)
    (s4 : FVec Ideal Cert.KernelIdeal.S4x64x128 .f32) (c4 v4 : FVec Ideal Cert.KernelIdeal.S4x1x128 .f32)
    (hs : ∀ (ch : Fin 64) (k : Fin 128), ∑ b : Fin 4, s4 (ix3 b ch k) = sm X L ch k.val)
    (hc : ∀ k : Fin 128, ∑ b : Fin 4, c4 (ix3 b 0 k) = cnt L k.val)
    (hv : ∀ k : Fin 128, ∑ b : Fin 4, v4 (ix3 b 0 k) = vs X L k.val) :
    Cert.KernelIdeal.Tail.KT (F := Ideal) s4 c4 v4 = Loss X L := by
  have hC : kC (F := Ideal) s4 c4 = Cert.ReferenceIdeal.Tail.rC (F := Ideal) (cntA L) (smA X L) := by
    funext i
    obtain ⟨k, ch, rfl⟩ : ∃ (k : Fin 19) (ch : Fin 64), i = ix2 k ch := ⟨i 0, i 1, eq_ix2 i⟩
    rw [kC_apply, kcen_apply X L s4 c4 hs hc, rC_apply]
    rfl
  have hV : kV (F := Ideal) c4 = Cert.ReferenceIdeal.Tail.rV (F := Ideal) (cntA L) := by
    funext i
    obtain ⟨k, rfl⟩ : ∃ k : Fin 19, i = ix1 k := ⟨i 0, eq_ix1 i⟩
    rw [kV_apply, kvalid_apply, krow_c c4 hc, rV_apply]
    rfl
  have hn : kn (F := Ideal) c4 = Cert.ReferenceIdeal.Tail.rn (F := Ideal) (cntA L) := by
    funext i
    rw [kn_apply, rn_apply, Finset.sum_congr rfl fun k _ => congrArg vbit (krow_c c4 hc k)]
    exact sum_lanes (fun k => vbit (cnt L k)) fun k hk => by
      show vbit (cnt L k) = 0
      rw [cnt_eq_zero L (ne_of_range L hL hk), vbit_zero]
  have hlv : klv (F := Ideal) c4 v4 = Cert.ReferenceIdeal.Tail.rlv (F := Ideal) (cntA L) (vsA X L) := by
    funext i
    rw [klv_apply, rlv_apply, hn]
    refine congrArg (Ideal.div · _) ?_
    rw [Finset.sum_congr rfl fun k _ => congrArg₂ pterm (krow_c c4 hc k) (krow_v v4 hv k)]
    exact sum_lanes (fun k => pterm (cnt L k) (vs X L k)) fun k hk => by
      show pterm (cnt L k) (vs X L k) = 0
      rw [cnt_eq_zero L (ne_of_range L hL hk), pterm_zero]
  unfold Cert.KernelIdeal.Tail.KT Loss Cert.ReferenceIdeal.Tail.RT
  rw [hC, hV, hn, hlv]

end Cert.SegLoss
end
-- ==== Proof.KHost.lean ====
/-
  The kernel's result is the loss of its two arguments.

  The run ends with the common tail applied to three arrays the two launches leave: per-batch partial channel sums
  and partial counts (first launch), per-batch partial pull sums (second launch), each over 128 lanes. Read at an
  index, with the reshapes undone (pixel p of a batch is row p / 512, column p % 512, and 512 · (p / 512) + p % 512 = p)
  and a label word compared with a lane's word exactly when the label is the lane's number:
    * the partial channel sums, added over the batches, are the sums of a channel over the pixels of a class,
    * the partial counts, added over the batches, are the numbers of pixels of a class,
    * the centre table the second launch reads is the spec's centre at (channel, lane); its product with the one-hot
      row of a pixel's label picks the centre of the pixel's own class (the label is below 128), so the launch's pull
      term is the spec's, and the partial pull sums, added over the batches, are the pull sums of a class.
  With every label below 19 the 128-lane tail of these three arrays is the 19-lane loss.
-/
import proofs.«402319_j32229434589496_3_alg».proof.Proof.K0Val
import proofs.«402319_j32229434589496_3_alg».proof.Proof.K1Val
import proofs.«402319_j32229434589496_3_alg».proof.Proof.KFold
import proofs.«402319_j32229434589496_3_alg».proof.Proof.Collapse
import proofs.«402319_j32229434589496_3_alg».proof.Proof.Gen.KernelIdeal.Frame
import Idealize.ShloMosaic.Lib.Pipeline.Value
import Idealize.ShloMosaic.Lib.ValueIdx

set_option maxRecDepth 16384

noncomputable section

namespace Cert.KernelIdeal.KH

open Cert.KernelIdeal Cert.KernelIdeal.Gen Cert.SegLoss Idealize.ShloMosaic Idealize.ShloMosaic.TcCoe Idealize.ShloMosaic.ValueIdx

/-- The embedding reshape read at (batch, channel, pixel): the entry at (batch, channel, row, column). -/
theorem reshape_x {α : Type} (x : S4x64x512x512.Idx → α) (h : S4x64x512x512.ShapeCasts S4x64x262144)
    (b : Fin 4) (ch : Fin 64) (p : Fin 262144) :
    shapeCast S4x64x262144 x h (ix3 b ch p) = x (ix4 b ch (prow p) (pcol p)) :=
  shapeCast_apply x h _ _ (by
    rw [Shape.rowMajor_val_four, Shape.rowMajor_val_three]
    show ((b.val * 64 + ch.val) * 512 + p.val / 512) * 512 + p.val % 512 = (b.val * 64 + ch.val) * 262144 + p.val
    omega)

/-- The label reshape read at (batch, 0, pixel): the entry at (batch, row, column). -/
theorem reshape_l {α : Type} (t : S4x512x512.Idx → α) (h : S4x512x512.ShapeCasts S4x1x262144)
    (b : Fin 4) (u : Fin 1) (p : Fin 262144) :
    shapeCast S4x1x262144 t h (ix3 b u p) = t (ix3 b (prow p) (pcol p)) :=
  shapeCast_apply t h _ _ (by
    have hu : u.val = 0 := by omega
    rw [Shape.rowMajor_val_three, Shape.rowMajor_val_three]
    show (b.val * 512 + p.val / 512) * 512 + p.val % 512 = (b.val * 1 + u.val) * 262144 + p.val
    omega)

/-- A 32-bit word is the word of a lane number below 128 exactly when it spells that number. -/
theorem word_eq_iff (w : BitVec 32) (k : Fin 128) : w = BitVec.ofNat 32 k.val ↔ w.toNat = k.val := by
  constructor
  · intro h
    rw [h, BitVec.toNat_ofNat]
    have := k.isLt
    omega
  · intro h
    apply BitVec.eq_of_toNat_eq
    rw [h, BitVec.toNat_ofNat]
    have := k.isLt
    omega

/-- The one-hot pick: a table row against the indicator of lane `l` is the entry at `l`. -/
theorem onehot_pick (l : ℕ) (hl : l < 128) (f : Fin 128 → EReal) :
    ∑ k' : Fin 128, f k' * (if l = k'.val then (1 : EReal) else 0) = f ⟨l, hl⟩ := by
  rw [Finset.sum_eq_single (⟨l, hl⟩ : Fin 128)]
  · rw [if_pos rfl, mul_one]
  · intro k' _ hne
    rw [if_neg (fun e => hne (Fin.ext e.symm)), mul_zero]
  · intro h
    exact absurd (Finset.mem_univ _) h

variable (m : (ℓ : Loc nD τ sig) → Buf (Elt Ideal) ℓ) (ρ : Dev nD → PrngReg) (c : Dev nD)

/-- The launch contents of the two arguments, read as the spec reads them. -/
abbrev Xm : Fin 4 → Fin 64 → Fin 262144 → EReal := Xof (m ((c.tc : Thread nD τ).loc main_arg0))
abbrev Lm : Fin 4 → Fin 262144 → ℕ := Lof (m ((c.tc : Thread nD τ).loc main_arg1))

/-- The first launch's embedding operand at (batch, channel, pixel). -/
theorem x0_apply (b : Fin 4) (ch : Fin 64) (p : Fin 262144) :
    K0.xarr (V1 m ρ) c (ix3 b ch p) = Xm m c b ch p := by
  show V1 m ρ c main_v0 (ix3 b ch p) = _
  rw [KF.x_in0, reshape_x]
  rfl

/-- The first launch's label operand at (batch, 0, pixel) is lane `k`'s word exactly when the label is `k`. -/
theorem l0_iff (b : Fin 4) (p : Fin 262144) (k : Fin 128) :
    K0.larr (V1 m ρ) c (ix3 b 0 p) = BitVec.ofNat 32 k.val ↔ Lm m c b p = k.val := by
  show V1 m ρ c main_v1 (ix3 b 0 p) = _ ↔ _
  rw [KF.lab_in0, reshape_l, word_eq_iff]
  rfl

/-- The same two reads at the second launch's entry. -/
theorem x1_apply (b : Fin 4) (ch : Fin 64) (p : Fin 262144) :
    K1.xarr (V3 m ρ) c (ix3 b ch p) = Xm m c b ch p := by
  show V3 m ρ c main_v0 (ix3 b ch p) = _
  rw [KF.x_in1, reshape_x]
  rfl

theorem l1_iff (b : Fin 4) (p : Fin 262144) (k : Fin 128) :
    K1.larr (V3 m ρ) c (ix3 b 0 p) = BitVec.ofNat 32 k.val ↔ Lm m c b p = k.val := by
  show V3 m ρ c main_v1 (ix3 b 0 p) = _ ↔ _
  rw [KF.lab_in1, reshape_l, word_eq_iff]
  rfl

/-- The three arrays the two launches leave: partial channel sums, partial counts, partial pull sums. -/
abbrev s4 : FVec Ideal S4x64x128 .f32 := W2 m ρ c (Proc.devRef .tc main_v2_0)
abbrev c4 : FVec Ideal S4x1x128 .f32 := W2 m ρ c (Proc.devRef .tc main_v2_1)
abbrev v4 : FVec Ideal S4x1x128 .f32 := W4 m ρ c (Proc.devRef .tc main_v13)

/-- The per-batch partial channel sums, added over the batches, are the spec's channel sums. -/
theorem hs_run (ch : Fin 64) (k : Fin 128) :
    ∑ b : Fin 4, s4 m ρ c (ix3 b ch k) = sm (Xm m c) (Lm m c) ch k.val := by
  have e : s4 m ρ c = (dat0 (V1 m ρ) c).arrAt 2 cfg0.N := W2_arr m ρ c 2
  unfold sm
  refine Finset.sum_congr rfl fun b _ => ?_
  rw [e, K0.sums_arr]
  refine Finset.sum_congr rfl fun p _ => ?_
  exact if_congr (l0_iff m ρ c b p k) (x0_apply m ρ c b ch p) rfl

/-- The per-batch partial counts, added over the batches, are the spec's counts. -/
theorem hc_run (k : Fin 128) :
    ∑ b : Fin 4, c4 m ρ c (ix3 b 0 k) = cnt (Lm m c) k.val := by
  have e : c4 m ρ c = (dat0 (V1 m ρ) c).arrAt 3 cfg0.N := W2_arr m ρ c 3
  unfold cnt
  refine Finset.sum_congr rfl fun b _ => ?_
  rw [e, K0.cnts_arr]
  refine Finset.sum_congr rfl fun p _ => ?_
  exact if_congr (l0_iff m ρ c b p k) rfl rfl

/-- The centre the second launch gathers for pixel (b, p), channel ch: the spec's centre of the pixel's class. -/
theorem gath_eq (hL : ∀ b p, Lm m c b p < 19) (b : Fin 4) (ch : Fin 64) (p : Fin 262144) :
    K1.gath (V3 m ρ) c b ch p = cen (Xm m c) (Lm m c) ch (Lm m c b p) := by
  have hl : Lm m c b p < 128 := by have := hL b p; omega
  unfold K1.gath
  have e : ∀ k' : Fin 128,
      K1.carr (V3 m ρ) c (ix2 ch k') * (if K1.larr (V3 m ρ) c (ix3 b 0 p) = BitVec.ofNat 32 k'.val then (1 : EReal) else 0)
        = (fun k'' : Fin 128 => cen (Xm m c) (Lm m c) ch k''.val) k' * (if Lm m c b p = k'.val then (1 : EReal) else 0) := by
    intro k'
    have e1 : K1.carr (V3 m ρ) c (ix2 ch k') = cen (Xm m c) (Lm m c) ch k'.val := by
      show V3 m ρ c main_v8 (ix2 ch k') = _
      rw [KF.cen_in]
      exact kcen_apply (Xm m c) (Lm m c) _ _ (hs_run m ρ c) (hc_run m ρ c) ch k'
    rw [e1]
    exact congrArg _ (if_congr (l1_iff m ρ c b p k') rfl rfl)
  rw [Finset.sum_congr rfl fun k' _ => e k']
  exact onehot_pick (Lm m c b p) hl _

/-- The second launch's pull term of a pixel is the spec's. -/
theorem pull_eq (hL : ∀ b p, Lm m c b p < 19) (b : Fin 4) (p : Fin 262144) :
    K1.pull (V3 m ρ) c b p = vpix (Xm m c) (Lm m c) b p := by
  unfold K1.pull vpix dist2
  simp only [gath_eq m ρ c hL, x1_apply m ρ c]

/-- The per-batch partial pull sums, added over the batches, are the spec's pull sums. -/
theorem hv_run (hL : ∀ b p, Lm m c b p < 19) (k : Fin 128) :
    ∑ b : Fin 4, v4 m ρ c (ix3 b 0 k) = vs (Xm m c) (Lm m c) k.val := by
  have e : v4 m ρ c = (dat1 (V3 m ρ) c).arrAt 3 cfg1.N := W4_arr m ρ c 3
  unfold vs
  refine Finset.sum_congr rfl fun b _ => ?_
  rw [e, K1.vs_arr]
  refine Finset.sum_congr rfl fun p _ => ?_
  exact if_congr (l1_iff m ρ c b p k) (pull_eq m ρ c hL b p) rfl

open Cert.KernelIdeal Cert.KernelIdeal.Gen Cert.SegLoss Idealize.ShloMosaic Idealize.ShloMosaic.ValueIdx
theorem kernel_result (m : (ℓ : Loc nD τ sig) → Buf (Elt Ideal) ℓ) (ρ : Dev nD → PrngReg) (c : Dev nD)
    (hL : ∀ b p, Lof (m ((c.tc : Thread nD τ).loc main_arg1)) b p < 19) :
    W17 (F := Ideal) m ρ c (Proc.devRef .tc main_v65) = Loss (Xof (m ((c.tc : Thread nD τ).loc main_arg0))) (Lof (m ((c.tc : Thread nD τ).loc main_arg1))) := by
  rw [KF.tail_fold]
  exact collapse _ _ hL _ _ _ (hs_run m ρ c) (hc_run m ρ c) (hv_run m ρ c hL)

end Cert.KernelIdeal.KH

end
-- ==== Proof.lean ====
/-
  The certificate of the discriminative-loss kernel against its jnp reference, over the extended reals.

  The kernel computes, in two passes over the pixels, per-class counts, channel sums and pull sums as one-hot
  contractions over 128 padded class lanes, accumulated over 16 pixel blocks per batch and kept as 4 per-batch partials;
  the host adds the partials, forms centres `sum / max(count, 1)`, validity `count > 20`, and the pull, push and
  centre-norm terms. The reference computes the same per-class quantities by segment sums over 19 classes and a row
  gather of the centres. Under the stated domain — every label in [0, 19) — the padded lanes 19 … 127 count no pixel,
  are never valid and add nothing, a one-hot product with the centre table picks the labelled class's centre, and every
  regrouping of the sums is a regrouping of a finite sum of extended reals (commutative, associative, `0 · x = 0`), so
  both programs end with the same number, `Cert.SegLoss.Loss` of the pixel and label arrays.

  The three frames: the two kernel programs' frames are the generated frame certificates; the reference's is its run
  with the result dropped. `preserves` has no entry: the idealization rewrote nothing.
-/
import proofs.«402319_j32229434589496_3_alg».proof.Defs
import proofs.«402319_j32229434589496_3_alg».proof.Proof.Gen.Kernel
import proofs.«402319_j32229434589496_3_alg».proof.Proof.Gen.Kernel.Frame
import proofs.«402319_j32229434589496_3_alg».proof.Proof.Gen.KernelIdeal
import proofs.«402319_j32229434589496_3_alg».proof.Proof.Gen.KernelIdeal.Frame
import proofs.«402319_j32229434589496_3_alg».proof.Proof.Gen.ReferenceIdeal
import proofs.«402319_j32229434589496_3_alg».proof.Proof.Gen.Pre_finite_inputs
import proofs.«402319_j32229434589496_3_alg».proof.Proof.KRun
import proofs.«402319_j32229434589496_3_alg».proof.Proof.RefRun
import proofs.«402319_j32229434589496_3_alg».proof.Proof.Tails
import proofs.«402319_j32229434589496_3_alg».proof.Proof.PreLabels
import proofs.«402319_j32229434589496_3_alg».proof.Proof.RefPull
import proofs.«402319_j32229434589496_3_alg».proof.Proof.KHost
import Idealize.ShloMosaic.Adequacy
import Idealize.ShloMosaic.Init

noncomputable section

namespace Cert.Proof

open Idealize.ShloMosaic Idealize.SL.Sem Cert.SegLoss

/-- The word-level kernel runs and leaves its arguments: the generated frame certificate. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end at `Loss` of the pixels and labels: the kernel's run ends with its result at the last boundary's
    contents, which the host arithmetic over the two launches' arrays turns into `Loss`; the reference's run ends at its
    composed term, which is `Loss` of arguments that agree. The label range comes from the precondition. -/
theorem algebraic : Cert.algebraic_KernelIdeal_ReferenceIdeal := by
  intro m ρ m' ρ' hpre hagree
  refine ⟨fun c => Loss (Xof (m ((c.tc : Thread Cert.KernelIdeal.nD Cert.KernelIdeal.τ).loc Cert.KernelIdeal.main_arg0)))
    (Lof (m ((c.tc : Thread Cert.KernelIdeal.nD Cert.KernelIdeal.τ).loc Cert.KernelIdeal.main_arg1))), ?_, ?_⟩
  · exact (θ_run Cert.KernelIdeal.defs _ _).mono
      (fun _ h c => ⟨(h c).1.trans (Cert.KernelIdeal.KH.kernel_result m ρ c (labels_lt m hpre c)), (h c).2⟩)
      (Cert.KernelIdeal.GenV.run_val (F := Ideal) m ρ)
  · refine (θ_run Cert.ReferenceIdeal.defs _ _).mono (fun _ h c => ⟨(h c).1.trans ?_, (h c).2⟩)
      (Cert.ReferenceIdeal.ValueP.run (F := Ideal) m' ρ')
    have hL' : ∀ b p, Lof (m' ((c.tc : Thread Cert.ReferenceIdeal.nD Cert.ReferenceIdeal.τ).loc Cert.ReferenceIdeal.main_arg1)) b p < 19 := by
      rw [(hagree c).2]; exact labels_lt m hpre c
    rw [Cert.ReferenceIdeal.RV.ref_result m' c hL', (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
